-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000x3 : Shape := ⟨2, ![2000, 3]⟩
abbrev S2000 : Shape := ⟨1, ![2000]⟩
abbrev S64000 : Shape := ⟨1, ![64000]⟩
abbrev S_ : Shape := ⟨0, ![]⟩

class Facts : Prop where
  bcast_S_S2000x3 : S_.BroadcastsInDim S2000x3 (![] : Fin 0 → Fin S2000x3.rank)
  reducesTo_S2000x3_S_d0_1 : S2000x3.ReducesTo [0, 1] S_
  h_S_ : 0 < S_.numel

variable [Facts]

def fn {F : FTy → Type} [FloatOps F] (main_arg0 : FVec F S2000x3 .f32) (main_arg1 : IVec S2000 32) (main_arg2 : IVec S64000 32) : IVec S_ 1 :=
  let main_v0 : FVec F S2000x3 .f32 := Host.absf main_arg0
  let main_cst : FVec F S_ .f32 := constant S_ .f32 0x7F800000#32
  let main_v1 : FVec F S2000x3 .f32 := broadcastInDim S2000x3 ![] bcast_S_S2000x3 main_cst
  let main_v2 : IVec S2000x3 1 := cmpf .olt main_v0 main_v1
  let main_c : IVec S_ 1 := constantI S_ 1 1#1
  let main_v3 : IVec S_ 1 := (fun x v => Host.reduce IntOp.andi x v reducesTo_S2000x3_S_d0_1 h_S_) main_v2 main_c
  main_v3
-- ==== Kernel.lean ====
abbrev S2000x3 : Shape := ⟨2, ![2000, 3]⟩
abbrev S2000 : Shape := ⟨1, ![2000]⟩
abbrev S64000 : Shape := ⟨1, ![64000]⟩
abbrev S496 : Shape := ⟨1, ![496]⟩
abbrev S2000x32 : Shape := ⟨2, ![2000, 32]⟩
abbrev S32 : Shape := ⟨1, ![32]⟩
abbrev S1x32 : Shape := ⟨2, ![1, 32]⟩
abbrev S2000x1 : Shape := ⟨2, ![2000, 1]⟩
abbrev S_ : Shape := ⟨0, ![]⟩
abbrev S2000x32x1 : Shape := ⟨3, ![2000, 32, 1]⟩
abbrev S2000x32x3 : Shape := ⟨3, ![2000, 32, 3]⟩
abbrev S2000x1x3 : Shape := ⟨3, ![2000, 1, 3]⟩
abbrev S496x1 : Shape := ⟨2, ![496, 1]⟩
abbrev S2000x496 : Shape := ⟨2, ![2000, 496]⟩
abbrev S2000x496x3 : Shape := ⟨3, ![2000, 496, 3]⟩
abbrev S2048x32 : Shape := ⟨2, ![2048, 32]⟩
abbrev S2048x496 : Shape := ⟨2, ![2048, 496]⟩
abbrev S32x2048 : Shape := ⟨2, ![32, 2048]⟩
abbrev S496x2048 : Shape := ⟨2, ![496, 2048]⟩
abbrev S51x2048 : Shape := ⟨2, ![51, 2048]⟩
abbrev S32x512 : Shape := ⟨2, ![32, 512]⟩
abbrev S496x512 : Shape := ⟨2, ![496, 512]⟩
abbrev S51x512 : Shape := ⟨2, ![51, 512]⟩
abbrev S512 : Shape := ⟨1, ![512]⟩
abbrev S1x512 : Shape := ⟨2, ![1, 512]⟩
abbrev S8x512 : Shape := ⟨2, ![8, 512]⟩
abbrev S43x512 : Shape := ⟨2, ![43, 512]⟩
abbrev S51x2000 : Shape := ⟨2, ![51, 2000]⟩
abbrev S2000x51 : Shape := ⟨2, ![2000, 51]⟩

abbrev nBuf : Space → Nat
  | .hbm => 124
  | .vmem => 14
  | .smem => 0
  | _ => 0

abbrev bufTy : (tb : Table) → Fin (tcTables nBuf tb) → BufTy
  | .hbm, ⟨0, _⟩ => ⟨S2000x3, .f32⟩
  | .hbm, ⟨1, _⟩ => ⟨S2000, .i32⟩
  | .hbm, ⟨2, _⟩ => ⟨S64000, .i32⟩
  | .hbm, ⟨3, _⟩ => ⟨S496, .i32⟩
  | .hbm, ⟨4, _⟩ => ⟨S496, .i1⟩
  | .hbm, ⟨5, _⟩ => ⟨S496, .i32⟩
  | .hbm, ⟨6, _⟩ => ⟨S496, .i1⟩
  | .hbm, ⟨7, _⟩ => ⟨S496, .i1⟩
  | .hbm, ⟨8, _⟩ => ⟨S496, .i1⟩
  | .hbm, ⟨9, _⟩ => ⟨S496, .i1⟩
  | .hbm, ⟨10, _⟩ => ⟨S496, .i1⟩
  | .hbm, ⟨11, _⟩ => ⟨S496, .i1⟩
  | .hbm, ⟨12, _⟩ => ⟨S2000x32, .i32⟩
  | .hbm, ⟨13, _⟩ => ⟨S32, .i32⟩
  | .hbm, ⟨14, _⟩ => ⟨S1x32, .i32⟩
  | .hbm, ⟨15, _⟩ => ⟨S2000x1, .i32⟩
  | .hbm, ⟨16, _⟩ => ⟨S2000x32, .i32⟩
  | .hbm, ⟨17, _⟩ => ⟨S2000x32, .i32⟩
  | .hbm, ⟨18, _⟩ => ⟨S2000x32, .i1⟩
  | .hbm, ⟨19, _⟩ => ⟨S_, .i32⟩
  | .hbm, ⟨20, _⟩ => ⟨S2000x32, .i32⟩
  | .hbm, ⟨21, _⟩ => ⟨S2000x32, .i1⟩
  | .hbm, ⟨22, _⟩ => ⟨S_, .i32⟩
  | .hbm, ⟨23, _⟩ => ⟨S2000x32, .i32⟩
  | .hbm, ⟨24, _⟩ => ⟨S2000x32, .i32⟩
  | .hbm, ⟨25, _⟩ => ⟨S2000x32, .i32⟩
  | .hbm, ⟨26, _⟩ => ⟨S2000x32x1, .i32⟩
  | .hbm, ⟨27, _⟩ => ⟨S2000x32x3, .f32⟩
  | .hbm, ⟨28, _⟩ => ⟨S2000x1x3, .f32⟩
  | .hbm, ⟨29, _⟩ => ⟨S2000x32x3, .f32⟩
  | .hbm, ⟨30, _⟩ => ⟨S2000x32x3, .f32⟩
  | .hbm, ⟨31, _⟩ => ⟨S2000x32x3, .f32⟩
  | .hbm, ⟨32, _⟩ => ⟨S_, .f32⟩
  | .hbm, ⟨33, _⟩ => ⟨S2000x32, .f32⟩
  | .hbm, ⟨34, _⟩ => ⟨S2000x32, .f32⟩
  | .hbm, ⟨35, _⟩ => ⟨S_, .f32⟩
  | .hbm, ⟨36, _⟩ => ⟨S2000x32, .f32⟩
  | .hbm, ⟨37, _⟩ => ⟨S2000x32, .i1⟩
  | .hbm, ⟨38, _⟩ => ⟨S2000x32, .i1⟩
  | .hbm, ⟨39, _⟩ => ⟨S_, .i32⟩
  | .hbm, ⟨40, _⟩ => ⟨S496, .i32⟩
  | .hbm, ⟨41, _⟩ => ⟨S496, .i32⟩
  | .hbm, ⟨42, _⟩ => ⟨S496, .i32⟩
  | .hbm, ⟨43, _⟩ => ⟨S496x1, .i32⟩
  | .hbm, ⟨44, _⟩ => ⟨S2000x496, .f32⟩
  | .hbm, ⟨45, _⟩ => ⟨S_, .i32⟩
  | .hbm, ⟨46, _⟩ => ⟨S496, .i32⟩
  | .hbm, ⟨47, _⟩ => ⟨S496, .i32⟩
  | .hbm, ⟨48, _⟩ => ⟨S496, .i32⟩
  | .hbm, ⟨49, _⟩ => ⟨S496x1, .i32⟩
  | .hbm, ⟨50, _⟩ => ⟨S2000x496, .f32⟩
  | .hbm, ⟨51, _⟩ => ⟨S_, .i32⟩
  | .hbm, ⟨52, _⟩ => ⟨S496, .i32⟩
  | .hbm, ⟨53, _⟩ => ⟨S496, .i32⟩
  | .hbm, ⟨54, _⟩ => ⟨S496, .i32⟩
  | .hbm, ⟨55, _⟩ => ⟨S496x1, .i32⟩
  | .hbm, ⟨56, _⟩ => ⟨S2000x496x3, .f32⟩
  | .hbm, ⟨57, _⟩ => ⟨S_, .i32⟩
  | .hbm, ⟨58, _⟩ => ⟨S496, .i32⟩
  | .hbm, ⟨59, _⟩ => ⟨S496, .i32⟩
  | .hbm, ⟨60, _⟩ => ⟨S496, .i32⟩
  | .hbm, ⟨61, _⟩ => ⟨S496x1, .i32⟩
  | .hbm, ⟨62, _⟩ => ⟨S2000x496x3, .f32⟩
  | .hbm, ⟨63, _⟩ => ⟨S2000x496x3, .f32⟩
  | .hbm, ⟨64, _⟩ => ⟨S2000x496x3, .f32⟩
  | .hbm, ⟨65, _⟩ => ⟨S_, .f32⟩
  | .hbm, ⟨66, _⟩ => ⟨S2000x496, .f32⟩
  | .hbm, ⟨67, _⟩ => ⟨S2000x496, .f32⟩
  | .hbm, ⟨68, _⟩ => ⟨S_, .i32⟩
  | .hbm, ⟨69, _⟩ => ⟨S496, .i32⟩
  | .hbm, ⟨70, _⟩ => ⟨S496, .i32⟩
  | .hbm, ⟨71, _⟩ => ⟨S496, .i32⟩
  | .hbm, ⟨72, _⟩ => ⟨S496x1, .i32⟩
  | .hbm, ⟨73, _⟩ => ⟨S2000x496, .i1⟩
  | .hbm, ⟨74, _⟩ => ⟨S_, .i32⟩
  | .hbm, ⟨75, _⟩ => ⟨S496, .i32⟩
  | .hbm, ⟨76, _⟩ => ⟨S496, .i32⟩
  | .hbm, ⟨77, _⟩ => ⟨S496, .i32⟩
  | .hbm, ⟨78, _⟩ => ⟨S496x1, .i32⟩
  | .hbm, ⟨79, _⟩ => ⟨S2000x496, .i1⟩
  | .hbm, ⟨80, _⟩ => ⟨S2000x496, .i1⟩
  | .hbm, ⟨81, _⟩ => ⟨S_, .i32⟩
  | .hbm, ⟨82, _⟩ => ⟨S496, .i32⟩
  | .hbm, ⟨83, _⟩ => ⟨S496, .i32⟩
  | .hbm, ⟨84, _⟩ => ⟨S496, .i32⟩
  | .hbm, ⟨85, _⟩ => ⟨S496x1, .i32⟩
  | .hbm, ⟨86, _⟩ => ⟨S2000x496, .f32⟩
  | .hbm, ⟨87, _⟩ => ⟨S_, .f32⟩
  | .hbm, ⟨88, _⟩ => ⟨S2000x496, .f32⟩
  | .hbm, ⟨89, _⟩ => ⟨S2000x496, .i1⟩
  | .hbm, ⟨90, _⟩ => ⟨S2000x496, .i1⟩
  | .hbm, ⟨91, _⟩ => ⟨S_, .f32⟩
  | .hbm, ⟨92, _⟩ => ⟨S2000x496, .f32⟩
  | .hbm, ⟨93, _⟩ => ⟨S2000x496, .i1⟩
  | .hbm, ⟨94, _⟩ => ⟨S2000x496, .i1⟩
  | .hbm, ⟨95, _⟩ => ⟨S2000x32, .f32⟩
  | .hbm, ⟨96, _⟩ => ⟨S2000x496, .f32⟩
  | .hbm, ⟨97, _⟩ => ⟨S_, .f32⟩
  | .hbm, ⟨98, _⟩ => ⟨S_, .f32⟩
  | .hbm, ⟨99, _⟩ => ⟨S2048x32, .f32⟩
  | .hbm, ⟨100, _⟩ => ⟨S_, .f32⟩
  | .hbm, ⟨101, _⟩ => ⟨S_, .f32⟩
  | .hbm, ⟨102, _⟩ => ⟨S2048x32, .f32⟩
  | .hbm, ⟨103, _⟩ => ⟨S_, .f32⟩
  | .hbm, ⟨104, _⟩ => ⟨S_, .f32⟩
  | .hbm, ⟨105, _⟩ => ⟨S2048x496, .f32⟩
  | .hbm, ⟨106, _⟩ => ⟨S_, .f32⟩
  | .hbm, ⟨107, _⟩ => ⟨S_, .f32⟩
  | .hbm, ⟨108, _⟩ => ⟨S2048x496, .f32⟩
  | .hbm, ⟨109, _⟩ => ⟨S_, .f32⟩
  | .hbm, ⟨110, _⟩ => ⟨S_, .f32⟩
  | .hbm, ⟨111, _⟩ => ⟨S2048x496, .f32⟩
  | .hbm, ⟨112, _⟩ => ⟨S_, .f32⟩
  | .hbm, ⟨113, _⟩ => ⟨S_, .f32⟩
  | .hbm, ⟨114, _⟩ => ⟨S2048x496, .f32⟩
  | .hbm, ⟨115, _⟩ => ⟨S32x2048, .f32⟩
  | .hbm, ⟨116, _⟩ => ⟨S32x2048, .f32⟩
  | .hbm, ⟨117, _⟩ => ⟨S496x2048, .f32⟩
  | .hbm, ⟨118, _⟩ => ⟨S496x2048, .f32⟩
  | .hbm, ⟨119, _⟩ => ⟨S496x2048, .f32⟩
  | .hbm, ⟨120, _⟩ => ⟨S496x2048, .f32⟩
  | .hbm, ⟨121, _⟩ => ⟨S51x2048, .f32⟩
  | .hbm, ⟨122, _⟩ => ⟨S51x2000, .f32⟩
  | .hbm, ⟨123, _⟩ => ⟨S2000x51, .f32⟩
  | .local _ .vmem, ⟨0, _⟩ => ⟨S32x512, .f32⟩
  | .local _ .vmem, ⟨1, _⟩ => ⟨S32x512, .f32⟩
  | .local _ .vmem, ⟨2, _⟩ => ⟨S32x512, .f32⟩
  | .local _ .vmem, ⟨3, _⟩ => ⟨S32x512, .f32⟩
  | .local _ .vmem, ⟨4, _⟩ => ⟨S496x512, .f32⟩
  | .local _ .vmem, ⟨5, _⟩ => ⟨S496x512, .f32⟩
  | .local _ .vmem, ⟨6, _⟩ => ⟨S496x512, .f32⟩
  | .local _ .vmem, ⟨7, _⟩ => ⟨S496x512, .f32⟩
  | .local _ .vmem, ⟨8, _⟩ => ⟨S496x512, .f32⟩
  | .local _ .vmem, ⟨9, _⟩ => ⟨S496x512, .f32⟩
  | .local _ .vmem, ⟨10, _⟩ => ⟨S496x512, .f32⟩
  | .local _ .vmem, ⟨11, _⟩ => ⟨S496x512, .f32⟩
  | .local _ .vmem, ⟨12, _⟩ => ⟨S51x512, .f32⟩
  | .local _ .vmem, ⟨13, _⟩ => ⟨S51x512, .f32⟩
  | _, _ => ⟨S2000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_c_5 : Ref sig .tc := ⟨.hbm, 9, rfl⟩
abbrev main_c_6 : Ref sig .tc := ⟨.hbm, 10, rfl⟩
abbrev main_c_7 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_8 : Ref sig .tc := ⟨.hbm, 19, rfl⟩
abbrev main_v7 : Ref sig .tc := ⟨.hbm, 20, rfl⟩
abbrev main_v8 : Ref sig .tc := ⟨.hbm, 21, rfl⟩
abbrev main_c_9 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_v19 : Ref sig .tc := ⟨.hbm, 34, rfl⟩
abbrev main_cst_10 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_11 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_12 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_13 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_14 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_15 : Ref sig .tc := ⟨.hbm, 65, rfl⟩
abbrev main_v45 : Ref sig .tc := ⟨.hbm, 66, rfl⟩
abbrev main_v46 : Ref sig .tc := ⟨.hbm, 67, rfl⟩
abbrev main_c_16 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_17 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_18 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_19 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_20 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_21 : Ref sig .tc := ⟨.hbm, 97, rfl⟩
abbrev main_call0_v0 : Ref sig .tc := ⟨.hbm, 98, rfl⟩
abbrev main_v71 : Ref sig .tc := ⟨.hbm, 99, rfl⟩
abbrev main_cst_22 : Ref sig .tc := ⟨.hbm, 100, rfl⟩
abbrev main_call1_v0 : Ref sig .tc := ⟨.hbm, 101, rfl⟩
abbrev main_v72 : Ref sig .tc := ⟨.hbm, 102, rfl⟩
abbrev main_cst_23 : Ref sig .tc := ⟨.hbm, 103, rfl⟩
abbrev main_call2_v0 : Ref sig .tc := ⟨.hbm, 104, rfl⟩
abbrev main_v73 : Ref sig .tc := ⟨.hbm, 105, rfl⟩
abbrev main_cst_24 : Ref sig .tc := ⟨.hbm, 106, rfl⟩
abbrev main_call3_v0 : Ref sig .tc := ⟨.hbm, 107, rfl⟩
abbrev main_v74 : Ref sig .tc := ⟨.hbm, 108, rfl⟩
abbrev main_cst_25 : Ref sig .tc := ⟨.hbm, 109, rfl⟩
abbrev main_call4_v0 : Ref sig .tc := ⟨.hbm, 110, rfl⟩
abbrev main_v75 : Ref sig .tc := ⟨.hbm, 111, rfl⟩
abbrev main_cst_26 : Ref sig .tc := ⟨.hbm, 112, rfl⟩
abbrev main_call5_v0 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S496x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S496x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S496x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S496x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S51x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S64000_S2000x32 : S64000.ShapeCasts S2000x32
  bcast_S32_S1x32_1 : S32.BroadcastsInDim S1x32 (![1] : Fin 1 → Fin S1x32.rank)
  bcast_S2000_S2000x1_0 : S2000.BroadcastsInDim S2000x1 (![0] : Fin 1 → Fin S2000x1.rank)
  bcast_S1x32_S2000x32_0_1 : S1x32.BroadcastsInDim S2000x32 (![0, 1] : Fin 2 → Fin S2000x32.rank)
  bcast_S2000x1_S2000x32_0_1 : S2000x1.BroadcastsInDim S2000x32 (![0, 1] : Fin 2 → Fin S2000x32.rank)
  bcast_S_S2000x32 : S_.BroadcastsInDim S2000x32 (![] : Fin 0 → Fin S2000x32.rank)
  bcast_S2000x32_S2000x32x1_0_1 : S2000x32.BroadcastsInDim S2000x32x1 (![0, 1] : Fin 2 → Fin S2000x32x1.rank)
  bcast_S2000x3_S2000x1x3_0_2 : S2000x3.BroadcastsInDim S2000x1x3 (![0, 2] : Fin 2 → Fin S2000x1x3.rank)
  bcast_S2000x1x3_S2000x32x3_0_1_2 : S2000x1x3.BroadcastsInDim S2000x32x3 (![0, 1, 2] : Fin 3 → Fin S2000x32x3.rank)
  reducesTo_S2000x32x3_S2000x32_d2 : S2000x32x3.ReducesTo [2] S2000x32
  h_S_ : 0 < S_.numel
  bcast_S_S496 : S_.BroadcastsInDim S496 (![] : Fin 0 → Fin S496.rank)
  bcast_S496_S496x1_0 : S496.BroadcastsInDim S496x1 (![0] : Fin 1 → Fin S496x1.rank)
  reducesTo_S2000x496x3_S2000x496_d2 : S2000x496x3.ReducesTo [2] S2000x496
  bcast_S_S2000x496 : S_.BroadcastsInDim S2000x496 (![] : Fin 0 → Fin S2000x496.rank)
  pads_S2000x32_S2048x32_0480_000 : S2000x32.Pads (![0, 0] : Fin 2 → Nat) ![48, 0] ![0, 0] S2048x32
  pads_S2000x496_S2048x496_0480_000 : S2000x496.Pads (![0, 0] : Fin 2 → Nat) ![48, 0] ![0, 0] S2048x496
  transposes_S2048x32_S32x2048_1_0 : S2048x32.Transposes [1, 0] S32x2048
  transposes_S2048x496_S496x2048_1_0 : S2048x496.Transposes [1, 0] S496x2048
  inb_S32x512_S32x512_0_0 : ∀ a, (![0, 0] : Fin 2 → Nat) a + S32x512.size a ≤ S32x512.size a
  h_S32x512 : 0 < S32x512.numel
  shapeCasts_S32x512_S32x512 : S32x512.ShapeCasts S32x512
  reduces_S32x512_S512 : S32x512.Reduces [0] S512
  shapeCasts_S512_S1x512 : S512.ShapeCasts S1x512
  concatenates_S1x512_S1x512_S1x512_S1x512_S1x512_S1x512_S1x512_S1x512_S8x512_d0 : Shape.Concatenates [S1x512, S1x512, S1x512, S1x512, S1x512, S1x512, S1x512, S1x512] S8x512 0
  inb_S496x512_S496x512_0_0 : ∀ a, (![0, 0] : Fin 2 → Nat) a + S496x512.size a ≤ S496x512.size a
  h_S496x512 : 0 < S496x512.numel
  shapeCasts_S496x512_S496x512 : S496x512.ShapeCasts S496x512
  natLt_1_32 : 1 < 32
  reduces_S496x512_S512 : S496x512.Reduces [0] S512
  concatenates_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S43x512_d0 : Shape.Concatenates (S1x512 :: S1x512 :: S1x512 :: S1x512 :: S1x512 :: S1x512 :: S1x512 :: S1x512 :: S1x512 :: S1x512 :: S1x512 :: S1x512 :: S1x512 :: S1x512 :: S1x512 :: S1x512 :: S1x512 :: S1x512 :: S1x512 :: S1x512 :: S1x512 :: S1x512 :: S1x512 :: S1x512 :: S1x512 :: S1x512 :: S1x512 :: S1x512 :: S1x512 :: S1x512 :: S1x512 :: S1x512 :: S1x512 :: S1x512 :: S1x512 :: S1x512 :: S1x512 :: S1x512 :: S1x512 :: S1x512 :: S1x512 :: S1x512 :: S1x512 :: []) S43x512 0
  concatenates_S8x512_S43x512_S51x512_d0 : Shape.Concatenates [S8x512, S43x512] S51x512 0
  inb_S51x512_S51x512_0_0 : ∀ a, (![0, 0] : Fin 2 → Nat) a + S51x512.size a ≤ S51x512.size a
  h_S51x512 : 0 < S51x512.numel
  slices_S51x2048_S51x2000_0_0 : S51x2048.Slices ![0, 0] S51x2000
  transposes_S51x2000_S2000x51_1_0 : S51x2000.Transposes [1, 0] S2000x51
  gather_S2000x3_S2000x32x1_S2000x32x3_2_0_n_n_0_2_13_wf : GatherDims.WF S2000x3 S2000x32x1 S2000x32x3 [2] [0] [] [0] [] 2 ![1, 3]
  gather_S2000x32_S496x1_S2000x496_0_1_n_n_1_1_20001_wf : GatherDims.WF S2000x32 S496x1 S2000x496 [0] [1] [] [1] [] 1 ![2000, 1]
  gather_S2000x32x3_S496x1_S2000x496x3_02_1_n_n_1_1_200013_wf : GatherDims.WF S2000x32x3 S496x1 S2000x496x3 [0, 2] [1] [] [1] [] 1 ![2000, 1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512.size a ≤ S32x2048.size a
  hwx0_0 : ∀ i : grid0.Coords, EltTy.bits .f32 = 32 ∨ (Rect.block (s := S32x2048) S32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x2048.size a
  hwx0_1 : ∀ i : grid0.Coords, EltTy.bits .f32 = 32 ∨ (Rect.block (s := S32x2048) S32x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S496x512.size a ≤ S496x2048.size a
  hwx0_2 : ∀ i : grid0.Coords, EltTy.bits .f32 = 32 ∨ (Rect.block (s := S496x2048) S496x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S496x512.size a ≤ S496x2048.size a
  hwx0_3 : ∀ i : grid0.Coords, EltTy.bits .f32 = 32 ∨ (Rect.block (s := S496x2048) S496x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S496x512.size a ≤ S496x2048.size a
  hwx0_4 : ∀ i : grid0.Coords, EltTy.bits .f32 = 32 ∨ (Rect.block (s := S496x2048) S496x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S496x512.size a ≤ S496x2048.size a
  hwx0_5 : ∀ i : grid0.Coords, EltTy.bits .f32 = 32 ∨ (Rect.block (s := S496x2048) S496x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S51x512.size a ≤ S51x2048.size a
  hwx0_6 : ∀ i : grid0.Coords, EltTy.bits .f32 = 32 ∨ (Rect.block (s := S51x2048) S51x512.size (cc0_transform_6 i) (hinb0_6 i)).WholeWords (EltTy.packing .f32)

variable [Facts₀]

def gather_S2000x3_S2000x32x1_S2000x32x3_2_0_n_n_0_2_13 : GatherDims S2000x3 S2000x32x1 S2000x32x3 where
  offsetDims := [2]
  collapsedSliceDims := [0]
  operandBatchingDims := []
  startIndicesBatchingDims := []
  startIndexMap := [0]
  indexVectorDim := 2
  sliceSizes := ![1, 3]
  wf := gather_S2000x3_S2000x32x1_S2000x32x3_2_0_n_n_0_2_13_wf
def gather_S2000x32_S496x1_S2000x496_0_1_n_n_1_1_20001 : GatherDims S2000x32 S496x1 S2000x496 where
  offsetDims := [0]
  collapsedSliceDims := [1]
  operandBatchingDims := []
  startIndicesBatchingDims := []
  startIndexMap := [1]
  indexVectorDim := 1
  sliceSizes := ![2000, 1]
  wf := gather_S2000x32_S496x1_S2000x496_0_1_n_n_1_1_20001_wf
def gather_S2000x32x3_S496x1_S2000x496x3_02_1_n_n_1_1_200013 : GatherDims S2000x32x3 S496x1 S2000x496x3 where
  offsetDims := [0, 2]
  collapsedSliceDims := [1]
  operandBatchingDims := []
  startIndicesBatchingDims := []
  startIndexMap := [1]
  indexVectorDim := 1
  sliceSizes := ![2000, 1, 3]
  wf := gather_S2000x32x3_S496x1_S2000x496x3_02_1_n_n_1_1_200013_wf

abbrev win0_0 : Pipeline.Window sig grid0 :=
  Pipeline.Window.ofSpec (Memref.whole main_v77) S32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v78) S32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v79) S496x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v80) S496x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v81) S496x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v82) S496x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v83) S51x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2000x3 : Shape := ⟨2, ![2000, 3]⟩
abbrev S2000 : Shape := ⟨1, ![2000]⟩
abbrev S64000 : Shape := ⟨1, ![64000]⟩
abbrev S8 : Shape := ⟨1, ![8]⟩
abbrev S1x1x8 : Shape := ⟨3, ![1, 1, 8]⟩
abbrev S496 : Shape := ⟨1, ![496]⟩
abbrev S43 : Shape := ⟨1, ![43]⟩
abbrev S1x1x43 : Shape := ⟨3, ![1, 1, 43]⟩
abbrev S2000x32 : Shape := ⟨2, ![2000, 32]⟩
abbrev S32 : Shape := ⟨1, ![32]⟩
abbrev S1x32 : Shape := ⟨2, ![1, 32]⟩
abbrev S2000x1 : Shape := ⟨2, ![2000, 1]⟩
abbrev S_ : Shape := ⟨0, ![]⟩
abbrev S2000x32x1 : Shape := ⟨3, ![2000, 32, 1]⟩
abbrev S2000x32x3 : Shape := ⟨3, ![2000, 32, 3]⟩
abbrev S2000x1x3 : Shape := ⟨3, ![2000, 1, 3]⟩
abbrev S2000x32x8 : Shape := ⟨3, ![2000, 32, 8]⟩
abbrev S2000x8 : Shape := ⟨2, ![2000, 8]⟩
abbrev S496x1 : Shape := ⟨2, ![496, 1]⟩
abbrev S2000x496 : Shape := ⟨2, ![2000, 496]⟩
abbrev S2000x496x3 : Shape := ⟨3, ![2000, 496, 3]⟩
abbrev S2000x496x1 : Shape := ⟨3, ![2000, 496, 1]⟩
abbrev S2000x496x43 : Shape := ⟨3, ![2000, 496, 43]⟩
abbrev S2000x43 : Shape := ⟨2, ![2000, 43]⟩
abbrev S2000x51 : Shape := ⟨2, ![2000, 51]⟩

abbrev nBuf : Space → Nat
  | .hbm => 267
  | .vmem => 0
  | .smem => 0
  | _ => 0

abbrev hbmTy0_0 (i : Nat) : BufTy := match i % 128 with
  | 0 => ⟨S2000x3, .f32⟩
  | 1 => ⟨S2000, .i32⟩
  | 2 => ⟨S64000, .i32⟩
  | 3 => ⟨S8, .f32⟩
  | 4 => ⟨S1x1x8, .f32⟩
  | 5 => ⟨S1x1x8, .f32⟩
  | 6 => ⟨S496, .i32⟩
  | 7 => ⟨S496, .i1⟩
  | 8 => ⟨S496, .i32⟩
  | 9 => ⟨S496, .i1⟩
  | 10 => ⟨S496, .i1⟩
  | 11 => ⟨S496, .i1⟩
  | 12 => ⟨S496, .i1⟩
  | 13 => ⟨S496, .i1⟩
  | 14 => ⟨S496, .i1⟩
  | 15 => ⟨S43, .f32⟩
  | 16 => ⟨S1x1x43, .f32⟩
  | 17 => ⟨S43, .f32⟩
  | 18 => ⟨S1x1x43, .f32⟩
  | 19 => ⟨S1x1x43, .f32⟩
  | 20 => ⟨S43, .f32⟩
  | 21 => ⟨S1x1x43, .f32⟩
  | 22 => ⟨S2000x32, .i32⟩
  | 23 => ⟨S32, .i32⟩
  | 24 => ⟨S1x32, .i32⟩
  | 25 => ⟨S2000x1, .i32⟩
  | 26 => ⟨S2000x32, .i32⟩
  | 27 => ⟨S2000x32, .i32⟩
  | 28 => ⟨S2000x32, .i1⟩
  | 29 => ⟨S_, .i32⟩
  | 30 => ⟨S2000x32, .i32⟩
  | 31 => ⟨S2000x32, .i1⟩
  | 32 => ⟨S_, .i32⟩
  | 33 => ⟨S2000x32, .i32⟩
  | 34 => ⟨S2000x32, .i32⟩
  | 35 => ⟨S2000x32, .i32⟩
  | 36 => ⟨S2000x32x1, .i32⟩
  | 37 => ⟨S2000x32x3, .f32⟩
  | 38 => ⟨S2000x1x3, .f32⟩
  | 39 => ⟨S2000x32x3, .f32⟩
  | 40 => ⟨S2000x32x3, .f32⟩
  | 41 => ⟨S2000x32x3, .f32⟩
  | 42 => ⟨S_, .f32⟩
  | 43 => ⟨S2000x32, .f32⟩
  | 44 => ⟨S2000x32, .f32⟩
  | 45 => ⟨S_, .f32⟩
  | 46 => ⟨S2000x32, .f32⟩
  | 47 => ⟨S2000x32, .i1⟩
  | 48 => ⟨S2000x32, .i1⟩
  | 49 => ⟨S_, .f32⟩
  | 50 => ⟨S2000x32, .f32⟩
  | 51 => ⟨S2000x32, .i1⟩
  | 52 => ⟨S_, .f32⟩
  | 53 => ⟨S2000x32, .f32⟩
  | 54 => ⟨S2000x32, .f32⟩
  | 55 => ⟨S_, .f32⟩
  | 56 => ⟨S2000x32, .f32⟩
  | 57 => ⟨S2000x32, .f32⟩
  | 58 => ⟨S2000x32, .f32⟩
  | 59 => ⟨S_, .f32⟩
  | 60 => ⟨S2000x32, .f32⟩
  | 61 => ⟨S2000x32, .f32⟩
  | 62 => ⟨S_, .f32⟩
  | 63 => ⟨S2000x32, .f32⟩
  | 64 => ⟨S2000x32, .f32⟩
  | 65 => ⟨S_, .f32⟩
  | 66 => ⟨S_, .f32⟩
  | 67 => ⟨S2000x32, .f32⟩
  | 68 => ⟨S2000x32, .f32⟩
  | 69 => ⟨S2000x32x1, .f32⟩
  | 70 => ⟨S2000x32x8, .f32⟩
  | 71 => ⟨S2000x32x8, .f32⟩
  | 72 => ⟨S2000x32x8, .f32⟩
  | 73 => ⟨S2000x32x8, .f32⟩
  | 74 => ⟨S2000x32x8, .f32⟩
  | 75 => ⟨S2000x32x8, .f32⟩
  | 76 => ⟨S2000x32x8, .f32⟩
  | 77 => ⟨S2000x32x1, .f32⟩
  | 78 => ⟨S2000x32x8, .f32⟩
  | 79 => ⟨S2000x32x8, .f32⟩
  | 80 => ⟨S2000x32x1, .i1⟩
  | 81 => ⟨S2000x32x1, .f32⟩
  | 82 => ⟨S2000x32x8, .f32⟩
  | 83 => ⟨S2000x32x8, .f32⟩
  | 84 => ⟨S_, .f32⟩
  | 85 => ⟨S2000x8, .f32⟩
  | 86 => ⟨S_, .i32⟩
  | 87 => ⟨S496, .i32⟩
  | 88 => ⟨S496, .i32⟩
  | 89 => ⟨S496, .i32⟩
  | 90 => ⟨S496x1, .i32⟩
  | 91 => ⟨S2000x496, .f32⟩
  | 92 => ⟨S_, .i32⟩
  | 93 => ⟨S496, .i32⟩
  | 94 => ⟨S496, .i32⟩
  | 95 => ⟨S496, .i32⟩
  | 96 => ⟨S496x1, .i32⟩
  | 97 => ⟨S2000x496, .f32⟩
  | 98 => ⟨S_, .i32⟩
  | 99 => ⟨S496, .i32⟩
  | 100 => ⟨S496, .i32⟩
  | 101 => ⟨S496, .i32⟩
  | 102 => ⟨S496x1, .i32⟩
  | 103 => ⟨S2000x496x3, .f32⟩
  | 104 => ⟨S_, .i32⟩
  | 105 => ⟨S496, .i32⟩
  | 106 => ⟨S496, .i32⟩
  | 107 => ⟨S496, .i32⟩
  | 108 => ⟨S496x1, .i32⟩
  | 109 => ⟨S2000x496x3, .f32⟩
  | 110 => ⟨S2000x496x3, .f32⟩
  | 111 => ⟨S2000x496x3, .f32⟩
  | 112 => ⟨S_, .f32⟩
  | 113 => ⟨S2000x496, .f32⟩
  | 114 => ⟨S_, .f32⟩
  | 115 => ⟨S2000x496, .f32⟩
  | 116 => ⟨S2000x496, .i1⟩
  | 117 => ⟨S_, .f32⟩
  | 118 => ⟨S2000x496, .f32⟩
  | 119 => ⟨S2000x496, .i1⟩
  | 120 => ⟨S_, .f32⟩
  | 121 => ⟨S_, .f32⟩
  | 122 => ⟨S2000x496, .f32⟩
  | 123 => ⟨S2000x496, .f32⟩
  | 124 => ⟨S2000x496, .f32⟩
  | 125 => ⟨S_, .f32⟩
  | 126 => ⟨S_, .f32⟩
  | 127 => ⟨S2000x496, .f32⟩
  | _ => ⟨S2000x3, .f32⟩

abbrev hbmTy0_1 (i : Nat) : BufTy := match i % 128 with
  | 0 => ⟨S2000x496, .f32⟩
  | 1 => ⟨S_, .i32⟩
  | 2 => ⟨S496, .i32⟩
  | 3 => ⟨S496, .i32⟩
  | 4 => ⟨S496, .i32⟩
  | 5 => ⟨S496x1, .i32⟩
  | 6 => ⟨S2000x496, .i1⟩
  | 7 => ⟨S_, .i32⟩
  | 8 => ⟨S496, .i32⟩
  | 9 => ⟨S496, .i32⟩
  | 10 => ⟨S496, .i32⟩
  | 11 => ⟨S496x1, .i32⟩
  | 12 => ⟨S2000x496, .i1⟩
  | 13 => ⟨S2000x496, .i1⟩
  | 14 => ⟨S_, .i32⟩
  | 15 => ⟨S496, .i32⟩
  | 16 => ⟨S496, .i32⟩
  | 17 => ⟨S496, .i32⟩
  | 18 => ⟨S496x1, .i32⟩
  | 19 => ⟨S2000x496, .f32⟩
  | 20 => ⟨S_, .f32⟩
  | 21 => ⟨S2000x496, .f32⟩
  | 22 => ⟨S2000x496, .i1⟩
  | 23 => ⟨S2000x496, .i1⟩
  | 24 => ⟨S_, .f32⟩
  | 25 => ⟨S2000x496, .f32⟩
  | 26 => ⟨S2000x496, .i1⟩
  | 27 => ⟨S2000x496, .i1⟩
  | 28 => ⟨S2000x496, .f32⟩
  | 29 => ⟨S2000x496, .f32⟩
  | 30 => ⟨S2000x496, .f32⟩
  | 31 => ⟨S2000x496, .f32⟩
  | 32 => ⟨S_, .f32⟩
  | 33 => ⟨S2000x496, .f32⟩
  | 34 => ⟨S2000x496, .f32⟩
  | 35 => ⟨S2000x496, .f32⟩
  | 36 => ⟨S2000x496, .f32⟩
  | 37 => ⟨S2000x496x1, .f32⟩
  | 38 => ⟨S2000x496x43, .f32⟩
  | 39 => ⟨S2000x496x43, .f32⟩
  | 40 => ⟨S2000x496x43, .f32⟩
  | 41 => ⟨S_, .f32⟩
  | 42 => ⟨S2000x496x43, .f32⟩
  | 43 => ⟨S2000x496x43, .f32⟩
  | 44 => ⟨S_, .f32⟩
  | 45 => ⟨S2000x496x43, .f32⟩
  | 46 => ⟨S2000x496x43, .i1⟩
  | 47 => ⟨S_, .f32⟩
  | 48 => ⟨S_, .f32⟩
  | 49 => ⟨S2000x496x43, .f32⟩
  | 50 => ⟨S2000x496x43, .f32⟩
  | 51 => ⟨S2000x496x43, .f32⟩
  | 52 => ⟨S2000x496x43, .f32⟩
  | 53 => ⟨S2000x496x43, .f32⟩
  | 54 => ⟨S2000x496x43, .f32⟩
  | 55 => ⟨S2000x496, .f32⟩
  | 56 => ⟨S2000x496, .f32⟩
  | 57 => ⟨S2000x496, .f32⟩
  | 58 => ⟨S2000x496, .f32⟩
  | 59 => ⟨S2000x496x1, .f32⟩
  | 60 => ⟨S2000x496x43, .f32⟩
  | 61 => ⟨S2000x496x43, .f32⟩
  | 62 => ⟨S2000x496x43, .f32⟩
  | 63 => ⟨S2000x496x43, .f32⟩
  | 64 => ⟨S_, .f32⟩
  | 65 => ⟨S2000x496, .f32⟩
  | 66 => ⟨S2000x496, .i1⟩
  | 67 => ⟨S_, .f32⟩
  | 68 => ⟨S2000x496, .f32⟩
  | 69 => ⟨S2000x496, .f32⟩
  | 70 => ⟨S_, .f32⟩
  | 71 => ⟨S2000x496, .f32⟩
  | 72 => ⟨S2000x496, .f32⟩
  | 73 => ⟨S2000x496, .f32⟩
  | 74 => ⟨S_, .f32⟩
  | 75 => ⟨S2000x496, .f32⟩
  | 76 => ⟨S2000x496, .f32⟩
  | 77 => ⟨S_, .f32⟩
  | 78 => ⟨S2000x496, .f32⟩
  | 79 => ⟨S2000x496, .f32⟩
  | 80 => ⟨S_, .f32⟩
  | 81 => ⟨S_, .f32⟩
  | 82 => ⟨S2000x496, .f32⟩
  | 83 => ⟨S2000x496, .f32⟩
  | 84 => ⟨S_, .f32⟩
  | 85 => ⟨S2000x496, .f32⟩
  | 86 => ⟨S2000x496, .i1⟩
  | 87 => ⟨S_, .f32⟩
  | 88 => ⟨S2000x496, .f32⟩
  | 89 => ⟨S2000x496, .f32⟩
  | 90 => ⟨S_, .f32⟩
  | 91 => ⟨S2000x496, .f32⟩
  | 92 => ⟨S2000x496, .f32⟩
  | 93 => ⟨S2000x496, .f32⟩
  | 94 => ⟨S_, .f32⟩
  | 95 => ⟨S2000x496, .f32⟩
  | 96 => ⟨S2000x496, .f32⟩
  | 97 => ⟨S_, .f32⟩
  | 98 => ⟨S2000x496, .f32⟩
  | 99 => ⟨S2000x496, .f32⟩
  | 100 => ⟨S_, .f32⟩
  | 101 => ⟨S_, .f32⟩
  | 102 => ⟨S2000x496, .f32⟩
  | 103 => ⟨S2000x496, .f32⟩
  | 104 => ⟨S2000x496, .f32⟩
  | 105 => ⟨S_, .f32⟩
  | 106 => ⟨S2000x496, .f32⟩
  | 107 => ⟨S2000x496, .i1⟩
  | 108 => ⟨S_, .f32⟩
  | 109 => ⟨S2000x496, .f32⟩
  | 110 => ⟨S2000x496, .f32⟩
  | 111 => ⟨S_, .f32⟩
  | 112 => ⟨S2000x496, .f32⟩
  | 113 => ⟨S2000x496, .f32⟩
  | 114 => ⟨S2000x496, .f32⟩
  | 115 => ⟨S_, .f32⟩
  | 116 => ⟨S2000x496, .f32⟩
  | 117 => ⟨S2000x496, .f32⟩
  | 118 => ⟨S_, .f32⟩
  | 119 => ⟨S2000x496, .f32⟩
  | 120 => ⟨S2000x496, .f32⟩
  | 121 => ⟨S_, .f32⟩
  | 122 => ⟨S_, .f32⟩
  | 123 => ⟨S2000x496, .f32⟩
  | 124 => ⟨S2000x496, .f32⟩
  | 125 => ⟨S2000x496, .f32⟩
  | 126 => ⟨S2000x496x43, .f32⟩
  | 127 => ⟨S2000x496x43, .f32⟩
  | _ => ⟨S2000x3, .f32⟩

abbrev hbmTy0_2 (i : Nat) : BufTy := match i % 128 with
  | 0 => ⟨S2000x496x43, .f32⟩
  | 1 => ⟨S2000x496x1, .f32⟩
  | 2 => ⟨S2000x496x43, .f32⟩
  | 3 => ⟨S2000x496x43, .f32⟩
  | 4 => ⟨S2000x496x1, .i1⟩
  | 5 => ⟨S2000x496x1, .f32⟩
  | 6 => ⟨S2000x496x43, .f32⟩
  | 7 => ⟨S2000x496x43, .f32⟩
  | 8 => ⟨S_, .f32⟩
  | 9 => ⟨S2000x43, .f32⟩
  | 10 => ⟨S2000x51, .f32⟩
  | _ => ⟨S2000x3, .f32⟩

abbrev hbmTy (i : Nat) : BufTy := match i / 128 with
  | 0 => hbmTy0_0 i
  | 1 => hbmTy0_1 i
  | 2 => hbmTy0_2 i
  | _ => ⟨S2000x3, .f32⟩

abbrev bufTy : (tb : Table) → Fin (tcTables nBuf tb) → BufTy
  | .hbm, ⟨i, _⟩ => hbmTy i
  | _, _ => ⟨S2000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_c : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_c_4 : Ref sig .tc := ⟨.hbm, 10, rfl⟩
abbrev main_c_5 : Ref sig .tc := ⟨.hbm, 11, rfl⟩
abbrev main_c_6 : Ref sig .tc := ⟨.hbm, 12, rfl⟩
abbrev main_c_7 : Ref sig .tc := ⟨.hbm, 13, rfl⟩
abbrev main_c_8 : Ref sig .tc := ⟨.hbm, 14, rfl⟩
abbrev main_cst_9 : Ref sig .tc := ⟨.hbm, 15, rfl⟩
abbrev main_v1 : Ref sig .tc := ⟨.hbm, 16, rfl⟩
abbrev main_cst_10 : Ref sig .tc := ⟨.hbm, 17, rfl⟩
abbrev main_v2 : Ref sig .tc := ⟨.hbm, 18, rfl⟩
abbrev main_cst_11 : Ref sig .tc := ⟨.hbm, 19, rfl⟩
abbrev main_cst_12 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_13 : Ref sig .tc := ⟨.hbm, 29, rfl⟩
abbrev main_v11 : Ref sig .tc := ⟨.hbm, 30, rfl⟩
abbrev main_v12 : Ref sig .tc := ⟨.hbm, 31, rfl⟩
abbrev main_c_14 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_15 : Ref sig .tc := ⟨.hbm, 42, rfl⟩
abbrev main_v22 : Ref sig .tc := ⟨.hbm, 43, rfl⟩
abbrev main_v23 : Ref sig .tc := ⟨.hbm, 44, rfl⟩
abbrev main_cst_16 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_17 : Ref sig .tc := ⟨.hbm, 49, rfl⟩
abbrev main_v27 : Ref sig .tc := ⟨.hbm, 50, rfl⟩
abbrev main_v28 : Ref sig .tc := ⟨.hbm, 51, rfl⟩
abbrev main_cst_18 : Ref sig .tc := ⟨.hbm, 52, rfl⟩
abbrev main_v29 : Ref sig .tc := ⟨.hbm, 53, rfl⟩
abbrev main_v30 : Ref sig .tc := ⟨.hbm, 54, rfl⟩
abbrev main_cst_19 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_20 : Ref sig .tc := ⟨.hbm, 59, rfl⟩
abbrev main_v34 : Ref sig .tc := ⟨.hbm, 60, rfl⟩
abbrev main_v35 : Ref sig .tc := ⟨.hbm, 61, rfl⟩
abbrev main_cst_21 : Ref sig .tc := ⟨.hbm, 62, rfl⟩
abbrev main_v36 : Ref sig .tc := ⟨.hbm, 63, rfl⟩
abbrev main_v37 : Ref sig .tc := ⟨.hbm, 64, rfl⟩
abbrev main_cst_22 : Ref sig .tc := ⟨.hbm, 65, rfl⟩
abbrev main_call0_v0 : Ref sig .tc := ⟨.hbm, 66, rfl⟩
abbrev main_call0_v1 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_23 : Ref sig .tc := ⟨.hbm, 84, rfl⟩
abbrev main_v54 : Ref sig .tc := ⟨.hbm, 85, rfl⟩
abbrev main_c_24 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_c_25 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_26 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_c_27 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_28 : Ref sig .tc := ⟨.hbm, 112, rfl⟩
abbrev main_v77 : Ref sig .tc := ⟨.hbm, 113, rfl⟩
abbrev main_cst_29 : Ref sig .tc := ⟨.hbm, 114, rfl⟩
abbrev main_v78 : Ref sig .tc := ⟨.hbm, 115, rfl⟩
abbrev main_v79 : Ref sig .tc := ⟨.hbm, 116, rfl⟩
abbrev main_cst_30 : Ref sig .tc := ⟨.hbm, 117, rfl⟩
abbrev main_v80 : Ref sig .tc := ⟨.hbm, 118, rfl⟩
abbrev main_v81 : Ref sig .tc := ⟨.hbm, 119, rfl⟩
abbrev main_cst_31 : Ref sig .tc := ⟨.hbm, 120, rfl⟩
abbrev main_call1_v0 : Ref sig .tc := ⟨.hbm, 121, rfl⟩
abbrev main_call1_v1 : Ref sig .tc := ⟨.hbm, 122, rfl⟩
abbrev main_v82 : Ref sig .tc := ⟨.hbm, 123, rfl⟩
abbrev main_v83 : Ref sig .tc := ⟨.hbm, 124, rfl⟩
abbrev main_cst_32 : Ref sig .tc := ⟨.hbm, 125, rfl⟩
abbrev main_call2_v0 : Ref sig .tc := ⟨.hbm, 126, rfl⟩
abbrev main_call2_v1 : Ref sig .tc := ⟨.hbm, 127, rfl⟩
abbrev main_v84 : Ref sig .tc := ⟨.hbm, 128, rfl⟩
abbrev main_c_33 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_c_34 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_c_35 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_cst_36 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_cst_37 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_cst_38 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_cst_39 : Ref sig .tc := ⟨.hbm, 169, rfl⟩
abbrev main_v119 : Ref sig .tc := ⟨.hbm, 170, rfl⟩
abbrev main_v120 : Ref sig .tc := ⟨.hbm, 171, rfl⟩
abbrev main_cst_40 : Ref sig .tc := ⟨.hbm, 172, rfl⟩
abbrev main_v121 : Ref sig .tc := ⟨.hbm, 173, rfl⟩
abbrev main_v122 : Ref sig .tc := ⟨.hbm, 174, rfl⟩
abbrev main_cst_41 : Ref sig .tc := ⟨.hbm, 175, rfl⟩
abbrev main_call3_v0 : Ref sig .tc := ⟨.hbm, 176, rfl⟩
abbrev main_call3_v1 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_cst_42 : Ref sig .tc := ⟨.hbm, 192, rfl⟩
abbrev main_v137 : Ref sig .tc := ⟨.hbm, 193, rfl⟩
abbrev main_v138 : Ref sig .tc := ⟨.hbm, 194, rfl⟩
abbrev main_cst_43 : Ref sig .tc := ⟨.hbm, 195, rfl⟩
abbrev main_v139 : Ref sig .tc := ⟨.hbm, 196, rfl⟩
abbrev main_v140 : Ref sig .tc := ⟨.hbm, 197, rfl⟩
abbrev main_cst_44 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_cst_45 : Ref sig .tc := ⟨.hbm, 202, rfl⟩
abbrev main_v144 : Ref sig .tc := ⟨.hbm, 203, rfl⟩
abbrev main_v145 : Ref sig .tc := ⟨.hbm, 204, rfl⟩
abbrev main_cst_46 : Ref sig .tc := ⟨.hbm, 205, rfl⟩
abbrev main_v146 : Ref sig .tc := ⟨.hbm, 206, rfl⟩
abbrev main_v147 : Ref sig .tc := ⟨.hbm, 207, rfl⟩
abbrev main_cst_47 : Ref sig .tc := ⟨.hbm, 208, rfl⟩
abbrev main_call4_v0 : Ref sig .tc := ⟨.hbm, 209, rfl⟩
abbrev main_call4_v1 : Ref sig .tc := ⟨.hbm, 210, rfl⟩
abbrev main_v148 : Ref sig .tc := ⟨.hbm, 211, rfl⟩
abbrev main_cst_48 : Ref sig .tc := ⟨.hbm, 212, rfl⟩
abbrev main_v149 : Ref sig .tc := ⟨.hbm, 213, rfl⟩
abbrev main_v150 : Ref sig .tc := ⟨.hbm, 214, rfl⟩
abbrev main_cst_49 : Ref sig .tc := ⟨.hbm, 215, rfl⟩
abbrev main_v151 : Ref sig .tc := ⟨.hbm, 216, rfl⟩
abbrev main_v152 : Ref sig .tc := ⟨.hbm, 217, rfl⟩
abbrev main_cst_50 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_cst_51 : Ref sig .tc := ⟨.hbm, 222, rfl⟩
abbrev main_v156 : Ref sig .tc := ⟨.hbm, 223, rfl⟩
abbrev main_v157 : Ref sig .tc := ⟨.hbm, 224, rfl⟩
abbrev main_cst_52 : Ref sig .tc := ⟨.hbm, 225, rfl⟩
abbrev main_v158 : Ref sig .tc := ⟨.hbm, 226, rfl⟩
abbrev main_v159 : Ref sig .tc := ⟨.hbm, 227, rfl⟩
abbrev main_cst_53 : Ref sig .tc := ⟨.hbm, 228, rfl⟩
abbrev main_call5_v0 : Ref sig .tc := ⟨.hbm, 229, rfl⟩
abbrev main_call5_v1 : Ref sig .tc := ⟨.hbm, 230, rfl⟩
abbrev main_v160 : Ref sig .tc := ⟨.hbm, 231, rfl⟩
abbrev main_v161 : Ref sig .tc := ⟨.hbm, 232, rfl⟩
abbrev main_cst_54 : Ref sig .tc := ⟨.hbm, 233, rfl⟩
abbrev main_v162 : Ref sig .tc := ⟨.hbm, 234, rfl⟩
abbrev main_v163 : Ref sig .tc := ⟨.hbm, 235, rfl⟩
abbrev main_cst_55 : Ref sig .tc := ⟨.hbm, 236, rfl⟩
abbrev main_v164 : Ref sig .tc := ⟨.hbm, 237, rfl⟩
abbrev main_v165 : Ref sig .tc := ⟨.hbm, 238, rfl⟩
abbrev main_cst_56 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_cst_57 : Ref sig .tc := ⟨.hbm, 243, rfl⟩
abbrev main_v169 : Ref sig .tc := ⟨.hbm, 244, rfl⟩
abbrev main_v170 : Ref sig .tc := ⟨.hbm, 245, rfl⟩
abbrev main_cst_58 : Ref sig .tc := ⟨.hbm, 246, rfl⟩
abbrev main_v171 : Ref sig .tc := ⟨.hbm, 247, rfl⟩
abbrev main_v172 : Ref sig .tc := ⟨.hbm, 248, rfl⟩
abbrev main_cst_59 : Ref sig .tc := ⟨.hbm, 249, rfl⟩
abbrev main_call6_v0 : Ref sig .tc := ⟨.hbm, 250, rfl⟩
abbrev main_call6_v1 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_v184 : Ref sig .tc := ⟨.hbm, 263, rfl⟩
abbrev main_cst_60 : Ref sig .tc := ⟨.hbm, 264, rfl⟩
abbrev main_v185 : Ref sig .tc := ⟨.hbm, 265, rfl⟩
abbrev main_v186 : Ref sig .tc := ⟨.hbm, 266, rfl⟩

abbrev nD : Nat := 1
abbrev τ : Topo := Topo.v7x

variable {F : FTy → Type} [FloatOps F]

class Facts₀ : Prop where
  bcast_S8_S1x1x8_2 : S8.BroadcastsInDim S1x1x8 (![2] : Fin 1 → Fin S1x1x8.rank)
  bcast_S43_S1x1x43_2 : S43.BroadcastsInDim S1x1x43 (![2] : Fin 1 → Fin S1x1x43.rank)
  shapeCasts_S64000_S2000x32 : S64000.ShapeCasts S2000x32
  bcast_S32_S1x32_1 : S32.BroadcastsInDim S1x32 (![1] : Fin 1 → Fin S1x32.rank)
  bcast_S2000_S2000x1_0 : S2000.BroadcastsInDim S2000x1 (![0] : Fin 1 → Fin S2000x1.rank)
  bcast_S1x32_S2000x32_0_1 : S1x32.BroadcastsInDim S2000x32 (![0, 1] : Fin 2 → Fin S2000x32.rank)
  bcast_S2000x1_S2000x32_0_1 : S2000x1.BroadcastsInDim S2000x32 (![0, 1] : Fin 2 → Fin S2000x32.rank)
  bcast_S_S2000x32 : S_.BroadcastsInDim S2000x32 (![] : Fin 0 → Fin S2000x32.rank)
  bcast_S2000x32_S2000x32x1_0_1 : S2000x32.BroadcastsInDim S2000x32x1 (![0, 1] : Fin 2 → Fin S2000x32x1.rank)
  bcast_S2000x3_S2000x1x3_0_2 : S2000x3.BroadcastsInDim S2000x1x3 (![0, 2] : Fin 2 → Fin S2000x1x3.rank)
  bcast_S2000x1x3_S2000x32x3_0_1_2 : S2000x1x3.BroadcastsInDim S2000x32x3 (![0, 1, 2] : Fin 3 → Fin S2000x32x3.rank)
  reducesTo_S2000x32x3_S2000x32_d2 : S2000x32x3.ReducesTo [2] S2000x32
  h_S_ : 0 < S_.numel
  bcast_S2000x32x1_S2000x32x8_0_1_2 : S2000x32x1.BroadcastsInDim S2000x32x8 (![0, 1, 2] : Fin 3 → Fin S2000x32x8.rank)
  bcast_S1x1x8_S2000x32x8_0_1_2 : S1x1x8.BroadcastsInDim S2000x32x8 (![0, 1, 2] : Fin 3 → Fin S2000x32x8.rank)
  reducesTo_S2000x32x8_S2000x8_d1 : S2000x32x8.ReducesTo [1] S2000x8
  bcast_S_S496 : S_.BroadcastsInDim S496 (![] : Fin 0 → Fin S496.rank)
  bcast_S496_S496x1_0 : S496.BroadcastsInDim S496x1 (![0] : Fin 1 → Fin S496x1.rank)
  reducesTo_S2000x496x3_S2000x496_d2 : S2000x496x3.ReducesTo [2] S2000x496
  bcast_S_S2000x496 : S_.BroadcastsInDim S2000x496 (![] : Fin 0 → Fin S2000x496.rank)
  bcast_S2000x496_S2000x496x1_0_1 : S2000x496.BroadcastsInDim S2000x496x1 (![0, 1] : Fin 2 → Fin S2000x496x1.rank)
  bcast_S1x1x43_S2000x496x43_0_1_2 : S1x1x43.BroadcastsInDim S2000x496x43 (![0, 1, 2] : Fin 3 → Fin S2000x496x43.rank)
  bcast_S2000x496x1_S2000x496x43_0_1_2 : S2000x496x1.BroadcastsInDim S2000x496x43 (![0, 1, 2] : Fin 3 → Fin S2000x496x43.rank)
  bcast_S_S2000x496x43 : S_.BroadcastsInDim S2000x496x43 (![] : Fin 0 → Fin S2000x496x43.rank)
  reducesTo_S2000x496x43_S2000x43_d1 : S2000x496x43.ReducesTo [1] S2000x43
  concatenates_S2000x8_S2000x43_S2000x51_d1 : Shape.Concatenates [S2000x8, S2000x43] S2000x51 1
  gather_S2000x3_S2000x32x1_S2000x32x3_2_0_n_n_0_2_13_wf : GatherDims.WF S2000x3 S2000x32x1 S2000x32x3 [2] [0] [] [0] [] 2 ![1, 3]
  gather_S2000x32_S496x1_S2000x496_0_1_n_n_1_1_20001_wf : GatherDims.WF S2000x32 S496x1 S2000x496 [0] [1] [] [1] [] 1 ![2000, 1]
  gather_S2000x32x3_S496x1_S2000x496x3_02_1_n_n_1_1_200013_wf : GatherDims.WF S2000x32x3 S496x1 S2000x496x3 [0, 2] [1] [] [1] [] 1 ![2000, 1, 3]

variable [Facts₀]

def gather_S2000x3_S2000x32x1_S2000x32x3_2_0_n_n_0_2_13 : GatherDims S2000x3 S2000x32x1 S2000x32x3 where
  offsetDims := [2]
  collapsedSliceDims := [0]
  operandBatchingDims := []
  startIndicesBatchingDims := []
  startIndexMap := [0]
  indexVectorDim := 2
  sliceSizes := ![1, 3]
  wf := gather_S2000x3_S2000x32x1_S2000x32x3_2_0_n_n_0_2_13_wf
def gather_S2000x32_S496x1_S2000x496_0_1_n_n_1_1_20001 : GatherDims S2000x32 S496x1 S2000x496 where
  offsetDims := [0]
  collapsedSliceDims := [1]
  operandBatchingDims := []
  startIndicesBatchingDims := []
  startIndexMap := [1]
  indexVectorDim := 1
  sliceSizes := ![2000, 1]
  wf := gather_S2000x32_S496x1_S2000x496_0_1_n_n_1_1_20001_wf
def gather_S2000x32x3_S496x1_S2000x496x3_02_1_n_n_1_1_200013 : GatherDims S2000x32x3 S496x1 S2000x496x3 where
  offsetDims := [0, 2]
  collapsedSliceDims := [1]
  operandBatchingDims := []
  startIndicesBatchingDims := []
  startIndexMap := [1]
  indexVectorDim := 1
  sliceSizes := ![2000, 1, 3]
  wf := gather_S2000x32x3_S496x1_S2000x496x3_02_1_n_n_1_1_200013_wf

class Facts : Prop extends Facts₀ where

variable [Facts]
-- ==== Proof.Spec.lean ====
/-
  The two programs' arithmetic, entry by entry, as scalar functions on the extended reals.

  Both programs compute 51 symmetry-function descriptors per atom: 8 radial sums over the 32 neighbours
  (`g2`) and 43 angular sums over the 496 unordered neighbour pairs (`g4`).  The kernel spells each
  summand with the vector unit's operations, an integer power as repeated products and the positivity
  bit widened to a word and read signed; the reference spells it with the host's operations, a float
  power and the bit read unsigned, and guards the square root of the pair distance.  `…K` is the
  kernel's spelling, `…R` the reference's; that they agree is proved elsewhere.
-/
import Idealize.ShloMosaic.PureOps.Ideal
import Idealize.ShloMosaic.Lib.ValueIdx

noncomputable section

namespace Cert.Spec

open Idealize.ShloMosaic

/-- An f32 word as the extended real it denotes. -/
abbrev w (b : BitVec 32) : Ideal .f32 := FloatOps.ofBits (F := Ideal) .f32 b

/-! ## The parameter tables (negated radial widths; sign, exponent, negated width and prefactor of each angular term) -/

/-- `-eta` of the 8 radial terms. -/
abbrev ne2W : Fin 8 → BitVec 32 := fun
  | 0 => 0xBB6BEDFA#32 | 1 => 0xBD1374BC#32 | 2 => 0xBD916873#32 | 3 => 0xBE000000#32 | 4 => 0xBE5B22D1#32 | 5 => 0xBEB6C8B4#32 | 6 => 0xBF36C8B4#32 | 7 => 0xBFB6C8B4#32
  | _ => 0#32

/-- `lambda` (±1) of the 43 angular terms. -/
abbrev lamW : Fin 43 → BitVec 32 := fun
  | 0 => 0xBF800000#32 | 1 => 0x3F800000#32 | 2 => 0xBF800000#32 | 3 => 0x3F800000#32 | 4 => 0xBF800000#32 | 5 => 0x3F800000#32 | 6 => 0xBF800000#32 | 7 => 0x3F800000#32
  | 8 => 0xBF800000#32 | 9 => 0x3F800000#32 | 10 => 0xBF800000#32 | 11 => 0x3F800000#32 | 12 => 0xBF800000#32 | 13 => 0x3F800000#32 | 14 => 0xBF800000#32 | 15 => 0x3F800000#32
  | 16 => 0xBF800000#32 | 17 => 0x3F800000#32 | 18 => 0xBF800000#32 | 19 => 0x3F800000#32 | 20 => 0xBF800000#32 | 21 => 0x3F800000#32 | 22 => 0xBF800000#32 | 23 => 0x3F800000#32
  | 24 => 0xBF800000#32 | 25 => 0x3F800000#32 | 26 => 0xBF800000#32 | 27 => 0x3F800000#32 | 28 => 0xBF800000#32 | 29 => 0x3F800000#32 | 30 => 0xBF800000#32 | 31 => 0x3F800000#32
  | 32 => 0xBF800000#32 | 33 => 0x3F800000#32 | 34 => 0xBF800000#32 | 35 => 0x3F800000#32 | 36 => 0xBF800000#32 | 37 => 0x3F800000#32 | 38 => 0xBF800000#32 | 39 => 0x3F800000#32
  | 40 => 0xBF800000#32 | 41 => 0x3F800000#32 | 42 => 0x3F800000#32
  | _ => 0#32

/-- `zeta` (1, 2, 4 or 16, as a float word) of the 43 angular terms. -/
abbrev zetaW : Fin 43 → BitVec 32 := fun
  | 0 => 0x3F800000#32 | 1 => 0x3F800000#32 | 2 => 0x40000000#32 | 3 => 0x40000000#32 | 4 => 0x40800000#32 | 5 => 0x40800000#32 | 6 => 0x3F800000#32 | 7 => 0x3F800000#32
  | 8 => 0x40000000#32 | 9 => 0x40000000#32 | 10 => 0x40800000#32 | 11 => 0x40800000#32 | 12 => 0x3F800000#32 | 13 => 0x3F800000#32 | 14 => 0x40000000#32 | 15 => 0x40000000#32
  | 16 => 0x40800000#32 | 17 => 0x40800000#32 | 18 => 0x3F800000#32 | 19 => 0x3F800000#32 | 20 => 0x40000000#32 | 21 => 0x40000000#32 | 22 => 0x40800000#32 | 23 => 0x40800000#32
  | 24 => 0x3F800000#32 | 25 => 0x3F800000#32 | 26 => 0x40000000#32 | 27 => 0x40000000#32 | 28 => 0x40800000#32 | 29 => 0x40800000#32 | 30 => 0x3F800000#32 | 31 => 0x3F800000#32
  | 32 => 0x40000000#32 | 33 => 0x40000000#32 | 34 => 0x40800000#32 | 35 => 0x40800000#32 | 36 => 0x3F800000#32 | 37 => 0x3F800000#32 | 38 => 0x40000000#32 | 39 => 0x40000000#32
  | 40 => 0x40800000#32 | 41 => 0x40800000#32 | 42 => 0x41800000#32
  | _ => 0#32

/-- `-eta` of the 43 angular terms. -/
abbrev ne4W : Fin 43 → BitVec 32 := fun
  | 0 => 0xB8D1B717#32 | 1 => 0xB8D1B717#32 | 2 => 0xB8D1B717#32 | 3 => 0xB8D1B717#32 | 4 => 0xB8D1B717#32 | 5 => 0xB8D1B717#32 | 6 => 0xBB449BA6#32 | 7 => 0xBB449BA6#32
  | 8 => 0xBB449BA6#32 | 9 => 0xBB449BA6#32 | 10 => 0xBB449BA6#32 | 11 => 0xBB449BA6#32 | 12 => 0xBC03126F#32 | 13 => 0xBC03126F#32 | 14 => 0xBC03126F#32 | 15 => 0xBC03126F#32
  | 16 => 0xBC03126F#32 | 17 => 0xBC03126F#32 | 18 => 0xBC75C28F#32 | 19 => 0xBC75C28F#32 | 20 => 0xBC75C28F#32 | 21 => 0xBC75C28F#32 | 22 => 0xBC75C28F#32 | 23 => 0xBC75C28F#32
  | 24 => 0xBCCCCCCD#32 | 25 => 0xBCCCCCCD#32 | 26 => 0xBCCCCCCD#32 | 27 => 0xBCCCCCCD#32 | 28 => 0xBCCCCCCD#32 | 29 => 0xBCCCCCCD#32 | 30 => 0xBD3851EC#32 | 31 => 0xBD3851EC#32
  | 32 => 0xBD3851EC#32 | 33 => 0xBD3851EC#32 | 34 => 0xBD3851EC#32 | 35 => 0xBD3851EC#32 | 36 => 0xBDA3D70A#32 | 37 => 0xBDA3D70A#32 | 38 => 0xBDA3D70A#32 | 39 => 0xBDA3D70A#32
  | 40 => 0xBDA3D70A#32 | 41 => 0xBDA3D70A#32 | 42 => 0xBDA3D70A#32
  | _ => 0#32

/-- The prefactor `2^(1 - zeta)` of the 43 angular terms. -/
abbrev coefW : Fin 43 → BitVec 32 := fun
  | 0 => 0x3F800000#32 | 1 => 0x3F800000#32 | 2 => 0x3F000000#32 | 3 => 0x3F000000#32 | 4 => 0x3E000000#32 | 5 => 0x3E000000#32 | 6 => 0x3F800000#32 | 7 => 0x3F800000#32
  | 8 => 0x3F000000#32 | 9 => 0x3F000000#32 | 10 => 0x3E000000#32 | 11 => 0x3E000000#32 | 12 => 0x3F800000#32 | 13 => 0x3F800000#32 | 14 => 0x3F000000#32 | 15 => 0x3F000000#32
  | 16 => 0x3E000000#32 | 17 => 0x3E000000#32 | 18 => 0x3F800000#32 | 19 => 0x3F800000#32 | 20 => 0x3F000000#32 | 21 => 0x3F000000#32 | 22 => 0x3E000000#32 | 23 => 0x3E000000#32
  | 24 => 0x3F800000#32 | 25 => 0x3F800000#32 | 26 => 0x3F000000#32 | 27 => 0x3F000000#32 | 28 => 0x3E000000#32 | 29 => 0x3E000000#32 | 30 => 0x3F800000#32 | 31 => 0x3F800000#32
  | 32 => 0x3F000000#32 | 33 => 0x3F000000#32 | 34 => 0x3E000000#32 | 35 => 0x3E000000#32 | 36 => 0x3F800000#32 | 37 => 0x3F800000#32 | 38 => 0x3F000000#32 | 39 => 0x3F000000#32
  | 40 => 0x3E000000#32 | 41 => 0x3E000000#32 | 42 => 0x38000000#32
  | _ => 0#32

/-- How many squarings the kernel's integer power takes: `x`, `x²`, `(x²)²`, `(((x²)²)²)²`. -/
abbrev sqN : Fin 43 → Nat := fun f => if f.val = 42 then 4 else (f.val % 6) / 2

/-! ## The kernel's spelling -/

/-- One squaring, as the vector unit multiplies. -/
def sqK (x : Ideal .f32) : Ideal .f32 := FloatOps.mulf x x

/-- `n` squarings, outermost last: `pwK 2 x = (x·x)·(x·x)`. -/
def pwK : Nat → Ideal .f32 → Ideal .f32
  | 0, x => x
  | n + 1, x => sqK (pwK n x)

/-- The cosine cutoff `0.5·(cos(π r / 8) + 1)` below the radius 8, else 0, in the kernel. -/
def fcK (r : Ideal .f32) : Ideal .f32 :=
  Scalar.select (FloatOps.cmpf .olt r (w 0x41000000#32))
    (FloatOps.mulf (w 0x3F000000#32) (FloatOps.addf (FloatOps.cos (FloatOps.divf (FloatOps.mulf (w 0x40490FDB#32) r) (w 0x41000000#32))) (w 0x3F800000#32)))
    (w 0x00000000#32)

/-- One radial summand in the kernel: `exp(-eta·r²) · fc(r) · mask`. -/
def g2K (ne r mk : Ideal .f32) : Ideal .f32 :=
  FloatOps.mulf (FloatOps.mulf (FloatOps.exp (FloatOps.mulf ne (FloatOps.mulf r r))) (fcK r)) mk

/-- The cosine of the angle at the centre atom, by the law of cosines, in the kernel. -/
def cosK (rij rik rjk2 : Ideal .f32) : Ideal .f32 :=
  FloatOps.divf (FloatOps.subf (FloatOps.addf (FloatOps.mulf rij rij) (FloatOps.mulf rik rik)) rjk2)
    (FloatOps.mulf (FloatOps.mulf (w 0x40000000#32) rij) rik)

/-- `rij² + rik² + rjk²` in the kernel. -/
def ssumK (rij rik rjk2 : Ideal .f32) : Ideal .f32 :=
  FloatOps.addf (FloatOps.addf (FloatOps.mulf rij rij) (FloatOps.mulf rik rik)) rjk2

/-- The product of the three cutoffs in the kernel; the third distance is the plain square root. -/
def fcprodK (rij rik rjk2 : Ideal .f32) : Ideal .f32 :=
  FloatOps.mulf (FloatOps.mulf (fcK rij) (fcK rik)) (fcK (FloatOps.sqrt rjk2))

/-- One angular summand in the kernel, for sign `lam`, negated width `ne`, prefactor `coef` and `n` squarings:
    `coef · (max-guarded (1 + lam·cos)^(2^n) · [1 + lam·cos > 0]) · exp(ne·ssum) · fcprod · tri`. -/
def g4K (lam ne coef : Ideal .f32) (n : Nat) (rij rik rjk2 tri : Ideal .f32) : Ideal .f32 :=
  let b : Ideal .f32 := FloatOps.addf (w 0x3F800000#32) (FloatOps.mulf lam (cosK rij rik rjk2))
  let pos : BitVec 1 := FloatOps.cmpf .ogt b (w 0x00000000#32)
  let bc : Ideal .f32 := Scalar.select pos b (w 0x3F800000#32)
  let ct : Ideal .f32 := FloatOps.mulf (pwK n bc) (FloatOps.sitofp .f32 (pos.setWidth 32))
  FloatOps.mulf (FloatOps.mulf (FloatOps.mulf (FloatOps.mulf coef ct) (FloatOps.exp (FloatOps.mulf ne (ssumK rij rik rjk2)))) (fcprodK rij rik rjk2)) tri

/-! ## The reference's spelling -/

/-- The cosine cutoff on the host. -/
def fcR (r : Ideal .f32) : Ideal .f32 :=
  Scalar.select (FloatOps.cmpf .olt r (w 0x41000000#32))
    (FloatOps.mulf (w 0x3F000000#32) (FloatOps.addf (FloatOps.hostUnary .cos (FloatOps.hostDivf (FloatOps.mulf (w 0x40490FDB#32) r) (w 0x41000000#32))) (w 0x3F800000#32)))
    (w 0x00000000#32)

/-- One radial summand in the reference: `exp(-eta·(r - 0)²) · fc(r) · [mask]`, the mask a bit read unsigned. -/
def g2R (ne r : Ideal .f32) (mk : BitVec 1) : Ideal .f32 :=
  FloatOps.mulf (FloatOps.mulf (FloatOps.hostUnary .exp (FloatOps.mulf ne (FloatOps.mulf (FloatOps.subf r (w 0x00000000#32)) (FloatOps.subf r (w 0x00000000#32))))) (fcR r)) (FloatOps.uitofp .f32 mk)

/-- The guarded pair distance of the reference: `√rjk²` where `rjk² > 0`, else 0. -/
def rjkR (rjk2 : Ideal .f32) : Ideal .f32 :=
  Scalar.select (FloatOps.cmpf .ogt rjk2 (w 0x00000000#32))
    (FloatOps.hostUnary .sqrt (Scalar.select (FloatOps.cmpf .ogt rjk2 (w 0x00000000#32)) rjk2 (w 0x3F800000#32)))
    (w 0x00000000#32)

/-- The cosine of the angle in the reference. -/
def cosR (rij rik rjk2 : Ideal .f32) : Ideal .f32 :=
  FloatOps.hostDivf (FloatOps.subf (FloatOps.addf (FloatOps.mulf rij rij) (FloatOps.mulf rik rik)) rjk2)
    (FloatOps.mulf (FloatOps.mulf (w 0x40000000#32) rij) rik)

/-- The product of the three cutoffs in the reference. -/
def fcprodR (rij rik rjk2 : Ideal .f32) : Ideal .f32 :=
  FloatOps.mulf (FloatOps.mulf (fcR rij) (fcR rik)) (fcR (rjkR rjk2))

/-- One angular summand in the reference, the power a float power by `zeta`, the triple mask a bit. -/
def g4R (lam zeta ne coef : Ideal .f32) (rij rik rjk2 : Ideal .f32) (tri : BitVec 1) : Ideal .f32 :=
  let b : Ideal .f32 := FloatOps.addf (w 0x3F800000#32) (FloatOps.mulf lam (cosR rij rik rjk2))
  let pos : BitVec 1 := FloatOps.cmpf .ogt b (w 0x00000000#32)
  let bc : Ideal .f32 := Scalar.select pos b (w 0x3F800000#32)
  let ct : Ideal .f32 := FloatOps.mulf (FloatOps.hostPowf bc zeta) (FloatOps.uitofp .f32 pos)
  FloatOps.mulf (FloatOps.mulf (FloatOps.mulf (FloatOps.mulf coef ct) (FloatOps.hostUnary .exp (FloatOps.mulf ne (ssumK rij rik rjk2)))) (fcprodR rij rik rjk2)) (FloatOps.uitofp .f32 tri)

end Cert.Spec

end
-- ==== Proof.SpecArr.lean ====
/-
  The descriptors as whole arrays.  `GK` is the kernel's [feature, atom] array over the six [·, atom] arrays its
  blocks are cut from; `outK` and `outR` are the two programs' [atom, feature] results over the shared
  per-neighbour and per-pair arrays: row `f < 8` is a radial sum over the 32 neighbour slots, row `8 + f` an
  angular sum over the 496 neighbour pairs.
-/
import proofs.«167439_j40243843564182_1_alg».proof.Proof.Spec

noncomputable section

namespace Cert.Spec

open Idealize.ShloMosaic Idealize.ShloMosaic.ValueIdx

/-- The kernel's output over whole [slot, atom] and [pair, atom] arrays of any number `A` of atom columns. -/
def GK {A : Nat} (X0 X1 : (⟨2, ![32, A]⟩ : Shape).Idx → Ideal .f32) (X2 X3 X4 X5 : (⟨2, ![496, A]⟩ : Shape).Idx → Ideal .f32) :
    (⟨2, ![51, A]⟩ : Shape).Idx → Ideal .f32 := fun j =>
  if h : (j 0).val < 8 then
    ∑ k : Fin 32, g2K (w (ne2W ⟨(j 0).val, h⟩)) (X0 (ix2 k (j 1))) (X1 (ix2 k (j 1)))
  else
    ∑ p : Fin 496, g4K (w (lamW ⟨(j 0).val - 8, by have := (j 0).isLt; simp at this; omega⟩)) (w (ne4W ⟨(j 0).val - 8, by have := (j 0).isLt; simp at this; omega⟩))
      (w (coefW ⟨(j 0).val - 8, by have := (j 0).isLt; simp at this; omega⟩)) (sqN ⟨(j 0).val - 8, by have := (j 0).isLt; simp at this; omega⟩)
      (X2 (ix2 p (j 1))) (X3 (ix2 p (j 1))) (X4 (ix2 p (j 1))) (X5 (ix2 p (j 1)))

/-- The kernel program's result over the shared arrays (distances, neighbour mask, pair distances, pair mask). -/
def outK (R : (⟨2, ![2000, 32]⟩ : Shape).Idx → Ideal .f32) (M : (⟨2, ![2000, 32]⟩ : Shape).Idx → BitVec 1)
    (RIJ RIK RJK2 : (⟨2, ![2000, 496]⟩ : Shape).Idx → Ideal .f32) (TRI : (⟨2, ![2000, 496]⟩ : Shape).Idx → BitVec 1) :
    (⟨2, ![2000, 51]⟩ : Shape).Idx → Ideal .f32 := fun j =>
  if h : (j 1).val < 8 then
    ∑ k : Fin 32, g2K (w (ne2W ⟨(j 1).val, h⟩)) (R (ix2 (j 0) k)) (FloatOps.uitofp .f32 (M (ix2 (j 0) k)))
  else
    ∑ p : Fin 496, g4K (w (lamW ⟨(j 1).val - 8, by have := (j 1).isLt; simp at this; omega⟩)) (w (ne4W ⟨(j 1).val - 8, by have := (j 1).isLt; simp at this; omega⟩))
      (w (coefW ⟨(j 1).val - 8, by have := (j 1).isLt; simp at this; omega⟩)) (sqN ⟨(j 1).val - 8, by have := (j 1).isLt; simp at this; omega⟩)
      (RIJ (ix2 (j 0) p)) (RIK (ix2 (j 0) p)) (RJK2 (ix2 (j 0) p)) (FloatOps.uitofp .f32 (TRI (ix2 (j 0) p)))

/-- The reference's result over the shared arrays. -/
def outR (R : (⟨2, ![2000, 32]⟩ : Shape).Idx → Ideal .f32) (M : (⟨2, ![2000, 32]⟩ : Shape).Idx → BitVec 1)
    (RIJ RIK RJK2 : (⟨2, ![2000, 496]⟩ : Shape).Idx → Ideal .f32) (TRI : (⟨2, ![2000, 496]⟩ : Shape).Idx → BitVec 1) :
    (⟨2, ![2000, 51]⟩ : Shape).Idx → Ideal .f32 := fun j =>
  if h : (j 1).val < 8 then
    ∑ k : Fin 32, g2R (w (ne2W ⟨(j 1).val, h⟩)) (R (ix2 (j 0) k)) (M (ix2 (j 0) k))
  else
    ∑ p : Fin 496, g4R (w (lamW ⟨(j 1).val - 8, by have := (j 1).isLt; simp at this; omega⟩)) (w (zetaW ⟨(j 1).val - 8, by have := (j 1).isLt; simp at this; omega⟩))
      (w (ne4W ⟨(j 1).val - 8, by have := (j 1).isLt; simp at this; omega⟩)) (w (coefW ⟨(j 1).val - 8, by have := (j 1).isLt; simp at this; omega⟩))
      (RIJ (ix2 (j 0) p)) (RIK (ix2 (j 0) p)) (RJK2 (ix2 (j 0) p)) (TRI (ix2 (j 0) p))

end Cert.Spec

end
-- ==== Proof.Stages.lean ====
/-
  The part of the computation the two programs share, as whole-array terms of the arguments: the neighbour
  displacement vectors, their squared lengths and lengths, the validity and cutoff masks, and the pair
  quantities gathered along the unordered-pair index tables.  Both programs' host operations spell these
  with the same operations in the same order, so each program's buffers hold exactly these terms; the pair
  index tables are parameters (each program prints its own copy of the same tables).
-/
import proofs.«167439_j40243843564182_1_alg».proof.ReferenceIdeal
import proofs.«167439_j40243843564182_1_alg».proof.Proof.Gen.ReferenceIdeal
import Idealize.ShloMosaic.PureOps.Ideal

noncomputable section

namespace Cert.Stages

open Idealize.ShloMosaic Cert.ReferenceIdeal Cert.ReferenceIdeal.Facts₀

/-- The neighbour list reshaped to [atom, slot], a negative index wrapped by the number of atoms. -/
def idx (a2 : IVec S64000 32) : IVec S2000x32 32 :=
  select (cmpi .slt (fun i => shapeCast S2000x32 a2 shapeCasts_S64000_S2000x32 i) (broadcastInDim S2000x32 ![] bcast_S_S2000x32 (constantI S_ 32 0#32)))
    (addi (fun i => shapeCast S2000x32 a2 shapeCasts_S64000_S2000x32 i) (broadcastInDim S2000x32 ![] bcast_S_S2000x32 (constantI S_ 32 2000#32)))
    (fun i => shapeCast S2000x32 a2 shapeCasts_S64000_S2000x32 i)

/-- Displacements `pos[neighbour] - pos[atom]`, [atom, slot, xyz]. -/
def rvec (a0 : FVec Ideal S2000x3 .f32) (a2 : IVec S64000 32) : FVec Ideal S2000x32x3 .f32 :=
  subf (Host.gather gather_S2000x3_S2000x32x1_S2000x32x3_2_0_n_n_0_2_13 a0 (broadcastInDim S2000x32x1 ![0, 1] bcast_S2000x32_S2000x32x1_0_1 (idx a2)))
    (broadcastInDim S2000x32x3 ![0, 1, 2] bcast_S2000x1x3_S2000x32x3_0_1_2 (broadcastInDim S2000x1x3 ![0, 2] bcast_S2000x3_S2000x1x3_0_2 a0))

/-- Squared neighbour distances, [atom, slot]. -/
def rsq (a0 : FVec Ideal S2000x3 .f32) (a2 : IVec S64000 32) : FVec Ideal S2000x32 .f32 :=
  Host.reduceAdd (mulf (rvec a0 a2) (rvec a0 a2)) (constant S_ .f32 0x00000000#32) reducesTo_S2000x32x3_S2000x32_d2 h_S_

/-- Neighbour distances, [atom, slot]. -/
def r (a0 : FVec Ideal S2000x3 .f32) (a2 : IVec S64000 32) : FVec Ideal S2000x32 .f32 :=
  Host.sqrt (rsq a0 a2)

/-- The ragged-list mask: slot below the atom's neighbour count. -/
def valid (a1 : IVec S2000 32) : IVec S2000x32 1 :=
  cmpi .slt (broadcastInDim S2000x32 ![0, 1] bcast_S1x32_S2000x32_0_1 (broadcastInDim S1x32 ![1] bcast_S32_S1x32_1 (iotaInDim S32 32 0)))
    (broadcastInDim S2000x32 ![0, 1] bcast_S2000x1_S2000x32_0_1 (broadcastInDim S2000x1 ![0] bcast_S2000_S2000x1_0 a1))

/-- Valid and within the squared cutoff 64. -/
def maskj (a0 : FVec Ideal S2000x3 .f32) (a1 : IVec S2000 32) (a2 : IVec S64000 32) : IVec S2000x32 1 :=
  andi (valid a1) (cmpf .ole (rsq a0 a2) (broadcastInDim S2000x32 ![] bcast_S_S2000x32 (constant S_ .f32 0x42800000#32)))

/-- A pair table as gather start indices (a negative entry wrapped by 32: the tables hold none, the select's
    condition is the constant false). -/
def pairIdx (tbl : Fin 496 → BitVec 32) : IVec S496x1 32 :=
  broadcastInDim S496x1 ![0] bcast_S496_S496x1_0
    (select (constantI S496 1 0#1) (addi (fun i => tbl (S496.rowMajor i)) (broadcastInDim S496 ![] bcast_S_S496 (constantI S_ 32 32#32))) (fun i => tbl (S496.rowMajor i)))

/-- A per-slot array read along a pair table, [atom, pair]. -/
def alongF (tbl : Fin 496 → BitVec 32) (x : FVec Ideal S2000x32 .f32) : FVec Ideal S2000x496 .f32 :=
  Host.gather gather_S2000x32_S496x1_S2000x496_0_1_n_n_1_1_20001 x (pairIdx tbl)

/-- A per-slot mask read along a pair table. -/
def alongB (tbl : Fin 496 → BitVec 32) (x : IVec S2000x32 1) : IVec S2000x496 1 :=
  Host.gather gather_S2000x32_S496x1_S2000x496_0_1_n_n_1_1_20001 x (pairIdx tbl)

/-- Squared distance between the two neighbours of a pair, [atom, pair]. -/
def rjk2 (jj kk : Fin 496 → BitVec 32) (a0 : FVec Ideal S2000x3 .f32) (a2 : IVec S64000 32) : FVec Ideal S2000x496 .f32 :=
  Host.reduceAdd
    (mulf (subf (Host.gather gather_S2000x32x3_S496x1_S2000x496x3_02_1_n_n_1_1_200013 (rvec a0 a2) (pairIdx kk)) (Host.gather gather_S2000x32x3_S496x1_S2000x496x3_02_1_n_n_1_1_200013 (rvec a0 a2) (pairIdx jj)))
          (subf (Host.gather gather_S2000x32x3_S496x1_S2000x496x3_02_1_n_n_1_1_200013 (rvec a0 a2) (pairIdx kk)) (Host.gather gather_S2000x32x3_S496x1_S2000x496x3_02_1_n_n_1_1_200013 (rvec a0 a2) (pairIdx jj))))
    (constant S_ .f32 0x00000000#32) reducesTo_S2000x496x3_S2000x496_d2 h_S_

/-- The pair mask but for its last conjunct: first neighbour valid and within cutoff, second valid, second within cutoff. -/
def tri3 (jj kk : Fin 496 → BitVec 32) (a0 : FVec Ideal S2000x3 .f32) (a1 : IVec S2000 32) (a2 : IVec S64000 32) : IVec S2000x496 1 :=
  andi (andi (alongB jj (maskj a0 a1 a2)) (alongB kk (valid a1)))
    (cmpf .ole (alongF kk (rsq a0 a2)) (broadcastInDim S2000x496 ![] bcast_S_S2000x496 (constant S_ .f32 0x42800000#32)))

/-- The kernel program's pair mask: the last conjunct compares the plain square root with the cutoff 8. -/
def triK (jj kk : Fin 496 → BitVec 32) (a0 : FVec Ideal S2000x3 .f32) (a1 : IVec S2000 32) (a2 : IVec S64000 32) : IVec S2000x496 1 :=
  andi (tri3 jj kk a0 a1 a2) (cmpf .ole (Host.sqrt (rjk2 jj kk a0 a2)) (broadcastInDim S2000x496 ![] bcast_S_S2000x496 (constant S_ .f32 0x41000000#32)))

/-- The reference's guarded pair distance as an array. -/
def rjkRarr (x : FVec Ideal S2000x496 .f32) : FVec Ideal S2000x496 .f32 :=
  select (cmpf .ogt x (broadcastInDim S2000x496 ![] bcast_S_S2000x496 (constant S_ .f32 0x00000000#32)))
    (Host.sqrt (select (cmpf .ogt x (broadcastInDim S2000x496 ![] bcast_S_S2000x496 (constant S_ .f32 0x00000000#32))) x
      (broadcastInDim S2000x496 ![] bcast_S_S2000x496 (constant S_ .f32 0x3F800000#32))))
    (broadcastInDim S2000x496 ![] bcast_S_S2000x496 (constant S_ .f32 0x00000000#32))

/-- The reference's pair mask: the last conjunct compares the guarded distance. -/
def triR (jj kk : Fin 496 → BitVec 32) (a0 : FVec Ideal S2000x3 .f32) (a1 : IVec S2000 32) (a2 : IVec S64000 32) : IVec S2000x496 1 :=
  andi (tri3 jj kk a0 a1 a2) (cmpf .ole (rjkRarr (rjk2 jj kk a0 a2)) (broadcastInDim S2000x496 ![] bcast_S_S2000x496 (constant S_ .f32 0x41000000#32)))

end Cert.Stages

end
-- ==== Proof.KerHost.lean ====
/-
  What the kernel program's host operations around its one pipelined region compute.

  Before the region the program builds the neighbour distances, the two masks and the pair quantities as
  [atom, slot] and [atom, pair] arrays (the stages both programs share), appends 48 atom rows to each so that
  the 2000 atoms fill 4 blocks of 512 columns, and transposes each to [row, atom]: these six arrays are what
  the region's windows stage.  At an atom column below 2000 each therefore holds the shared stage's entry of
  that atom; the appended rows are never read there.  After the region two operations keep the first 2000
  atom columns of the [51, 2048] result and transpose back, so the program's [2000, 51] result at
  (atom, feature) is the region's array at (feature, atom).
-/
import proofs.«167439_j40243843564182_1_alg».proof.Proof.Gen.KernelIdeal.Launch
import proofs.«167439_j40243843564182_1_alg».proof.Proof.Stages
import Idealize.ShloMosaic.Lib.Pipeline.FrameSuffix
import Idealize.ShloMosaic.Lib.Pipeline.Value
import Idealize.ShloMosaic.Lib.ValueIdx
import Idealize.ShloMosaic.Lib.StableHlo.Run
import Idealize.ShloMosaic.Lib.KernelVsHost

set_option maxRecDepth 16384

noncomputable section

namespace Cert.KernelIdeal.Host

open Cert.KernelIdeal Cert.KernelIdeal.Gen Idealize.ShloMosaic Idealize.ShloMosaic.TcCoe Idealize.SL.Sem Idealize.ShloMosaic.ValueIdx
open Idealize.ShloMosaic.StableHlo

/-- Core `c`'s buffer contents when the region is entered: the launch memory after every host operation
    that precedes the region, in program order. -/
abbrev hostV0 (m : (ℓ : Loc nD τ sig) → Buf (Elt Ideal) ℓ) (c : Dev nD) : Valuation τ sig (Elt Ideal) :=
  StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b))
/-- The same read at a reference. -/
abbrev hostV (m : (ℓ : Loc nD τ sig) → Buf (Elt Ideal) ℓ) (c : Dev nD) (b : Ref sig .tc) : Buf (Elt Ideal) ((c : Thread nD τ).loc b) :=
  hostV0 m c (Proc.devRef .tc b)

variable (m : (ℓ : Loc nD τ sig) → Buf (Elt Ideal) ℓ) (c : Dev nD)

/-- The three argument arrays as the launch memory holds them on core `c`. -/
abbrev A0 : FVec Ideal S2000x3 .f32 := m ((c : Thread nD τ).loc main_arg0)
abbrev A1 : IVec S2000 32 := m ((c : Thread nD τ).loc main_arg1)
abbrev A2 : IVec S64000 32 := m ((c : Thread nD τ).loc main_arg2)

/-! ## Reading a padded and transposed array at a real atom column

Padding appends 48 atom rows after the 2000 real ones and the transposition exchanges the two axes, so the
entry at (row `k`, atom column `a`) with `a < 2000` is the unpadded array's entry at (atom `a`, `k`); the padding
value is never read there. -/

theorem padT32_apply {α : Type} (x : S2000x32.Idx → α) (v : S_.Idx → α) (k : Fin 32) (a : Fin 2000) :
    transpose S32x2048 [1, 0] (pad S2048x32 ![0, 0] ![48, 0] ![0, 0] x v Gen.pads_S2000x32_S2048x32_0480_000 Gen.h_S_)
      Gen.transposes_S2048x32_S32x2048_1_0 (ix2 k ⟨a.val, by omega⟩) = x (ix2 a k) := by
  refine (transpose_apply (s := S2048x32) (t := S32x2048) [1, 0] _ _ (ix2 k ⟨a.val, by omega⟩) (ix2 ⟨a.val, by omega⟩ k) ?_).trans ?_
  · intro b; fin_cases b <;> rfl
  · exact pad_apply_of_inside (s := S2000x32) (t := S2048x32) ![0, 0] ![48, 0] ![0, 0] x v _ _ (ix2 ⟨a.val, by omega⟩ k) (ix2 a k)
      (by intro b; fin_cases b <;> simp)

theorem padT496_apply {α : Type} (x : S2000x496.Idx → α) (v : S_.Idx → α) (p : Fin 496) (a : Fin 2000) :
    transpose S496x2048 [1, 0] (pad S2048x496 ![0, 0] ![48, 0] ![0, 0] x v Gen.pads_S2000x496_S2048x496_0480_000 Gen.h_S_)
      Gen.transposes_S2048x496_S496x2048_1_0 (ix2 p ⟨a.val, by omega⟩) = x (ix2 a p) := by
  refine (transpose_apply (s := S2048x496) (t := S496x2048) [1, 0] _ _ (ix2 p ⟨a.val, by omega⟩) (ix2 ⟨a.val, by omega⟩ p) ?_).trans ?_
  · intro b; fin_cases b <;> rfl
  · exact pad_apply_of_inside (s := S2000x496) (t := S2048x496) ![0, 0] ![48, 0] ![0, 0] x v _ _ (ix2 ⟨a.val, by omega⟩ p) (ix2 a p)
      (by intro b; fin_cases b <;> simp)

/-! ## The six staged arrays as whole-array terms

Each is read off the host operations before the region: the shared stage, padded with 48 atom rows (the
padding value is the operations' own constant) and transposed to [row, atom]. -/

set_option maxHeartbeats 4000000 in
theorem win0_arr : (hostV m c main_v77 : FVec Ideal S32x2048 .f32) =
    transpose S32x2048 [1, 0] (pad S2048x32 ![0, 0] ![48, 0] ![0, 0] (Cert.Stages.r (A0 m c) (A2 m c))
      (constant (F := Ideal) S_ .f32 0x3F800000#32) Gen.pads_S2000x32_S2048x32_0480_000 Gen.h_S_) Gen.transposes_S2048x32_S32x2048_1_0 := by
  dsimp only [hostV, hostV0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results_simp
  simp only [TRef.ofBuf, TRef.toBuf, cast_eq, id]
  rfl

set_option maxHeartbeats 4000000 in
theorem win1_arr : (hostV m c main_v78 : FVec Ideal S32x2048 .f32) =
    transpose S32x2048 [1, 0] (pad S2048x32 ![0, 0] ![48, 0] ![0, 0] (uitofp (F := Ideal) .f32 (Cert.Stages.maskj (A0 m c) (A1 m c) (A2 m c)))
      (constant (F := Ideal) S_ .f32 0x00000000#32) Gen.pads_S2000x32_S2048x32_0480_000 Gen.h_S_) Gen.transposes_S2048x32_S32x2048_1_0 := by
  dsimp only [hostV, hostV0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results_simp
  simp only [TRef.ofBuf, TRef.toBuf, cast_eq, id]
  rfl

set_option maxHeartbeats 4000000 in
theorem win2_arr : (hostV m c main_v79 : FVec Ideal S496x2048 .f32) =
    transpose S496x2048 [1, 0] (pad S2048x496 ![0, 0] ![48, 0] ![0, 0] (Cert.Stages.alongF lit0 (Cert.Stages.r (A0 m c) (A2 m c)))
      (constant (F := Ideal) S_ .f32 0x3F800000#32) Gen.pads_S2000x496_S2048x496_0480_000 Gen.h_S_) Gen.transposes_S2048x496_S496x2048_1_0 := by
  dsimp only [hostV, hostV0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results_simp
  simp only [TRef.ofBuf, TRef.toBuf, cast_eq, id]
  rfl

set_option maxHeartbeats 4000000 in
theorem win3_arr : (hostV m c main_v80 : FVec Ideal S496x2048 .f32) =
    transpose S496x2048 [1, 0] (pad S2048x496 ![0, 0] ![48, 0] ![0, 0] (Cert.Stages.alongF lit1 (Cert.Stages.r (A0 m c) (A2 m c)))
      (constant (F := Ideal) S_ .f32 0x3F800000#32) Gen.pads_S2000x496_S2048x496_0480_000 Gen.h_S_) Gen.transposes_S2048x496_S496x2048_1_0 := by
  dsimp only [hostV, hostV0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results_simp
  simp only [TRef.ofBuf, TRef.toBuf, cast_eq, id]
  rfl

set_option maxHeartbeats 4000000 in
theorem win4_arr : (hostV m c main_v81 : FVec Ideal S496x2048 .f32) =
    transpose S496x2048 [1, 0] (pad S2048x496 ![0, 0] ![48, 0] ![0, 0] (Cert.Stages.rjk2 lit0 lit1 (A0 m c) (A2 m c))
      (constant (F := Ideal) S_ .f32 0x00000000#32) Gen.pads_S2000x496_S2048x496_0480_000 Gen.h_S_) Gen.transposes_S2048x496_S496x2048_1_0 := by
  dsimp only [hostV, hostV0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results_simp
  simp only [TRef.ofBuf, TRef.toBuf, cast_eq, id]
  rfl

set_option maxHeartbeats 4000000 in
theorem win5_arr : (hostV m c main_v82 : FVec Ideal S496x2048 .f32) =
    transpose S496x2048 [1, 0] (pad S2048x496 ![0, 0] ![48, 0] ![0, 0] (uitofp (F := Ideal) .f32 (Cert.Stages.triK lit0 lit1 (A0 m c) (A1 m c) (A2 m c)))
      (constant (F := Ideal) S_ .f32 0x00000000#32) Gen.pads_S2000x496_S2048x496_0480_000 Gen.h_S_) Gen.transposes_S2048x496_S496x2048_1_0 := by
  dsimp only [hostV, hostV0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results_simp
  simp only [TRef.ofBuf, TRef.toBuf, cast_eq, id]
  rfl

/-! ## The staged arrays at a real atom column -/

theorem win0_at (k : Fin 32) (a : Fin 2000) :
    hostV m c main_v77 (ix2 k ⟨a.val, by omega⟩) = Cert.Stages.r (A0 m c) (A2 m c) (ix2 a k) :=
  (congrFun (win0_arr m c) _).trans (padT32_apply _ _ k a)

theorem win1_at (k : Fin 32) (a : Fin 2000) :
    hostV m c main_v78 (ix2 k ⟨a.val, by omega⟩)
      = FloatOps.uitofp (F := Ideal) .f32 (Cert.Stages.maskj (A0 m c) (A1 m c) (A2 m c) (ix2 a k)) :=
  (congrFun (win1_arr m c) _).trans (padT32_apply _ _ k a)

theorem win2_at (p : Fin 496) (a : Fin 2000) :
    hostV m c main_v79 (ix2 p ⟨a.val, by omega⟩) = Cert.Stages.alongF lit0 (Cert.Stages.r (A0 m c) (A2 m c)) (ix2 a p) :=
  (congrFun (win2_arr m c) _).trans (padT496_apply _ _ p a)

theorem win3_at (p : Fin 496) (a : Fin 2000) :
    hostV m c main_v80 (ix2 p ⟨a.val, by omega⟩) = Cert.Stages.alongF lit1 (Cert.Stages.r (A0 m c) (A2 m c)) (ix2 a p) :=
  (congrFun (win3_arr m c) _).trans (padT496_apply _ _ p a)

theorem win4_at (p : Fin 496) (a : Fin 2000) :
    hostV m c main_v81 (ix2 p ⟨a.val, by omega⟩) = Cert.Stages.rjk2 lit0 lit1 (A0 m c) (A2 m c) (ix2 a p) :=
  (congrFun (win4_arr m c) _).trans (padT496_apply _ _ p a)

theorem win5_at (p : Fin 496) (a : Fin 2000) :
    hostV m c main_v82 (ix2 p ⟨a.val, by omega⟩)
      = FloatOps.uitofp (F := Ideal) .f32 (Cert.Stages.triK lit0 lit1 (A0 m c) (A1 m c) (A2 m c) (ix2 a p)) :=
  (congrFun (win5_arr m c) _).trans (padT496_apply _ _ p a)

/-! ## The two operations after the region

The slice keeps columns 0..1999 at offset 0 and the transposition exchanges the axes, so the result at
(atom `a`, feature `f`) is the region's [51, 2048] array, as the region leaves it, at (`f`, `a`). -/

theorem tail_at (dats : (p : Fin 1) → (c : Dev nD) → Pipeline.Dat τ (Elt Ideal) Unit ℕ (UR sig nD τ) ℕ (cfgs p) c)
    (a : Fin 2000) (f : Fin 51) :
    Pipeline.afterTail₀ cfgs dats 0 (hostV0 m) [hostOps1] c main_v85 (ix2 a f)
      = (dats 0 c).arrAt 6 cfg0.N (ix2 f ⟨a.val, by omega⟩) := by
  unfold Pipeline.afterTail₀
  show StableHlo.after hostOps1 _ (Proc.devRef .tc main_v85) _ = _
  after_results
  refine (transpose_apply (s := S51x2000) (t := S2000x51) [1, 0] _ _ (ix2 a f) (ix2 f ⟨a.val, by omega⟩) ?_).trans ?_
  · intro b; fin_cases b <;> rfl
  refine (extractStridedSlice_apply (s := S51x2048) (t := S51x2000) ![0, 0] _ _ (ix2 f ⟨a.val, by omega⟩) (ix2 f ⟨a.val, by omega⟩) ?_).trans ?_
  · intro b; fin_cases b <;> simp
  exact congrFun (Pipeline.withArrays_arr spec0 launch0.win.arr_inj c _ _ 6) _

end Cert.KernelIdeal.Host

end
-- ==== Proof.KerRows.lean ====
/-
  The kernel body's one store, read row by row.

  The body stores a [51, 512] block: rows 0–7 are the radial sums over the 32 slot rows of the two [32, 512] input
  blocks, rows 8–50 the angular sums over the 496 pair rows of the four [496, 512] input blocks.  Each row is a
  column-wise sum of one summand; the summand of row `f` is `g2K` at the `f`-th radial width, and that of row
  `8 + f` is `g4K` at the `f`-th sign, width, prefactor and number of squarings.  The vector operations act entry
  by entry, so a row of the body is the row function `row2` / `row4` below by unfolding, and the stack of rows read at
  row `f` is the `f`-th row function at its one row.
-/
import proofs.«167439_j40243843564182_1_alg».proof.Proof.FrameP
import proofs.«167439_j40243843564182_1_alg».proof.Proof.Spec
import Idealize.ShloMosaic.PureOps.Ideal.Laws
import Idealize.ShloMosaic.Lib.Pipeline.Value

noncomputable section

namespace Cert.KernelIdeal.Rows

open Cert.KernelIdeal Cert.KernelIdeal.Gen Idealize.ShloMosaic Idealize.ShloMosaic.ValueIdx
open Cert.Spec

/-! ## One row as a function of its parameters -/

/-- Row `8 + f` of the block: the angular summand added up over the 496 pair rows. -/
def row4 (lam ne coef : BitVec 32) (n : Nat) (rij rik rjk2 tri : FVec Ideal S496x512 .f32) : FVec Ideal S1x512 .f32 :=
  shapeCast S1x512 (multiReduction .add [0] S512
    (fun i => g4K (w lam) (w ne) (w coef) n (rij i) (rik i) (rjk2 i) (tri i))
    0x00000000#32 reduces_S496x512_S512 (.inl rfl) rfl) shapeCasts_S512_S1x512

/-- Row `f` of the block: the radial summand added up over the 32 slot rows. -/
def row2 (ne : BitVec 32) (r mk : FVec Ideal S32x512 .f32) : FVec Ideal S1x512 .f32 :=
  shapeCast S1x512 (multiReduction .add [0] S512
    (fun i => g2K (w ne) (r i) (mk i))
    0x00000000#32 reduces_S32x512_S512 (.inl rfl) rfl) shapeCasts_S512_S1x512

/-- An angular row read at a column: the sum over the pairs of the summand at that column. -/
theorem row4_apply (lam ne coef : BitVec 32) (n : Nat) (rij rik rjk2 tri : FVec Ideal S496x512 .f32) (z : Fin 1) (l : Fin 512) :
    row4 lam ne coef n rij rik rjk2 tri (ix2 z l)
      = ∑ p : Fin 496, g4K (w lam) (w ne) (w coef) n (rij (ix2 p l)) (rik (ix2 p l)) (rjk2 (ix2 p l)) (tri (ix2 p l)) := by
  unfold row4
  rw [shapeCast_apply _ shapeCasts_S512_S1x512 (ix2 z l) (ix1 l) (by
    have := z.isLt
    simp [Shape.rowMajor_val_one, Shape.rowMajor_val_two])]
  refine (Ideal.multiReduction_add_single (a := 0) _ _ reduces_S496x512_S512 _ _ (ix1 l)).trans ?_
  refine Finset.sum_congr rfl fun p _ => ?_
  have e : (reduces_S496x512_S512.lift (ix1 l) p) = ix2 p l := by
    funext a; match a with | ⟨0, _⟩ => rfl | ⟨1, _⟩ => rfl
  rw [e]; rfl

/-- A radial row read at a column: the sum over the slots of the summand at that column. -/
theorem row2_apply (ne : BitVec 32) (r mk : FVec Ideal S32x512 .f32) (z : Fin 1) (l : Fin 512) :
    row2 ne r mk (ix2 z l) = ∑ k : Fin 32, g2K (w ne) (r (ix2 k l)) (mk (ix2 k l)) := by
  unfold row2
  rw [shapeCast_apply _ shapeCasts_S512_S1x512 (ix2 z l) (ix1 l) (by
    have := z.isLt
    simp [Shape.rowMajor_val_one, Shape.rowMajor_val_two])]
  refine (Ideal.multiReduction_add_single (a := 0) _ _ reduces_S32x512_S512 _ _ (ix1 l)).trans ?_
  refine Finset.sum_congr rfl fun p _ => ?_
  have e : (reduces_S32x512_S512.lift (ix1 l) p) = ix2 p l := by
    funext a; match a with | ⟨0, _⟩ => rfl | ⟨1, _⟩ => rfl
  rw [e]; rfl

/-! ## The body's rows are these functions at the tabulated parameters

The body's vector operations act entry by entry, and the summand is spelled with the same scalar operations in the same
order, so each row of the body unfolds to the row function: the shared factors are the cutoff product `fcA`,
the cosine `csA` and the sum of squares `ssA`. -/

section Angular
variable (X2 X3 X4 X5 : FVec Ideal S496x512 .f32)

abbrev fcA : FVec Ideal S496x512 .f32 := k0_pay16 X2 X3 (sqrt X4) (Scalar.ofBits .f32 0x41000000#32)
abbrev csA : FVec Ideal S496x512 .f32 := k0_pay19 X2 X3 X4 (k0_pay17 X2) (k0_pay18 X3)
abbrev ssA : FVec Ideal S496x512 .f32 := k0_pay20 X4 (k0_pay17 X2) (k0_pay18 X3)

theorem ang00 : k0_pay21 X2 X3 X4 X5 (fcA X2 X3 X4) (k0_pay17 X2) (k0_pay18 X3) = row4 (lamW 0) (ne4W 0) (coefW 0) (sqN 0) X2 X3 X4 X5 := rfl
theorem ang01 : k0_pay23 X5 (fcA X2 X3 X4) (k0_pay22 X2 X3 X4 (k0_pay17 X2) (k0_pay18 X3)) = row4 (lamW 1) (ne4W 1) (coefW 1) (sqN 1) X2 X3 X4 X5 := rfl
theorem ang02 : k0_pay24 X5 (fcA X2 X3 X4) (csA X2 X3 X4) (ssA X2 X3 X4) = row4 (lamW 2) (ne4W 2) (coefW 2) (sqN 2) X2 X3 X4 X5 := rfl
theorem ang03 : k0_pay26 (k0_pay25 X5 (fcA X2 X3 X4) (csA X2 X3 X4) (ssA X2 X3 X4)) = row4 (lamW 3) (ne4W 3) (coefW 3) (sqN 3) X2 X3 X4 X5 := rfl
theorem ang04 : k0_pay27 X5 (fcA X2 X3 X4) (csA X2 X3 X4) (ssA X2 X3 X4) = row4 (lamW 4) (ne4W 4) (coefW 4) (sqN 4) X2 X3 X4 X5 := rfl
theorem ang05 : k0_pay29 (k0_pay28 X5 (fcA X2 X3 X4) (csA X2 X3 X4) (ssA X2 X3 X4)) = row4 (lamW 5) (ne4W 5) (coefW 5) (sqN 5) X2 X3 X4 X5 := rfl
theorem ang06 : k0_pay30 X5 (fcA X2 X3 X4) (csA X2 X3 X4) (ssA X2 X3 X4) = row4 (lamW 6) (ne4W 6) (coefW 6) (sqN 6) X2 X3 X4 X5 := rfl
theorem ang07 : k0_pay31 X5 (fcA X2 X3 X4) (csA X2 X3 X4) (ssA X2 X3 X4) = row4 (lamW 7) (ne4W 7) (coefW 7) (sqN 7) X2 X3 X4 X5 := rfl
theorem ang08 : k0_pay32 X5 (fcA X2 X3 X4) (csA X2 X3 X4) (ssA X2 X3 X4) (Scalar.ofBits .f32 0xBF800000#32) = row4 (lamW 8) (ne4W 8) (coefW 8) (sqN 8) X2 X3 X4 X5 := rfl
theorem ang09 : k0_pay33 X5 (fcA X2 X3 X4) (csA X2 X3 X4) (ssA X2 X3 X4) = row4 (lamW 9) (ne4W 9) (coefW 9) (sqN 9) X2 X3 X4 X5 := rfl
theorem ang10 : k0_pay35 X5 (fcA X2 X3 X4) (ssA X2 X3 X4) (k0_pay34 (csA X2 X3 X4)) = row4 (lamW 10) (ne4W 10) (coefW 10) (sqN 10) X2 X3 X4 X5 := rfl
theorem ang11 : k0_pay36 X5 (fcA X2 X3 X4) (csA X2 X3 X4) (ssA X2 X3 X4) = row4 (lamW 11) (ne4W 11) (coefW 11) (sqN 11) X2 X3 X4 X5 := rfl
theorem ang12 : k0_pay38 X5 (fcA X2 X3 X4) (ssA X2 X3 X4) (k0_pay37 (csA X2 X3 X4)) = row4 (lamW 12) (ne4W 12) (coefW 12) (sqN 12) X2 X3 X4 X5 := rfl
theorem ang13 : k0_pay39 X5 (fcA X2 X3 X4) (csA X2 X3 X4) (ssA X2 X3 X4) = row4 (lamW 13) (ne4W 13) (coefW 13) (sqN 13) X2 X3 X4 X5 := rfl
theorem ang14 : k0_pay41 X5 (fcA X2 X3 X4) (ssA X2 X3 X4) (k0_pay40 (csA X2 X3 X4)) (Scalar.ofBits .f32 0x00000000#32) = row4 (lamW 14) (ne4W 14) (coefW 14) (sqN 14) X2 X3 X4 X5 := rfl
theorem ang15 : k0_pay42 X5 (fcA X2 X3 X4) (csA X2 X3 X4) (ssA X2 X3 X4) = row4 (lamW 15) (ne4W 15) (coefW 15) (sqN 15) X2 X3 X4 X5 := rfl
theorem ang16 : k0_pay45 X5 (fcA X2 X3 X4) (ssA X2 X3 X4) (k0_pay43 (csA X2 X3 X4)) (k0_pay44 (csA X2 X3 X4)) = row4 (lamW 16) (ne4W 16) (coefW 16) (sqN 16) X2 X3 X4 X5 := rfl
theorem ang17 : k0_pay46 X5 (fcA X2 X3 X4) (csA X2 X3 X4) (ssA X2 X3 X4) = row4 (lamW 17) (ne4W 17) (coefW 17) (sqN 17) X2 X3 X4 X5 := rfl
theorem ang18 : k0_pay49 X5 (fcA X2 X3 X4) (ssA X2 X3 X4) (k0_pay47 (csA X2 X3 X4)) (k0_pay48 (csA X2 X3 X4)) = row4 (lamW 18) (ne4W 18) (coefW 18) (sqN 18) X2 X3 X4 X5 := rfl
theorem ang19 : k0_pay50 X5 (fcA X2 X3 X4) (csA X2 X3 X4) (ssA X2 X3 X4) = row4 (lamW 19) (ne4W 19) (coefW 19) (sqN 19) X2 X3 X4 X5 := rfl
theorem ang20 : k0_pay54 X5 (fcA X2 X3 X4) (ssA X2 X3 X4) (k0_pay52 (csA X2 X3 X4)) (k0_pay53 (csA X2 X3 X4)) = row4 (lamW 20) (ne4W 20) (coefW 20) (sqN 20) X2 X3 X4 X5 := rfl
theorem ang21 : k0_pay55 X5 (fcA X2 X3 X4) (csA X2 X3 X4) (ssA X2 X3 X4) = row4 (lamW 21) (ne4W 21) (coefW 21) (sqN 21) X2 X3 X4 X5 := rfl
theorem ang22 : k0_pay60 X5 (fcA X2 X3 X4) (ssA X2 X3 X4) (k0_pay58 (csA X2 X3 X4)) (k0_pay59 (csA X2 X3 X4)) = row4 (lamW 22) (ne4W 22) (coefW 22) (sqN 22) X2 X3 X4 X5 := rfl
theorem ang23 : k0_pay61 X5 (fcA X2 X3 X4) (csA X2 X3 X4) (ssA X2 X3 X4) = row4 (lamW 23) (ne4W 23) (coefW 23) (sqN 23) X2 X3 X4 X5 := rfl
theorem ang24 : k0_pay63 X5 (fcA X2 X3 X4) (ssA X2 X3 X4) (k0_pay62 (csA X2 X3 X4)) = row4 (lamW 24) (ne4W 24) (coefW 24) (sqN 24) X2 X3 X4 X5 := rfl
theorem ang25 : k0_pay64 X5 (fcA X2 X3 X4) (csA X2 X3 X4) (ssA X2 X3 X4) = row4 (lamW 25) (ne4W 25) (coefW 25) (sqN 25) X2 X3 X4 X5 := rfl
theorem ang26 : k0_pay67 X5 (fcA X2 X3 X4) (k0_pay65 (csA X2 X3 X4)) (k0_pay66 (ssA X2 X3 X4)) = row4 (lamW 26) (ne4W 26) (coefW 26) (sqN 26) X2 X3 X4 X5 := rfl
theorem ang27 : k0_pay68 X5 (fcA X2 X3 X4) (csA X2 X3 X4) (ssA X2 X3 X4) = row4 (lamW 27) (ne4W 27) (coefW 27) (sqN 27) X2 X3 X4 X5 := rfl
theorem ang28 : k0_pay71 X5 (fcA X2 X3 X4) (k0_pay69 (csA X2 X3 X4)) (k0_pay70 (ssA X2 X3 X4)) = row4 (lamW 28) (ne4W 28) (coefW 28) (sqN 28) X2 X3 X4 X5 := rfl
theorem ang29 : k0_pay72 X5 (fcA X2 X3 X4) (csA X2 X3 X4) (ssA X2 X3 X4) = row4 (lamW 29) (ne4W 29) (coefW 29) (sqN 29) X2 X3 X4 X5 := rfl
theorem ang30 : k0_pay76 X5 (fcA X2 X3 X4) (k0_pay73 (csA X2 X3 X4)) (k0_pay74 (ssA X2 X3 X4)) (k0_pay75 (F := Ideal)) = row4 (lamW 30) (ne4W 30) (coefW 30) (sqN 30) X2 X3 X4 X5 := rfl
theorem ang31 : k0_pay77 X5 (fcA X2 X3 X4) (csA X2 X3 X4) (ssA X2 X3 X4) = row4 (lamW 31) (ne4W 31) (coefW 31) (sqN 31) X2 X3 X4 X5 := rfl
theorem ang32 : k0_pay79 X5 (k0_pay78 (fcA X2 X3 X4) (csA X2 X3 X4) (ssA X2 X3 X4)) = row4 (lamW 32) (ne4W 32) (coefW 32) (sqN 32) X2 X3 X4 X5 := rfl
theorem ang33 : k0_pay80 X5 (fcA X2 X3 X4) (csA X2 X3 X4) (ssA X2 X3 X4) = row4 (lamW 33) (ne4W 33) (coefW 33) (sqN 33) X2 X3 X4 X5 := rfl
theorem ang34 : k0_pay82 (k0_pay81 X5 (fcA X2 X3 X4) (csA X2 X3 X4) (ssA X2 X3 X4)) = row4 (lamW 34) (ne4W 34) (coefW 34) (sqN 34) X2 X3 X4 X5 := rfl
theorem ang35 : k0_pay83 X5 (fcA X2 X3 X4) (csA X2 X3 X4) (ssA X2 X3 X4) = row4 (lamW 35) (ne4W 35) (coefW 35) (sqN 35) X2 X3 X4 X5 := rfl
theorem ang36 : k0_pay85 (k0_pay84 X5 (fcA X2 X3 X4) (csA X2 X3 X4) (ssA X2 X3 X4)) = row4 (lamW 36) (ne4W 36) (coefW 36) (sqN 36) X2 X3 X4 X5 := rfl
theorem ang37 : k0_pay86 X5 (fcA X2 X3 X4) (csA X2 X3 X4) (ssA X2 X3 X4) = row4 (lamW 37) (ne4W 37) (coefW 37) (sqN 37) X2 X3 X4 X5 := rfl
theorem ang38 : k0_pay87 X5 (fcA X2 X3 X4) (csA X2 X3 X4) (ssA X2 X3 X4) = row4 (lamW 38) (ne4W 38) (coefW 38) (sqN 38) X2 X3 X4 X5 := rfl
theorem ang39 : k0_pay89 X5 (fcA X2 X3 X4) (csA X2 X3 X4) (ssA X2 X3 X4) (k0_pay88 (F := Ideal)) = row4 (lamW 39) (ne4W 39) (coefW 39) (sqN 39) X2 X3 X4 X5 := rfl
theorem ang40 : k0_pay90 X5 (fcA X2 X3 X4) (csA X2 X3 X4) (ssA X2 X3 X4) = row4 (lamW 40) (ne4W 40) (coefW 40) (sqN 40) X2 X3 X4 X5 := rfl

set_option maxHeartbeats 1000000 in
/-- The 43 angular rows, stacked: the stack of the row functions over the feature index. -/
theorem angular_rows
    (h : Shape.Concatenates ((List.ofFn fun f : Fin 43 => (⟨S1x512, row4 (lamW f) (ne4W f) (coefW f) (sqN f) X2 X3 X4 X5⟩ : (s : Shape) × (s.Idx → Ideal .f32))).map (·.1)) S43x512 0) :
    k0_pay92 (F := Ideal) X5 (fcA X2 X3 X4) (csA X2 X3 X4) (ssA X2 X3 X4) (k0_pay21 X2 X3 X4 X5 (fcA X2 X3 X4) (k0_pay17 X2) (k0_pay18 X3)) (k0_pay23 X5 (fcA X2 X3 X4) (k0_pay22 X2 X3 X4 (k0_pay17 X2) (k0_pay18 X3))) (k0_pay24 X5 (fcA X2 X3 X4) (csA X2 X3 X4) (ssA X2 X3 X4)) (k0_pay26 (k0_pay25 X5 (fcA X2 X3 X4) (csA X2 X3 X4) (ssA X2 X3 X4))) (k0_pay27 X5 (fcA X2 X3 X4) (csA X2 X3 X4) (ssA X2 X3 X4)) (k0_pay29 (k0_pay28 X5 (fcA X2 X3 X4) (csA X2 X3 X4) (ssA X2 X3 X4))) (k0_pay30 X5 (fcA X2 X3 X4) (csA X2 X3 X4) (ssA X2 X3 X4)) (k0_pay31 X5 (fcA X2 X3 X4) (csA X2 X3 X4) (ssA X2 X3 X4)) (k0_pay32 X5 (fcA X2 X3 X4) (csA X2 X3 X4) (ssA X2 X3 X4) (Scalar.ofBits .f32 0xBF800000#32)) (k0_pay33 X5 (fcA X2 X3 X4) (csA X2 X3 X4) (ssA X2 X3 X4)) (k0_pay35 X5 (fcA X2 X3 X4) (ssA X2 X3 X4) (k0_pay34 (csA X2 X3 X4))) (k0_pay36 X5 (fcA X2 X3 X4) (csA X2 X3 X4) (ssA X2 X3 X4)) (k0_pay38 X5 (fcA X2 X3 X4) (ssA X2 X3 X4) (k0_pay37 (csA X2 X3 X4))) (k0_pay39 X5 (fcA X2 X3 X4) (csA X2 X3 X4) (ssA X2 X3 X4)) (k0_pay41 X5 (fcA X2 X3 X4) (ssA X2 X3 X4) (k0_pay40 (csA X2 X3 X4)) (Scalar.ofBits .f32 0x00000000#32)) (k0_pay42 X5 (fcA X2 X3 X4) (csA X2 X3 X4) (ssA X2 X3 X4)) (k0_pay45 X5 (fcA X2 X3 X4) (ssA X2 X3 X4) (k0_pay43 (csA X2 X3 X4)) (k0_pay44 (csA X2 X3 X4))) (k0_pay46 X5 (fcA X2 X3 X4) (csA X2 X3 X4) (ssA X2 X3 X4)) (k0_pay49 X5 (fcA X2 X3 X4) (ssA X2 X3 X4) (k0_pay47 (csA X2 X3 X4)) (k0_pay48 (csA X2 X3 X4))) (k0_pay50 X5 (fcA X2 X3 X4) (csA X2 X3 X4) (ssA X2 X3 X4)) (k0_pay54 X5 (fcA X2 X3 X4) (ssA X2 X3 X4) (k0_pay52 (csA X2 X3 X4)) (k0_pay53 (csA X2 X3 X4))) (k0_pay55 X5 (fcA X2 X3 X4) (csA X2 X3 X4) (ssA X2 X3 X4)) (k0_pay60 X5 (fcA X2 X3 X4) (ssA X2 X3 X4) (k0_pay58 (csA X2 X3 X4)) (k0_pay59 (csA X2 X3 X4))) (k0_pay61 X5 (fcA X2 X3 X4) (csA X2 X3 X4) (ssA X2 X3 X4)) (k0_pay63 X5 (fcA X2 X3 X4) (ssA X2 X3 X4) (k0_pay62 (csA X2 X3 X4))) (k0_pay64 X5 (fcA X2 X3 X4) (csA X2 X3 X4) (ssA X2 X3 X4)) (k0_pay67 X5 (fcA X2 X3 X4) (k0_pay65 (csA X2 X3 X4)) (k0_pay66 (ssA X2 X3 X4))) (k0_pay68 X5 (fcA X2 X3 X4) (csA X2 X3 X4) (ssA X2 X3 X4)) (k0_pay71 X5 (fcA X2 X3 X4) (k0_pay69 (csA X2 X3 X4)) (k0_pay70 (ssA X2 X3 X4))) (k0_pay72 X5 (fcA X2 X3 X4) (csA X2 X3 X4) (ssA X2 X3 X4)) (k0_pay76 X5 (fcA X2 X3 X4) (k0_pay73 (csA X2 X3 X4)) (k0_pay74 (ssA X2 X3 X4)) (k0_pay75 (F := Ideal))) (k0_pay77 X5 (fcA X2 X3 X4) (csA X2 X3 X4) (ssA X2 X3 X4)) (k0_pay79 X5 (k0_pay78 (fcA X2 X3 X4) (csA X2 X3 X4) (ssA X2 X3 X4))) (k0_pay80 X5 (fcA X2 X3 X4) (csA X2 X3 X4) (ssA X2 X3 X4)) (k0_pay82 (k0_pay81 X5 (fcA X2 X3 X4) (csA X2 X3 X4) (ssA X2 X3 X4))) (k0_pay83 X5 (fcA X2 X3 X4) (csA X2 X3 X4) (ssA X2 X3 X4)) (k0_pay85 (k0_pay84 X5 (fcA X2 X3 X4) (csA X2 X3 X4) (ssA X2 X3 X4))) (k0_pay86 X5 (fcA X2 X3 X4) (csA X2 X3 X4) (ssA X2 X3 X4)) (k0_pay87 X5 (fcA X2 X3 X4) (csA X2 X3 X4) (ssA X2 X3 X4)) (k0_pay89 X5 (fcA X2 X3 X4) (csA X2 X3 X4) (ssA X2 X3 X4) (k0_pay88 (F := Ideal))) (k0_pay90 X5 (fcA X2 X3 X4) (csA X2 X3 X4) (ssA X2 X3 X4)) (k0_pay91 (csA X2 X3 X4))
      = concatenate S43x512 0 (List.ofFn fun f : Fin 43 => (⟨S1x512, row4 (lamW f) (ne4W f) (coefW f) (sqN f) X2 X3 X4 X5⟩ : (s : Shape) × (s.Idx → Ideal .f32))) h := by
  rw [ang00, ang01, ang02, ang03, ang04, ang05, ang06, ang07, ang08, ang09, ang10, ang11, ang12, ang13, ang14, ang15, ang16, ang17, ang18, ang19, ang20, ang21, ang22, ang23, ang24, ang25, ang26, ang27, ang28, ang29, ang30, ang31, ang32, ang33, ang34, ang35, ang36, ang37, ang38, ang39, ang40]
  rfl

end Angular

section Radial
variable (x0 x1 : Vec Ideal S32x512 .f32)

set_option maxHeartbeats 1000000 in
/-- The 8 radial rows, stacked: the stack of the row functions over the feature index. -/
theorem radial_rows
    (h : Shape.Concatenates ((List.ofFn fun f : Fin 8 => (⟨S1x512, row2 (ne2W f) (k0_pay2 x0) (k0_pay3 x1)⟩ : (s : Shape) × (s.Idx → Ideal .f32))).map (·.1)) S8x512 0) :
    k0_pay10 (F := Ideal) (k0_pay3 x1) (k0_pay4 x0) (k0_pay5 x0) (k0_pay6 x0 x1) (k0_pay7 x0 x1) (k0_pay8 x0 x1) (k0_pay9 x0)
      = concatenate S8x512 0 (List.ofFn fun f : Fin 8 => (⟨S1x512, row2 (ne2W f) (k0_pay2 x0) (k0_pay3 x1)⟩ : (s : Shape) × (s.Idx → Ideal .f32))) h := rfl

end Radial

/-! ## The casts of a block to its own shape -/

theorem pay2_eq (v : Vec Ideal S32x512 .f32) : k0_pay2 (F := Ideal) v = v := shapeCast_self v _
theorem pay3_eq (v : Vec Ideal S32x512 .f32) : k0_pay3 (F := Ideal) v = v := shapeCast_self v _
theorem pay11_eq (v : Vec Ideal S496x512 .f32) : k0_pay11 (F := Ideal) v = v := shapeCast_self v _
theorem pay12_eq (v : Vec Ideal S496x512 .f32) : k0_pay12 (F := Ideal) v = v := shapeCast_self v _
theorem pay13_eq (v : Vec Ideal S496x512 .f32) : k0_pay13 (F := Ideal) v = v := shapeCast_self v _
theorem pay14_eq (v : Vec Ideal S496x512 .f32) : k0_pay14 (F := Ideal) v = v := shapeCast_self v _

/-! ## Reading a stack of rows at a row -/

/-- The block's two parts as the body stacks them, read in the radial part. -/
theorem block_radial (A : FVec Ideal S8x512 .f32) (B : FVec Ideal S43x512 .f32) (f : Fin 8) (l : Fin 512) :
    k0_pay1 (F := Ideal) A B (ix2 ⟨f.val, by omega⟩ l) = A (ix2 f l) := by
  unfold k0_pay1
  exact concatenate_pair_apply_left (t := S51x512) (s₁ := S8x512) (s₂ := S43x512) 0 A B
    concatenates_S8x512_S43x512_S51x512_d0 (ix2 ⟨f.val, by omega⟩ l) rfl (ix2 f l)
    (fun b => match b with | ⟨0, _⟩ => rfl | ⟨1, _⟩ => rfl)

/-- … and in the angular part, eight rows down. -/
theorem block_angular (A : FVec Ideal S8x512 .f32) (B : FVec Ideal S43x512 .f32) (f : Fin 43) (l : Fin 512) :
    k0_pay1 (F := Ideal) A B (ix2 ⟨8 + f.val, by omega⟩ l) = B (ix2 f l) := by
  unfold k0_pay1
  exact concatenate_pair_apply_right (t := S51x512) (s₁ := S8x512) (s₂ := S43x512) 0 A B
    concatenates_S8x512_S43x512_S51x512_d0 (ix2 ⟨8 + f.val, by omega⟩ l) rfl rfl (ix2 f l)
    (fun b hb => match b, hb with | ⟨0, _⟩, hb => absurd rfl hb | ⟨1, _⟩, _ => rfl)
    (by show f.val + 8 = 8 + f.val; omega)

/-- A stack of one-row pieces read at row `f`: piece `f` at its one row. -/
theorem stack_apply {N : Nat} (g : Fin N → FVec Ideal S1x512 .f32)
    (h : Shape.Concatenates ((List.ofFn fun n : Fin N => (⟨S1x512, g n⟩ : (s : Shape) × (s.Idx → Ideal .f32))).map (·.1)) ⟨2, ![N, 512]⟩ 0)
    (f : Fin N) (l : Fin 512) :
    concatenate ⟨2, ![N, 512]⟩ 0 (List.ofFn fun n : Fin N => (⟨S1x512, g n⟩ : (s : Shape) × (s.Idx → Ideal .f32))) h (ix2 f l)
      = g f (ix2 0 l) :=
  concatenate_ofFn_unit_apply (t := ⟨2, ![N, 512]⟩) (s₁ := S1x512) 0 g h rfl rfl (ix2 f l) f rfl (ix2 0 l)
    (fun b hb => match b, hb with | ⟨0, _⟩, hb => absurd rfl hb | ⟨1, _⟩, _ => rfl)

/-! ## The stored block's two parts, row by row -/

/-- Row `f` of the block whose radial part the body builds from the blocks `y0` (distances) and `y1` (mask). -/
theorem body_d2 (y0 y1 : Vec Ideal S32x512 .f32) (B : FVec Ideal S43x512 .f32) (f : Fin 8) (l : Fin 512) :
    k0_pay1 (F := Ideal) (k0_pay10 (F := Ideal) (k0_pay3 y1) (k0_pay4 y0) (k0_pay5 y0) (k0_pay6 y0 y1) (k0_pay7 y0 y1) (k0_pay8 y0 y1) (k0_pay9 y0)) B (ix2 ⟨f.val, by omega⟩ l)
      = ∑ k : Fin 32, g2K (w (ne2W f)) (y0 (ix2 k l)) (y1 (ix2 k l)) := by
  refine (block_radial _ B f l).trans ?_
  refine (congrFun (radial_rows y0 y1 concatenates_S1x512_S1x512_S1x512_S1x512_S1x512_S1x512_S1x512_S1x512_S8x512_d0) (ix2 f l)).trans ?_
  refine (stack_apply (N := 8) (fun f => row2 (ne2W f) (k0_pay2 y0) (k0_pay3 y1)) _ f l).trans ?_
  refine (row2_apply _ _ _ 0 l).trans ?_
  simp only [pay2_eq, pay3_eq]

/-- Row `8 + f` of the block whose angular part the body builds from the blocks `y2`, `y3` (the two distances),
    `y4` (the squared pair distance) and `y5` (the pair mask). -/
theorem body_d4 (A : FVec Ideal S8x512 .f32) (y2 y3 y4 y5 : Vec Ideal S496x512 .f32) (f : Fin 43) (l : Fin 512) :
    k0_pay1 (F := Ideal) A (k0_pay92 (F := Ideal) (k0_pay14 y5) (fcA (k0_pay11 y2) (k0_pay12 y3) (k0_pay13 y4)) (csA (k0_pay11 y2) (k0_pay12 y3) (k0_pay13 y4)) (ssA (k0_pay11 y2) (k0_pay12 y3) (k0_pay13 y4)) (k0_pay21 (k0_pay11 y2) (k0_pay12 y3) (k0_pay13 y4) (k0_pay14 y5) (fcA (k0_pay11 y2) (k0_pay12 y3) (k0_pay13 y4)) (k0_pay17 (k0_pay11 y2)) (k0_pay18 (k0_pay12 y3))) (k0_pay23 (k0_pay14 y5) (fcA (k0_pay11 y2) (k0_pay12 y3) (k0_pay13 y4)) (k0_pay22 (k0_pay11 y2) (k0_pay12 y3) (k0_pay13 y4) (k0_pay17 (k0_pay11 y2)) (k0_pay18 (k0_pay12 y3)))) (k0_pay24 (k0_pay14 y5) (fcA (k0_pay11 y2) (k0_pay12 y3) (k0_pay13 y4)) (csA (k0_pay11 y2) (k0_pay12 y3) (k0_pay13 y4)) (ssA (k0_pay11 y2) (k0_pay12 y3) (k0_pay13 y4))) (k0_pay26 (k0_pay25 (k0_pay14 y5) (fcA (k0_pay11 y2) (k0_pay12 y3) (k0_pay13 y4)) (csA (k0_pay11 y2) (k0_pay12 y3) (k0_pay13 y4)) (ssA (k0_pay11 y2) (k0_pay12 y3) (k0_pay13 y4)))) (k0_pay27 (k0_pay14 y5) (fcA (k0_pay11 y2) (k0_pay12 y3) (k0_pay13 y4)) (csA (k0_pay11 y2) (k0_pay12 y3) (k0_pay13 y4)) (ssA (k0_pay11 y2) (k0_pay12 y3) (k0_pay13 y4))) (k0_pay29 (k0_pay28 (k0_pay14 y5) (fcA (k0_pay11 y2) (k0_pay12 y3) (k0_pay13 y4)) (csA (k0_pay11 y2) (k0_pay12 y3) (k0_pay13 y4)) (ssA (k0_pay11 y2) (k0_pay12 y3) (k0_pay13 y4)))) (k0_pay30 (k0_pay14 y5) (fcA (k0_pay11 y2) (k0_pay12 y3) (k0_pay13 y4)) (csA (k0_pay11 y2) (k0_pay12 y3) (k0_pay13 y4)) (ssA (k0_pay11 y2) (k0_pay12 y3) (k0_pay13 y4))) (k0_pay31 (k0_pay14 y5) (fcA (k0_pay11 y2) (k0_pay12 y3) (k0_pay13 y4)) (csA (k0_pay11 y2) (k0_pay12 y3) (k0_pay13 y4)) (ssA (k0_pay11 y2) (k0_pay12 y3) (k0_pay13 y4))) (k0_pay32 (k0_pay14 y5) (fcA (k0_pay11 y2) (k0_pay12 y3) (k0_pay13 y4)) (csA (k0_pay11 y2) (k0_pay12 y3) (k0_pay13 y4)) (ssA (k0_pay11 y2) (k0_pay12 y3) (k0_pay13 y4)) (Scalar.ofBits .f32 0xBF800000#32)) (k0_pay33 (k0_pay14 y5) (fcA (k0_pay11 y2) (k0_pay12 y3) (k0_pay13 y4)) (csA (k0_pay11 y2) (k0_pay12 y3) (k0_pay13 y4)) (ssA (k0_pay11 y2) (k0_pay12 y3) (k0_pay13 y4))) (k0_pay35 (k0_pay14 y5) (fcA (k0_pay11 y2) (k0_pay12 y3) (k0_pay13 y4)) (ssA (k0_pay11 y2) (k0_pay12 y3) (k0_pay13 y4)) (k0_pay34 (csA (k0_pay11 y2) (k0_pay12 y3) (k0_pay13 y4)))) (k0_pay36 (k0_pay14 y5) (fcA (k0_pay11 y2) (k0_pay12 y3) (k0_pay13 y4)) (csA (k0_pay11 y2) (k0_pay12 y3) (k0_pay13 y4)) (ssA (k0_pay11 y2) (k0_pay12 y3) (k0_pay13 y4))) (k0_pay38 (k0_pay14 y5) (fcA (k0_pay11 y2) (k0_pay12 y3) (k0_pay13 y4)) (ssA (k0_pay11 y2) (k0_pay12 y3) (k0_pay13 y4)) (k0_pay37 (csA (k0_pay11 y2) (k0_pay12 y3) (k0_pay13 y4)))) (k0_pay39 (k0_pay14 y5) (fcA (k0_pay11 y2) (k0_pay12 y3) (k0_pay13 y4)) (csA (k0_pay11 y2) (k0_pay12 y3) (k0_pay13 y4)) (ssA (k0_pay11 y2) (k0_pay12 y3) (k0_pay13 y4))) (k0_pay41 (k0_pay14 y5) (fcA (k0_pay11 y2) (k0_pay12 y3) (k0_pay13 y4)) (ssA (k0_pay11 y2) (k0_pay12 y3) (k0_pay13 y4)) (k0_pay40 (csA (k0_pay11 y2) (k0_pay12 y3) (k0_pay13 y4))) (Scalar.ofBits .f32 0x00000000#32)) (k0_pay42 (k0_pay14 y5) (fcA (k0_pay11 y2) (k0_pay12 y3) (k0_pay13 y4)) (csA (k0_pay11 y2) (k0_pay12 y3) (k0_pay13 y4)) (ssA (k0_pay11 y2) (k0_pay12 y3) (k0_pay13 y4))) (k0_pay45 (k0_pay14 y5) (fcA (k0_pay11 y2) (k0_pay12 y3) (k0_pay13 y4)) (ssA (k0_pay11 y2) (k0_pay12 y3) (k0_pay13 y4)) (k0_pay43 (csA (k0_pay11 y2) (k0_pay12 y3) (k0_pay13 y4))) (k0_pay44 (csA (k0_pay11 y2) (k0_pay12 y3) (k0_pay13 y4)))) (k0_pay46 (k0_pay14 y5) (fcA (k0_pay11 y2) (k0_pay12 y3) (k0_pay13 y4)) (csA (k0_pay11 y2) (k0_pay12 y3) (k0_pay13 y4)) (ssA (k0_pay11 y2) (k0_pay12 y3) (k0_pay13 y4))) (k0_pay49 (k0_pay14 y5) (fcA (k0_pay11 y2) (k0_pay12 y3) (k0_pay13 y4)) (ssA (k0_pay11 y2) (k0_pay12 y3) (k0_pay13 y4)) (k0_pay47 (csA (k0_pay11 y2) (k0_pay12 y3) (k0_pay13 y4))) (k0_pay48 (csA (k0_pay11 y2) (k0_pay12 y3) (k0_pay13 y4)))) (k0_pay50 (k0_pay14 y5) (fcA (k0_pay11 y2) (k0_pay12 y3) (k0_pay13 y4)) (csA (k0_pay11 y2) (k0_pay12 y3) (k0_pay13 y4)) (ssA (k0_pay11 y2) (k0_pay12 y3) (k0_pay13 y4))) (k0_pay54 (k0_pay14 y5) (fcA (k0_pay11 y2) (k0_pay12 y3) (k0_pay13 y4)) (ssA (k0_pay11 y2) (k0_pay12 y3) (k0_pay13 y4)) (k0_pay52 (csA (k0_pay11 y2) (k0_pay12 y3) (k0_pay13 y4))) (k0_pay53 (csA (k0_pay11 y2) (k0_pay12 y3) (k0_pay13 y4)))) (k0_pay55 (k0_pay14 y5) (fcA (k0_pay11 y2) (k0_pay12 y3) (k0_pay13 y4)) (csA (k0_pay11 y2) (k0_pay12 y3) (k0_pay13 y4)) (ssA (k0_pay11 y2) (k0_pay12 y3) (k0_pay13 y4))) (k0_pay60 (k0_pay14 y5) (fcA (k0_pay11 y2) (k0_pay12 y3) (k0_pay13 y4)) (ssA (k0_pay11 y2) (k0_pay12 y3) (k0_pay13 y4)) (k0_pay58 (csA (k0_pay11 y2) (k0_pay12 y3) (k0_pay13 y4))) (k0_pay59 (csA (k0_pay11 y2) (k0_pay12 y3) (k0_pay13 y4)))) (k0_pay61 (k0_pay14 y5) (fcA (k0_pay11 y2) (k0_pay12 y3) (k0_pay13 y4)) (csA (k0_pay11 y2) (k0_pay12 y3) (k0_pay13 y4)) (ssA (k0_pay11 y2) (k0_pay12 y3) (k0_pay13 y4))) (k0_pay63 (k0_pay14 y5) (fcA (k0_pay11 y2) (k0_pay12 y3) (k0_pay13 y4)) (ssA (k0_pay11 y2) (k0_pay12 y3) (k0_pay13 y4)) (k0_pay62 (csA (k0_pay11 y2) (k0_pay12 y3) (k0_pay13 y4)))) (k0_pay64 (k0_pay14 y5) (fcA (k0_pay11 y2) (k0_pay12 y3) (k0_pay13 y4)) (csA (k0_pay11 y2) (k0_pay12 y3) (k0_pay13 y4)) (ssA (k0_pay11 y2) (k0_pay12 y3) (k0_pay13 y4))) (k0_pay67 (k0_pay14 y5) (fcA (k0_pay11 y2) (k0_pay12 y3) (k0_pay13 y4)) (k0_pay65 (csA (k0_pay11 y2) (k0_pay12 y3) (k0_pay13 y4))) (k0_pay66 (ssA (k0_pay11 y2) (k0_pay12 y3) (k0_pay13 y4)))) (k0_pay68 (k0_pay14 y5) (fcA (k0_pay11 y2) (k0_pay12 y3) (k0_pay13 y4)) (csA (k0_pay11 y2) (k0_pay12 y3) (k0_pay13 y4)) (ssA (k0_pay11 y2) (k0_pay12 y3) (k0_pay13 y4))) (k0_pay71 (k0_pay14 y5) (fcA (k0_pay11 y2) (k0_pay12 y3) (k0_pay13 y4)) (k0_pay69 (csA (k0_pay11 y2) (k0_pay12 y3) (k0_pay13 y4))) (k0_pay70 (ssA (k0_pay11 y2) (k0_pay12 y3) (k0_pay13 y4)))) (k0_pay72 (k0_pay14 y5) (fcA (k0_pay11 y2) (k0_pay12 y3) (k0_pay13 y4)) (csA (k0_pay11 y2) (k0_pay12 y3) (k0_pay13 y4)) (ssA (k0_pay11 y2) (k0_pay12 y3) (k0_pay13 y4))) (k0_pay76 (k0_pay14 y5) (fcA (k0_pay11 y2) (k0_pay12 y3) (k0_pay13 y4)) (k0_pay73 (csA (k0_pay11 y2) (k0_pay12 y3) (k0_pay13 y4))) (k0_pay74 (ssA (k0_pay11 y2) (k0_pay12 y3) (k0_pay13 y4))) (k0_pay75 (F := Ideal))) (k0_pay77 (k0_pay14 y5) (fcA (k0_pay11 y2) (k0_pay12 y3) (k0_pay13 y4)) (csA (k0_pay11 y2) (k0_pay12 y3) (k0_pay13 y4)) (ssA (k0_pay11 y2) (k0_pay12 y3) (k0_pay13 y4))) (k0_pay79 (k0_pay14 y5) (k0_pay78 (fcA (k0_pay11 y2) (k0_pay12 y3) (k0_pay13 y4)) (csA (k0_pay11 y2) (k0_pay12 y3) (k0_pay13 y4)) (ssA (k0_pay11 y2) (k0_pay12 y3) (k0_pay13 y4)))) (k0_pay80 (k0_pay14 y5) (fcA (k0_pay11 y2) (k0_pay12 y3) (k0_pay13 y4)) (csA (k0_pay11 y2) (k0_pay12 y3) (k0_pay13 y4)) (ssA (k0_pay11 y2) (k0_pay12 y3) (k0_pay13 y4))) (k0_pay82 (k0_pay81 (k0_pay14 y5) (fcA (k0_pay11 y2) (k0_pay12 y3) (k0_pay13 y4)) (csA (k0_pay11 y2) (k0_pay12 y3) (k0_pay13 y4)) (ssA (k0_pay11 y2) (k0_pay12 y3) (k0_pay13 y4)))) (k0_pay83 (k0_pay14 y5) (fcA (k0_pay11 y2) (k0_pay12 y3) (k0_pay13 y4)) (csA (k0_pay11 y2) (k0_pay12 y3) (k0_pay13 y4)) (ssA (k0_pay11 y2) (k0_pay12 y3) (k0_pay13 y4))) (k0_pay85 (k0_pay84 (k0_pay14 y5) (fcA (k0_pay11 y2) (k0_pay12 y3) (k0_pay13 y4)) (csA (k0_pay11 y2) (k0_pay12 y3) (k0_pay13 y4)) (ssA (k0_pay11 y2) (k0_pay12 y3) (k0_pay13 y4)))) (k0_pay86 (k0_pay14 y5) (fcA (k0_pay11 y2) (k0_pay12 y3) (k0_pay13 y4)) (csA (k0_pay11 y2) (k0_pay12 y3) (k0_pay13 y4)) (ssA (k0_pay11 y2) (k0_pay12 y3) (k0_pay13 y4))) (k0_pay87 (k0_pay14 y5) (fcA (k0_pay11 y2) (k0_pay12 y3) (k0_pay13 y4)) (csA (k0_pay11 y2) (k0_pay12 y3) (k0_pay13 y4)) (ssA (k0_pay11 y2) (k0_pay12 y3) (k0_pay13 y4))) (k0_pay89 (k0_pay14 y5) (fcA (k0_pay11 y2) (k0_pay12 y3) (k0_pay13 y4)) (csA (k0_pay11 y2) (k0_pay12 y3) (k0_pay13 y4)) (ssA (k0_pay11 y2) (k0_pay12 y3) (k0_pay13 y4)) (k0_pay88 (F := Ideal))) (k0_pay90 (k0_pay14 y5) (fcA (k0_pay11 y2) (k0_pay12 y3) (k0_pay13 y4)) (csA (k0_pay11 y2) (k0_pay12 y3) (k0_pay13 y4)) (ssA (k0_pay11 y2) (k0_pay12 y3) (k0_pay13 y4))) (k0_pay91 (csA (k0_pay11 y2) (k0_pay12 y3) (k0_pay13 y4)))) (ix2 ⟨8 + f.val, by omega⟩ l)
      = ∑ p : Fin 496, g4K (w (lamW f)) (w (ne4W f)) (w (coefW f)) (sqN f) (y2 (ix2 p l)) (y3 (ix2 p l)) (y4 (ix2 p l)) (y5 (ix2 p l)) := by
  refine (block_angular A _ f l).trans ?_
  refine (congrFun (angular_rows (k0_pay11 y2) (k0_pay12 y3) (k0_pay13 y4) (k0_pay14 y5)
    concatenates_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S43x512_d0) (ix2 f l)).trans ?_
  refine (stack_apply (N := 43) (fun f => row4 (lamW f) (ne4W f) (coefW f) (sqN f) (k0_pay11 y2) (k0_pay12 y3) (k0_pay13 y4) (k0_pay14 y5)) _ f l).trans ?_
  refine (row4_apply _ _ _ _ _ _ _ _ 0 l).trans ?_
  simp only [pay11_eq, pay12_eq, pay13_eq, pay14_eq]

/-- The store's rectangle starts at the origin. -/
theorem hz : (![0, 0] : Fin 2 → Nat) = fun _ => 0 := funext fun a => by fin_cases a <;> rfl

/-- Row `f` below 8 of the block the body leaves: the radial sum over the 32 slot rows. -/
theorem out_d2 (x0 x1 : Vec Ideal S32x512 .f32) (x2 x3 x4 x5 : Vec Ideal S496x512 .f32) (f : Fin 8) (l : Fin 512) :
    GenP.out0_6 (F := Ideal) x0 x1 x2 x3 x4 x5 (ix2 ⟨f.val, by omega⟩ l) = ∑ k : Fin 32, Cert.Spec.g2K (Cert.Spec.w (Cert.Spec.ne2W f)) (x0 (ix2 k l)) (x1 (ix2 k l)) := by
  unfold GenP.out0_6
  rw [View.canon_unit_zero hz]
  simp only [View.ld_unit_zero (S := S32x512) hz, View.ld_unit_zero (S := S496x512) hz]
  exact body_d2 x0 x1 _ f l

/-- Row `8 + f` of the block the body leaves: the angular sum over the 496 pair rows. -/
theorem out_d4 (x0 x1 : Vec Ideal S32x512 .f32) (x2 x3 x4 x5 : Vec Ideal S496x512 .f32) (f : Fin 43) (l : Fin 512) :
    GenP.out0_6 (F := Ideal) x0 x1 x2 x3 x4 x5 (ix2 ⟨8 + f.val, by omega⟩ l) = ∑ p : Fin 496, Cert.Spec.g4K (Cert.Spec.w (Cert.Spec.lamW f)) (Cert.Spec.w (Cert.Spec.ne4W f)) (Cert.Spec.w (Cert.Spec.coefW f)) (Cert.Spec.sqN f) (x2 (ix2 p l)) (x3 (ix2 p l)) (x4 (ix2 p l)) (x5 (ix2 p l)) := by
  unfold GenP.out0_6
  rw [View.canon_unit_zero hz]
  simp only [View.ld_unit_zero (S := S32x512) hz, View.ld_unit_zero (S := S496x512) hz]
  exact body_d4 _ x2 x3 x4 x5 f l

end Cert.KernelIdeal.Rows

end
-- ==== Proof.KerArr.lean ====
/-
  From the kernel body's blocks to the whole output array.

  The pipeline visits four grid points.  At point t every window's block is all the rows of its array and the
  512 atom columns 512 t … 512 t + 511; the body computes the 51 descriptor rows of those columns from the six
  input blocks, and the result is written back to the same columns of the [51, 2048] output array.  A descriptor
  at (row, column) reads column "column" of the inputs and nothing else, so the four written blocks are the
  restrictions of ONE function of the six whole input arrays (Spec.GK), and since the four column groups tile
  the 2048 columns the output array ends holding that function.
-/
import proofs.«167439_j40243843564182_1_alg».proof.Proof.FrameP
import proofs.«167439_j40243843564182_1_alg».proof.Proof.SpecArr
import proofs.«167439_j40243843564182_1_alg».proof.Proof.KerRows
import Idealize.ShloMosaic.Lib.Pipeline.Value

noncomputable section

namespace Cert.KernelIdeal.Arr

open Cert.KernelIdeal Cert.KernelIdeal.Gen Cert.KernelIdeal.GenP Idealize.ShloMosaic Idealize.ShloMosaic.TcCoe Idealize.SL.Sem Idealize.ShloMosaic.ValueIdx
open Idealize.ShloMosaic.Pipeline (Dat)
open Cert.Spec (GK g2K g4K w ne2W lamW ne4W coefW sqN)

/-! ## The whole-array function, row by row -/

/-- A radial row of the whole-array function: the sum over the 32 neighbour slots of column a. -/
theorem GK_radial {A : Nat} (X0 X1 : (⟨2, ![32, A]⟩ : Shape).Idx → Ideal .f32) (X2 X3 X4 X5 : (⟨2, ![496, A]⟩ : Shape).Idx → Ideal .f32)
    (f : Fin 8) (a : Fin A) :
    GK X0 X1 X2 X3 X4 X5 (ix2 (⟨f.val, by omega⟩ : Fin 51) a)
      = ∑ k : Fin 32, g2K (w (ne2W f)) (X0 (ix2 k a)) (X1 (ix2 k a)) := by
  have h : ((ix2 (⟨f.val, by omega⟩ : Fin 51) a : (⟨2, ![51, A]⟩ : Shape).Idx) 0).val < 8 := f.isLt
  unfold Cert.Spec.GK
  exact dif_pos h

/-- An angular row (row 8 + f) of the whole-array function: the sum over the 496 neighbour pairs of column a. -/
theorem GK_angular {A : Nat} (X0 X1 : (⟨2, ![32, A]⟩ : Shape).Idx → Ideal .f32) (X2 X3 X4 X5 : (⟨2, ![496, A]⟩ : Shape).Idx → Ideal .f32)
    (f : Fin 43) (a : Fin A) :
    GK X0 X1 X2 X3 X4 X5 (ix2 (⟨8 + f.val, by omega⟩ : Fin 51) a)
      = ∑ p : Fin 496, g4K (w (lamW f)) (w (ne4W f)) (w (coefW f)) (sqN f) (X2 (ix2 p a)) (X3 (ix2 p a)) (X4 (ix2 p a)) (X5 (ix2 p a)) := by
  have h : ¬ ((ix2 (⟨8 + f.val, by omega⟩ : Fin 51) a : (⟨2, ![51, A]⟩ : Shape).Idx) 0).val < 8 := by
    show ¬ (8 + f.val < 8); omega
  have key : ∀ g : Fin 43, g = f →
      (∑ p : Fin 496, g4K (w (lamW g)) (w (ne4W g)) (w (coefW g)) (sqN g) (X2 (ix2 p a)) (X3 (ix2 p a)) (X4 (ix2 p a)) (X5 (ix2 p a)))
        = ∑ p : Fin 496, g4K (w (lamW f)) (w (ne4W f)) (w (coefW f)) (sqN f) (X2 (ix2 p a)) (X3 (ix2 p a)) (X4 (ix2 p a)) (X5 (ix2 p a)) := by
    rintro g rfl; rfl
  unfold Cert.Spec.GK
  exact (dif_neg h).trans (key _ (Fin.ext (by show 8 + f.val - 8 = f.val; omega)))

/-! ## Splitting a row -/

/-- A row below 8 is a radial row. -/
theorem row_radial (r : Fin 51) (hr : r.val < 8) :
    ∃ f : Fin 8, r = ⟨f.val, Nat.lt_of_lt_of_le f.isLt (by decide)⟩ := ⟨⟨r.val, hr⟩, rfl⟩

/-- A row from 8 on is angular row r - 8. -/
theorem row_angular (r : Fin 51) (hr : ¬ r.val < 8) :
    ∃ f : Fin 43, r = ⟨8 + f.val, Nat.add_lt_add_left f.isLt 8⟩ :=
  ⟨⟨r.val - 8, by have := r.isLt; omega⟩, Fin.ext (by show r.val = 8 + (r.val - 8); omega)⟩

variable (m : (ℓ : Loc nD τ sig) → Buf (Elt Ideal) ℓ)

/-! ## Where a block sits -/

/-- At grid point t every window's block index is (0, t): all the rows, the t-th group of 512 atom columns. -/
theorem blockIndex : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val :=
  (by decide +kernel : ∀ t : Fin grid0.N, _)

/-- Lane l of point t's block is atom column 512 t + l, which is one of the 2048. -/
theorem column_lt (t : Fin cfg0.N) (l : Fin 512) : 512 * t.val + l.val < 2048 := by
  have ht : t.val < grid0.N := t.isLt
  have hN : grid0.N = 4 := N_0
  have hl := l.isLt
  omega

/-! ## Each input block, read off its array -/

/-- The distances' block at point t is columns 512 t … 512 t + 511 of its [slot, atom] array. -/
theorem slotBlock0 (c : Dev nD) (t : Fin cfg0.N) (k : Fin 32) (l : Fin 512) :
    (iblk m c 0 t : Vec Ideal S32x512 .f32) (ix2 k l)
      = (V m c main_v77 : Vec Ideal S32x2048 .f32) (ix2 k ⟨512 * t.val + l.val, column_lt t l⟩) := by
  obtain ⟨e0_0, e0_1, e1_0, e1_1, -⟩ := blockIndex t
  unfold iblk
  rw [View.read_apply]
  show V m c main_v77 _ = V m c main_v77 _
  refine congrArg (V m c main_v77) (funext fun a => Fin.ext ?_)
  match a with
  | ⟨0, _⟩ => show win0_0.index t (0 : Fin 2) * 32 + 1 * k.val = k.val; omega
  | ⟨1, _⟩ => show win0_0.index t (1 : Fin 2) * 512 + 1 * l.val = 512 * t.val + l.val; omega

/-- The neighbour mask's block at point t is columns 512 t … 512 t + 511 of its [slot, atom] array. -/
theorem slotBlock1 (c : Dev nD) (t : Fin cfg0.N) (k : Fin 32) (l : Fin 512) :
    (iblk m c 1 t : Vec Ideal S32x512 .f32) (ix2 k l)
      = (V m c main_v78 : Vec Ideal S32x2048 .f32) (ix2 k ⟨512 * t.val + l.val, column_lt t l⟩) := by
  obtain ⟨e0_0, e0_1, e1_0, e1_1, -⟩ := blockIndex t
  unfold iblk
  rw [View.read_apply]
  show V m c main_v78 _ = V m c main_v78 _
  refine congrArg (V m c main_v78) (funext fun a => Fin.ext ?_)
  match a with
  | ⟨0, _⟩ => show win0_1.index t (0 : Fin 2) * 32 + 1 * k.val = k.val; omega
  | ⟨1, _⟩ => show win0_1.index t (1 : Fin 2) * 512 + 1 * l.val = 512 * t.val + l.val; omega

/-- The first pair distance's block at point t is columns 512 t … 512 t + 511 of its [pair, atom] array. -/
theorem pairBlock2 (c : Dev nD) (t : Fin cfg0.N) (p : Fin 496) (l : Fin 512) :
    (iblk m c 2 t : Vec Ideal S496x512 .f32) (ix2 p l)
      = (V m c main_v79 : Vec Ideal S496x2048 .f32) (ix2 p ⟨512 * t.val + l.val, column_lt t l⟩) := by
  obtain ⟨-, -, -, -, e2_0, e2_1, e3_0, e3_1, e4_0, e4_1, e5_0, e5_1, -⟩ := blockIndex t
  unfold iblk
  rw [View.read_apply]
  show V m c main_v79 _ = V m c main_v79 _
  refine congrArg (V m c main_v79) (funext fun a => Fin.ext ?_)
  match a with
  | ⟨0, _⟩ => show win0_2.index t (0 : Fin 2) * 496 + 1 * p.val = p.val; omega
  | ⟨1, _⟩ => show win0_2.index t (1 : Fin 2) * 512 + 1 * l.val = 512 * t.val + l.val; omega

/-- The second pair distance's block at point t is columns 512 t … 512 t + 511 of its [pair, atom] array. -/
theorem pairBlock3 (c : Dev nD) (t : Fin cfg0.N) (p : Fin 496) (l : Fin 512) :
    (iblk m c 3 t : Vec Ideal S496x512 .f32) (ix2 p l)
      = (V m c main_v80 : Vec Ideal S496x2048 .f32) (ix2 p ⟨512 * t.val + l.val, column_lt t l⟩) := by
  obtain ⟨-, -, -, -, e2_0, e2_1, e3_0, e3_1, e4_0, e4_1, e5_0, e5_1, -⟩ := blockIndex t
  unfold iblk
  rw [View.read_apply]
  show V m c main_v80 _ = V m c main_v80 _
  refine congrArg (V m c main_v80) (funext fun a => Fin.ext ?_)
  match a with
  | ⟨0, _⟩ => show win0_3.index t (0 : Fin 2) * 496 + 1 * p.val = p.val; omega
  | ⟨1, _⟩ => show win0_3.index t (1 : Fin 2) * 512 + 1 * l.val = 512 * t.val + l.val; omega

/-- The squared pair separation's block at point t is columns 512 t … 512 t + 511 of its [pair, atom] array. -/
theorem pairBlock4 (c : Dev nD) (t : Fin cfg0.N) (p : Fin 496) (l : Fin 512) :
    (iblk m c 4 t : Vec Ideal S496x512 .f32) (ix2 p l)
      = (V m c main_v81 : Vec Ideal S496x2048 .f32) (ix2 p ⟨512 * t.val + l.val, column_lt t l⟩) := by
  obtain ⟨-, -, -, -, e2_0, e2_1, e3_0, e3_1, e4_0, e4_1, e5_0, e5_1, -⟩ := blockIndex t
  unfold iblk
  rw [View.read_apply]
  show V m c main_v81 _ = V m c main_v81 _
  refine congrArg (V m c main_v81) (funext fun a => Fin.ext ?_)
  match a with
  | ⟨0, _⟩ => show win0_4.index t (0 : Fin 2) * 496 + 1 * p.val = p.val; omega
  | ⟨1, _⟩ => show win0_4.index t (1 : Fin 2) * 512 + 1 * l.val = 512 * t.val + l.val; omega

/-- The pair mask's block at point t is columns 512 t … 512 t + 511 of its [pair, atom] array. -/
theorem pairBlock5 (c : Dev nD) (t : Fin cfg0.N) (p : Fin 496) (l : Fin 512) :
    (iblk m c 5 t : Vec Ideal S496x512 .f32) (ix2 p l)
      = (V m c main_v82 : Vec Ideal S496x2048 .f32) (ix2 p ⟨512 * t.val + l.val, column_lt t l⟩) := by
  obtain ⟨-, -, -, -, e2_0, e2_1, e3_0, e3_1, e4_0, e4_1, e5_0, e5_1, -⟩ := blockIndex t
  unfold iblk
  rw [View.read_apply]
  show V m c main_v82 _ = V m c main_v82 _
  refine congrArg (V m c main_v82) (funext fun a => Fin.ext ?_)
  match a with
  | ⟨0, _⟩ => show win0_5.index t (0 : Fin 2) * 496 + 1 * p.val = p.val; omega
  | ⟨1, _⟩ => show win0_5.index t (1 : Fin 2) * 512 + 1 * l.val = 512 * t.val + l.val; omega

/-! ## The output block, and what each point writes back -/

/-- Entry (r, l) of point t's output block sits at row r, column 512 t + l of the output array. -/
theorem outBlock_emb (t : Fin cfg0.N) (r : Fin 51) (l : Fin 512) :
    ((cfg0.win 6).blk t).view.emb (ix2 r l) = (ix2 r ⟨512 * t.val + l.val, column_lt t l⟩ : S51x2048.Idx) := by
  obtain ⟨-, -, -, -, -, -, -, -, -, -, -, -, e6_0, e6_1⟩ := blockIndex t
  funext a
  apply Fin.ext
  match a with
  | ⟨0, _⟩ => show win0_6.index t (0 : Fin 2) * 51 + 1 * r.val = r.val; omega
  | ⟨1, _⟩ => show win0_6.index t (1 : Fin 2) * 512 + 1 * l.val = 512 * t.val + l.val; omega

/-- WHAT POINT t WRITES BACK is block t of the whole-array function of the six input arrays as the region finds them:
    row by row the body's sum over the slots (or pairs) of lane l is the whole-array sum at column 512 t + l. -/
theorem flushed_eq (c : Dev nD) (t : Fin cfg0.N) :
    (dats m 0 c).flushed 6 t = ((cfg0.win 6).blk t).view.read (Elt Ideal)
      (GK (A := 2048) (V m c main_v77) (V m c main_v78) (V m c main_v79) (V m c main_v80) (V m c main_v81) (V m c main_v82)) := by
  show (cfg0.win 6).cut (grid0.coords t) ((dats m 0 c).after 6 t) = _
  rw [after0_6]
  funext j
  obtain ⟨r, l, rfl⟩ : ∃ (r : Fin 51) (l : Fin 512), j = ix2 r l := ⟨j 0, j 1, eq_ix2 j⟩
  show out0_6 (iblk m c 0 t) (iblk m c 1 t) (iblk m c 2 t) (iblk m c 3 t) (iblk m c 4 t) (iblk m c 5 t) (ix2 r l)
    = GK (A := 2048) (V m c main_v77) (V m c main_v78) (V m c main_v79) (V m c main_v80) (V m c main_v81) (V m c main_v82)
        (((cfg0.win 6).blk t).view.emb (ix2 r l))
  rw [outBlock_emb t r l]
  by_cases hr : r.val < 8
  · obtain ⟨f, rfl⟩ := row_radial r hr
    rw [GK_radial, Rows.out_d2 (iblk m c 0 t) (iblk m c 1 t) (iblk m c 2 t) (iblk m c 3 t) (iblk m c 4 t) (iblk m c 5 t) f l]
    exact Finset.sum_congr rfl fun k _ => by rw [slotBlock0 m c t k l, slotBlock1 m c t k l]
  · obtain ⟨f, rfl⟩ := row_angular r hr
    rw [GK_angular, Rows.out_d4 (iblk m c 0 t) (iblk m c 1 t) (iblk m c 2 t) (iblk m c 3 t) (iblk m c 4 t) (iblk m c 5 t) f l]
    exact Finset.sum_congr rfl fun p _ => by
      rw [pairBlock2 m c t p l, pairBlock3 m c t p l, pairBlock4 m c t p l, pairBlock5 m c t p l]

/-! ## The four blocks tile the array -/

/-- An index of the output array is in point t's block iff each coordinate is in the block's range on its axis. -/
theorem mem_outBlock (t : Fin cfg0.N) (i : S51x2048.Idx) :
    i ∈ ((cfg0.win 6).blk t).view.set
      ↔ ∀ a : Fin 2, win0_6.index t a * S51x512.size a ≤ (i a).val ∧ (i a).val < win0_6.index t a * S51x512.size a + S51x512.size a := by
  show i ∈ ((View.whole main_v83).slice (win0_6.rect t)).set ↔ _
  rw [View.set_slice_whole, Rect.mem_set_unit]
  exact Iff.rfl

/-- Column a of the output array is written by point a / 512, and every point writes back. -/
theorem covered (i : S51x2048.Idx) :
    ∃ t : Fin cfg0.N, (cfg0.win 6).flush t = true ∧ i ∈ ((cfg0.win 6).blk t).view.set := by
  have hi0 : (i 0).val < 51 := (i 0).isLt
  have hi1 : (i 1).val < 2048 := (i 1).isLt
  have hN : grid0.N = 4 := N_0
  obtain ⟨t, ht⟩ : ∃ t : Fin cfg0.N, t.val = (i 1).val / 512 :=
    ⟨⟨(i 1).val / 512, by show (i 1).val / 512 < grid0.N; omega⟩, rfl⟩
  obtain ⟨-, -, -, -, -, -, -, -, -, -, -, -, e6_0, e6_1⟩ := blockIndex t
  refine ⟨t, flush0_6 t, ?_⟩
  rw [mem_outBlock]
  intro a
  match a with
  | ⟨0, _⟩ => show win0_6.index t (0 : Fin 2) * 51 ≤ (i 0).val ∧ (i 0).val < win0_6.index t (0 : Fin 2) * 51 + 51; omega
  | ⟨1, _⟩ => show win0_6.index t (1 : Fin 2) * 512 ≤ (i 1).val ∧ (i 1).val < win0_6.index t (1 : Fin 2) * 512 + 512; omega

/-! ## The array after the run -/

/-- THE OUTPUT ARRAY after the run is the whole-array function of the six input arrays as the region finds them. -/
theorem final (c : Dev nD) :
    (dats m 0 c).arrAt 6 cfg0.N
      = GK (A := 2048) (V m c main_v77) (V m c main_v78) (V m c main_v79) (V m c main_v80) (V m c main_v81) (V m c main_v82) :=
  (dats m 0 c).arrAt_eq_of_cover 6
    (GK (A := 2048) (V m c main_v77) (V m c main_v78) (V m c main_v79) (V m c main_v80) (V m c main_v81) (V m c main_v82))
    (fun t _ => flushed_eq m c t) covered

end Cert.KernelIdeal.Arr

end
-- ==== Proof.KerRun.lean ====
/-
  The kernel program's run with its result named.  After the run the result buffer holds the pipeline's
  [51, 2048] output array with its first 2000 atom columns transposed to [2000, 51]; that array is the kernel's
  whole-array function of the six window arrays, and those are the shared per-neighbour and per-pair arrays
  padded and transposed: so the result is `outK` of the shared arrays, entry by entry.
-/
import proofs.«167439_j40243843564182_1_alg».proof.Proof.FrameP
import proofs.«167439_j40243843564182_1_alg».proof.Proof.SpecArr
import proofs.«167439_j40243843564182_1_alg».proof.Proof.Stages
import proofs.«167439_j40243843564182_1_alg».proof.Proof.KerHost
import proofs.«167439_j40243843564182_1_alg».proof.Proof.KerArr

noncomputable section

namespace Cert.KernelIdeal.KerRun

open Cert.KernelIdeal Cert.KernelIdeal.Gen Idealize.ShloMosaic Idealize.ShloMosaic.TcCoe Idealize.SL.Sem Idealize.ShloMosaic.ValueIdx
open Cert.KernelIdeal.Host

variable (m : (ℓ : Loc nD τ sig) → Buf (Elt Ideal) ℓ) (ρ : Dev nD → PrngReg)

/-- The result of the kernel program over the shared arrays of core `c`'s arguments. -/
abbrev result (c : Dev nD) : (⟨2, ![2000, 51]⟩ : Shape).Idx → Ideal .f32 :=
  Cert.Spec.outK (Cert.Stages.r (A0 m c) (A2 m c)) (Cert.Stages.maskj (A0 m c) (A1 m c) (A2 m c))
    (Cert.Stages.alongF lit0 (Cert.Stages.r (A0 m c) (A2 m c))) (Cert.Stages.alongF lit1 (Cert.Stages.r (A0 m c) (A2 m c)))
    (Cert.Stages.rjk2 lit0 lit1 (A0 m c) (A2 m c)) (Cert.Stages.triK lit0 lit1 (A0 m c) (A1 m c) (A2 m c))

/-- The kernel's whole-array function of the window arrays, read at feature `f` and atom column `a < 2000`, is the
    program's result at atom `a` and feature `f`: each window array at a column below 2000 is the shared array's row. -/
theorem GK_entry (c : Dev nD) (a : Fin 2000) (f : Fin 51) :
    Cert.Spec.GK (A := 2048) (hostV m c main_v77) (hostV m c main_v78) (hostV m c main_v79) (hostV m c main_v80) (hostV m c main_v81) (hostV m c main_v82)
        (ix2 f (⟨a.val, by omega⟩ : Fin 2048)) = result m c (ix2 a f) := by
  unfold result Cert.Spec.GK Cert.Spec.outK
  split
  · rename_i h1
    refine Finset.sum_congr rfl fun k _ => ?_
    exact congrArg₂ (Cert.Spec.g2K (Cert.Spec.w (Cert.Spec.ne2W ⟨f.val, h1⟩))) (win0_at m c k a) (win1_at m c k a)
  · rename_i h1
    refine Finset.sum_congr rfl fun p _ => ?_
    have e2 := win2_at m c p a
    have e3 := win3_at m c p a
    have e4 := win4_at m c p a
    have e5 := win5_at m c p a
    show Cert.Spec.g4K _ _ _ _ (hostV m c main_v79 (ix2 p (⟨a.val, by omega⟩ : Fin 2048))) (hostV m c main_v80 (ix2 p (⟨a.val, by omega⟩ : Fin 2048)))
        (hostV m c main_v81 (ix2 p (⟨a.val, by omega⟩ : Fin 2048))) (hostV m c main_v82 (ix2 p (⟨a.val, by omega⟩ : Fin 2048))) = _
    rw [e2, e3, e4, e5]

/-- What the two host operations after the region leave in the result buffer, at atom `a` and feature `f`. -/
theorem tail_entry (c : Dev nD) (a : Fin 2000) (f : Fin 51) :
    Pipeline.afterTail₀ cfgs (GenP.dats m) 0 (GenP.V0 m) [hostOps1] c main_v85 (ix2 a f) = result m c (ix2 a f) := by
  refine (tail_at m c (GenP.dats m) a f).trans ?_
  rw [Cert.KernelIdeal.Arr.final m c]
  exact GK_entry m c a f

/-- Every weakly fair execution of the kernel program terminates with the result buffer at `outK` of the shared
    arrays and the arguments unchanged. -/
theorem run : θ_run defs (onTc (τ := τ) (main (F := Ideal))) ⟨m, fun _ => 0, ρ⟩ (fun r => ∀ c : Dev nD,
      r.2.mem ((c.tc : Thread nD τ).loc main_v85) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v85 (Pipeline.mem_restRefs_of main_v85 (by decide) (by decide))).trans (by
        funext j
        obtain ⟨a, f, rfl⟩ : ∃ (a : Fin 2000) (f : Fin 51), j = ix2 a f := ⟨j 0, j 1, eq_ix2 j⟩
        exact tail_entry m c a f),
      (((h c).2 main_arg0 (Pipeline.mem_restRefs_of main_arg0 (by decide) (by decide))).trans (GenP.W_main_arg0 m (GenP.dats m) c)),
      (((h c).2 main_arg1 (Pipeline.mem_restRefs_of main_arg1 (by decide) (by decide))).trans (GenP.W_main_arg1 m (GenP.dats m) c)),
      (((h c).2 main_arg2 (Pipeline.mem_restRefs_of main_arg2 (by decide) (by decide))).trans (GenP.W_main_arg2 m (GenP.dats m) c))⟩)
    (GenP.run_main m ρ)

end Cert.KernelIdeal.KerRun

end
-- ==== Proof.RefRun.lean ====
/-
  The reference program's @main read as one straight line of host operations, and what its run leaves in
  every buffer.  The printed @main is 251 statements in five windows; seven of them are calls of the three
  outlined `where` functions (a scalar converted to its own type, broadcast to the operand's shape, then a
  select), whose three operations are listed here in place of the call, over the buffers the call's record
  names.  `ops` is the concatenation of the five windows' lists; `main_eq` says @main is exactly that line;
  `run_after` says every execution ends with each buffer at the fold of the operations' results over the
  launch contents; and no operation writes an argument.
-/
import proofs.«167439_j40243843564182_1_alg».proof.Proof.Gen.ReferenceIdeal
import Idealize.ShloMosaic.Lib.StableHlo.Run
import Idealize.ShloMosaic.Lib.Pipeline.Regions
import Idealize.ShloMosaic.PureOps.Ideal

noncomputable section

namespace Cert.ReferenceIdeal.Run

open Cert.ReferenceIdeal Cert.ReferenceIdeal.Gen Idealize.ShloMosaic Idealize.ShloMosaic.TcCoe Idealize.SL.Sem Idealize.ShloMosaic.StableHlo

set_option maxHeartbeats 40000000 in
/-- Statements 1 … 60: the constant tables; the neighbour list reshaped to [atom, slot] with negative indices wrapped; the slot-validity mask; the displacement vectors, their squared lengths and lengths; the in-range mask; and the radial cutoff's cosine plus one, up to the constant one half. -/
abbrev ops0 : List (HloOp τ sig (Elt Ideal)) :=
  ( nullary main_cst (constant (F := Ideal) S8 .f32 0x00000000#32)
  :: unary main_cst main_v0 (broadcastInDim S1x1x8 ![2] bcast_S8_S1x1x8_2 : (⟨S8, .f32⟩ : BufTy).Contents (Elt Ideal) → (⟨S1x1x8, .f32⟩ : BufTy).Contents (Elt Ideal))
  :: nullary main_cst_0 (fun i => FloatOps.ofBits (F := Ideal) .f32 (lit0 (S1x1x8.rowMajor i)))
  :: nullary main_c (fun i => lit1 (S496.rowMajor i))
  :: nullary main_c_1 (constantI S496 1 0#1)
  :: nullary main_c_2 (fun i => lit2 (S496.rowMajor i))
  :: nullary main_c_3 (constantI S496 1 0#1)
  :: nullary main_c_4 (constantI S496 1 0#1)
  :: nullary main_c_5 (constantI S496 1 0#1)
  :: nullary main_c_6 (constantI S496 1 0#1)
  :: nullary main_c_7 (constantI S496 1 0#1)
  :: nullary main_c_8 (constantI S496 1 0#1)
  :: nullary main_cst_9 (fun i => FloatOps.ofBits (F := Ideal) .f32 (lit3 (S43.rowMajor i)))
  :: unary main_cst_9 main_v1 (broadcastInDim S1x1x43 ![2] bcast_S43_S1x1x43_2 : (⟨S43, .f32⟩ : BufTy).Contents (Elt Ideal) → (⟨S1x1x43, .f32⟩ : BufTy).Contents (Elt Ideal))
  :: nullary main_cst_10 (fun i => FloatOps.ofBits (F := Ideal) .f32 (lit4 (S43.rowMajor i)))
  :: unary main_cst_10 main_v2 (broadcastInDim S1x1x43 ![2] bcast_S43_S1x1x43_2 : (⟨S43, .f32⟩ : BufTy).Contents (Elt Ideal) → (⟨S1x1x43, .f32⟩ : BufTy).Contents (Elt Ideal))
  :: nullary main_cst_11 (fun i => FloatOps.ofBits (F := Ideal) .f32 (lit5 (S1x1x43.rowMajor i)))
  :: nullary main_cst_12 (fun i => FloatOps.ofBits (F := Ideal) .f32 (lit6 (S43.rowMajor i)))
  :: unary main_cst_12 main_v3 (broadcastInDim S1x1x43 ![2] bcast_S43_S1x1x43_2 : (⟨S43, .f32⟩ : BufTy).Contents (Elt Ideal) → (⟨S1x1x43, .f32⟩ : BufTy).Contents (Elt Ideal))
  :: reshape main_arg2 main_v4 rfl shapeCasts_S64000_S2000x32
  :: nullary main_v5 (iotaInDim S32 32 0)
  :: unary main_v5 main_v6 (broadcastInDim S1x32 ![1] bcast_S32_S1x32_1 : (⟨S32, .i32⟩ : BufTy).Contents (Elt Ideal) → (⟨S1x32, .i32⟩ : BufTy).Contents (Elt Ideal))
  :: unary main_arg1 main_v7 (broadcastInDim S2000x1 ![0] bcast_S2000_S2000x1_0 : (⟨S2000, .i32⟩ : BufTy).Contents (Elt Ideal) → (⟨S2000x1, .i32⟩ : BufTy).Contents (Elt Ideal))
  :: unary main_v6 main_v8 (broadcastInDim S2000x32 ![0, 1] bcast_S1x32_S2000x32_0_1 : (⟨S1x32, .i32⟩ : BufTy).Contents (Elt Ideal) → (⟨S2000x32, .i32⟩ : BufTy).Contents (Elt Ideal))
  :: unary main_v7 main_v9 (broadcastInDim S2000x32 ![0, 1] bcast_S2000x1_S2000x32_0_1 : (⟨S2000x1, .i32⟩ : BufTy).Contents (Elt Ideal) → (⟨S2000x32, .i32⟩ : BufTy).Contents (Elt Ideal))
  :: binary main_v8 main_v9 main_v10 (cmpi .slt : (⟨S2000x32, .i32⟩ : BufTy).Contents (Elt Ideal) → (⟨S2000x32, .i32⟩ : BufTy).Contents (Elt Ideal) → (⟨S2000x32, .i1⟩ : BufTy).Contents (Elt Ideal))
  :: nullary main_c_13 (constantI S_ 32 0#32)
  :: unary main_c_13 main_v11 (broadcastInDim S2000x32 ![] bcast_S_S2000x32 : (⟨S_, .i32⟩ : BufTy).Contents (Elt Ideal) → (⟨S2000x32, .i32⟩ : BufTy).Contents (Elt Ideal))
  :: binary main_v4 main_v11 main_v12 (cmpi .slt : (⟨S2000x32, .i32⟩ : BufTy).Contents (Elt Ideal) → (⟨S2000x32, .i32⟩ : BufTy).Contents (Elt Ideal) → (⟨S2000x32, .i1⟩ : BufTy).Contents (Elt Ideal))
  :: nullary main_c_14 (constantI S_ 32 2000#32)
  :: unary main_c_14 main_v13 (broadcastInDim S2000x32 ![] bcast_S_S2000x32 : (⟨S_, .i32⟩ : BufTy).Contents (Elt Ideal) → (⟨S2000x32, .i32⟩ : BufTy).Contents (Elt Ideal))
  :: binary main_v4 main_v13 main_v14 (addi : (⟨S2000x32, .i32⟩ : BufTy).Contents (Elt Ideal) → (⟨S2000x32, .i32⟩ : BufTy).Contents (Elt Ideal) → (⟨S2000x32, .i32⟩ : BufTy).Contents (Elt Ideal))
  :: ternary main_v12 main_v14 main_v4 main_v15 (select : (⟨S2000x32, .i1⟩ : BufTy).Contents (Elt Ideal) → (⟨S2000x32, .i32⟩ : BufTy).Contents (Elt Ideal) → (⟨S2000x32, .i32⟩ : BufTy).Contents (Elt Ideal) → (⟨S2000x32, .i32⟩ : BufTy).Contents (Elt Ideal))
  :: unary main_v15 main_v16 (broadcastInDim S2000x32x1 ![0, 1] bcast_S2000x32_S2000x32x1_0_1 : (⟨S2000x32, .i32⟩ : BufTy).Contents (Elt Ideal) → (⟨S2000x32x1, .i32⟩ : BufTy).Contents (Elt Ideal))
  :: binary main_arg0 main_v16 main_v17 ((fun x i => Host.gather gather_S2000x3_S2000x32x1_S2000x32x3_2_0_n_n_0_2_13 x i) : (⟨S2000x3, .f32⟩ : BufTy).Contents (Elt Ideal) → (⟨S2000x32x1, .i32⟩ : BufTy).Contents (Elt Ideal) → (⟨S2000x32x3, .f32⟩ : BufTy).Contents (Elt Ideal))
  :: unary main_arg0 main_v18 (broadcastInDim S2000x1x3 ![0, 2] bcast_S2000x3_S2000x1x3_0_2 : (⟨S2000x3, .f32⟩ : BufTy).Contents (Elt Ideal) → (⟨S2000x1x3, .f32⟩ : BufTy).Contents (Elt Ideal))
  :: unary main_v18 main_v19 (broadcastInDim S2000x32x3 ![0, 1, 2] bcast_S2000x1x3_S2000x32x3_0_1_2 : (⟨S2000x1x3, .f32⟩ : BufTy).Contents (Elt Ideal) → (⟨S2000x32x3, .f32⟩ : BufTy).Contents (Elt Ideal))
  :: binary main_v17 main_v19 main_v20 (subf (F := Ideal) (φ := .f32) : (⟨S2000x32x3, .f32⟩ : BufTy).Contents (Elt Ideal) → (⟨S2000x32x3, .f32⟩ : BufTy).Contents (Elt Ideal) → (⟨S2000x32x3, .f32⟩ : BufTy).Contents (Elt Ideal))
  :: binary main_v20 main_v20 main_v21 (mulf (F := Ideal) (φ := .f32) : (⟨S2000x32x3, .f32⟩ : BufTy).Contents (Elt Ideal) → (⟨S2000x32x3, .f32⟩ : BufTy).Contents (Elt Ideal) → (⟨S2000x32x3, .f32⟩ : BufTy).Contents (Elt Ideal))
  :: nullary main_cst_15 (constant (F := Ideal) S_ .f32 0x00000000#32)
  :: binary main_v21 main_cst_15 main_v22 ((fun x v => Host.reduceAdd (F := Ideal) (φ := .f32) x v reducesTo_S2000x32x3_S2000x32_d2 h_S_) : (⟨S2000x32x3, .f32⟩ : BufTy).Contents (Elt Ideal) → (⟨S_, .f32⟩ : BufTy).Contents (Elt Ideal) → (⟨S2000x32, .f32⟩ : BufTy).Contents (Elt Ideal))
  :: unary main_v22 main_v23 (Host.sqrt (F := Ideal) (φ := .f32) : (⟨S2000x32, .f32⟩ : BufTy).Contents (Elt Ideal) → (⟨S2000x32, .f32⟩ : BufTy).Contents (Elt Ideal))
  :: nullary main_cst_16 (constant (F := Ideal) S_ .f32 0x42800000#32)
  :: unary main_cst_16 main_v24 (broadcastInDim S2000x32 ![] bcast_S_S2000x32 : (⟨S_, .f32⟩ : BufTy).Contents (Elt Ideal) → (⟨S2000x32, .f32⟩ : BufTy).Contents (Elt Ideal))
  :: binary main_v22 main_v24 main_v25 (cmpf (F := Ideal) (φ := .f32) .ole : (⟨S2000x32, .f32⟩ : BufTy).Contents (Elt Ideal) → (⟨S2000x32, .f32⟩ : BufTy).Contents (Elt Ideal) → (⟨S2000x32, .i1⟩ : BufTy).Contents (Elt Ideal))
  :: binary main_v10 main_v25 main_v26 (andi : (⟨S2000x32, .i1⟩ : BufTy).Contents (Elt Ideal) → (⟨S2000x32, .i1⟩ : BufTy).Contents (Elt Ideal) → (⟨S2000x32, .i1⟩ : BufTy).Contents (Elt Ideal))
  :: nullary main_cst_17 (constant (F := Ideal) S_ .f32 0x41000000#32)
  :: unary main_cst_17 main_v27 (broadcastInDim S2000x32 ![] bcast_S_S2000x32 : (⟨S_, .f32⟩ : BufTy).Contents (Elt Ideal) → (⟨S2000x32, .f32⟩ : BufTy).Contents (Elt Ideal))
  :: binary main_v23 main_v27 main_v28 (cmpf (F := Ideal) (φ := .f32) .olt : (⟨S2000x32, .f32⟩ : BufTy).Contents (Elt Ideal) → (⟨S2000x32, .f32⟩ : BufTy).Contents (Elt Ideal) → (⟨S2000x32, .i1⟩ : BufTy).Contents (Elt Ideal))
  :: nullary main_cst_18 (constant (F := Ideal) S_ .f32 0x40490FDB#32)
  :: unary main_cst_18 main_v29 (broadcastInDim S2000x32 ![] bcast_S_S2000x32 : (⟨S_, .f32⟩ : BufTy).Contents (Elt Ideal) → (⟨S2000x32, .f32⟩ : BufTy).Contents (Elt Ideal))
  :: binary main_v29 main_v23 main_v30 (mulf (F := Ideal) (φ := .f32) : (⟨S2000x32, .f32⟩ : BufTy).Contents (Elt Ideal) → (⟨S2000x32, .f32⟩ : BufTy).Contents (Elt Ideal) → (⟨S2000x32, .f32⟩ : BufTy).Contents (Elt Ideal))
  :: nullary main_cst_19 (constant (F := Ideal) S_ .f32 0x41000000#32)
  :: unary main_cst_19 main_v31 (broadcastInDim S2000x32 ![] bcast_S_S2000x32 : (⟨S_, .f32⟩ : BufTy).Contents (Elt Ideal) → (⟨S2000x32, .f32⟩ : BufTy).Contents (Elt Ideal))
  :: binary main_v30 main_v31 main_v32 (Host.divf (F := Ideal) (φ := .f32) : (⟨S2000x32, .f32⟩ : BufTy).Contents (Elt Ideal) → (⟨S2000x32, .f32⟩ : BufTy).Contents (Elt Ideal) → (⟨S2000x32, .f32⟩ : BufTy).Contents (Elt Ideal))
  :: unary main_v32 main_v33 (Host.cos (F := Ideal) (φ := .f32) : (⟨S2000x32, .f32⟩ : BufTy).Contents (Elt Ideal) → (⟨S2000x32, .f32⟩ : BufTy).Contents (Elt Ideal))
  :: nullary main_cst_20 (constant (F := Ideal) S_ .f32 0x3F800000#32)
  :: unary main_cst_20 main_v34 (broadcastInDim S2000x32 ![] bcast_S_S2000x32 : (⟨S_, .f32⟩ : BufTy).Contents (Elt Ideal) → (⟨S2000x32, .f32⟩ : BufTy).Contents (Elt Ideal))
  :: binary main_v33 main_v34 main_v35 (addf (F := Ideal) (φ := .f32) : (⟨S2000x32, .f32⟩ : BufTy).Contents (Elt Ideal) → (⟨S2000x32, .f32⟩ : BufTy).Contents (Elt Ideal) → (⟨S2000x32, .f32⟩ : BufTy).Contents (Elt Ideal))
  :: nullary main_cst_21 (constant (F := Ideal) S_ .f32 0x3F000000#32)
  :: [] )

set_option maxHeartbeats 40000000 in
/-- Statements 61 … 120: the radial cutoff, selected inside its radius (the first `where`); the eight Gaussian radial terms, masked and summed over slots; the distances and displacements gathered along both pair index tables; the squared pair distance and its square root, guarded by two `where`s. -/
abbrev ops1 : List (HloOp τ sig (Elt Ideal)) :=
  ( unary main_cst_21 main_v36 (broadcastInDim S2000x32 ![] bcast_S_S2000x32 : (⟨S_, .f32⟩ : BufTy).Contents (Elt Ideal) → (⟨S2000x32, .f32⟩ : BufTy).Contents (Elt Ideal))
  :: binary main_v36 main_v35 main_v37 (mulf (F := Ideal) (φ := .f32) : (⟨S2000x32, .f32⟩ : BufTy).Contents (Elt Ideal) → (⟨S2000x32, .f32⟩ : BufTy).Contents (Elt Ideal) → (⟨S2000x32, .f32⟩ : BufTy).Contents (Elt Ideal))
  :: nullary main_cst_22 (constant (F := Ideal) S_ .f32 0x00000000#32)
  :: TRef.unary (.of main_cst_22 : TRef sig ⟨S_, .f32⟩) main_call0.v0 id
  :: TRef.unary main_call0.v0 main_call0.v1 (broadcastInDim S2000x32 ![] bcast_S_S2000x32)
  :: TRef.ternary (.of main_v28 : TRef sig ⟨S2000x32, .i1⟩) (.of main_v37 : TRef sig ⟨S2000x32, .f32⟩) main_call0.v1 main_call0.v2 select
  :: unary main_v23 main_v39 (broadcastInDim S2000x32x1 ![0, 1] bcast_S2000x32_S2000x32x1_0_1 : (⟨S2000x32, .f32⟩ : BufTy).Contents (Elt Ideal) → (⟨S2000x32x1, .f32⟩ : BufTy).Contents (Elt Ideal))
  :: unary main_v39 main_v40 (broadcastInDim S2000x32x8 ![0, 1, 2] bcast_S2000x32x1_S2000x32x8_0_1_2 : (⟨S2000x32x1, .f32⟩ : BufTy).Contents (Elt Ideal) → (⟨S2000x32x8, .f32⟩ : BufTy).Contents (Elt Ideal))
  :: unary main_v0 main_v41 (broadcastInDim S2000x32x8 ![0, 1, 2] bcast_S1x1x8_S2000x32x8_0_1_2 : (⟨S1x1x8, .f32⟩ : BufTy).Contents (Elt Ideal) → (⟨S2000x32x8, .f32⟩ : BufTy).Contents (Elt Ideal))
  :: binary main_v40 main_v41 main_v42 (subf (F := Ideal) (φ := .f32) : (⟨S2000x32x8, .f32⟩ : BufTy).Contents (Elt Ideal) → (⟨S2000x32x8, .f32⟩ : BufTy).Contents (Elt Ideal) → (⟨S2000x32x8, .f32⟩ : BufTy).Contents (Elt Ideal))
  :: binary main_v42 main_v42 main_v43 (mulf (F := Ideal) (φ := .f32) : (⟨S2000x32x8, .f32⟩ : BufTy).Contents (Elt Ideal) → (⟨S2000x32x8, .f32⟩ : BufTy).Contents (Elt Ideal) → (⟨S2000x32x8, .f32⟩ : BufTy).Contents (Elt Ideal))
  :: unary main_cst_0 main_v44 (broadcastInDim S2000x32x8 ![0, 1, 2] bcast_S1x1x8_S2000x32x8_0_1_2 : (⟨S1x1x8, .f32⟩ : BufTy).Contents (Elt Ideal) → (⟨S2000x32x8, .f32⟩ : BufTy).Contents (Elt Ideal))
  :: binary main_v44 main_v43 main_v45 (mulf (F := Ideal) (φ := .f32) : (⟨S2000x32x8, .f32⟩ : BufTy).Contents (Elt Ideal) → (⟨S2000x32x8, .f32⟩ : BufTy).Contents (Elt Ideal) → (⟨S2000x32x8, .f32⟩ : BufTy).Contents (Elt Ideal))
  :: unary main_v45 main_v46 (Host.exp (F := Ideal) (φ := .f32) : (⟨S2000x32x8, .f32⟩ : BufTy).Contents (Elt Ideal) → (⟨S2000x32x8, .f32⟩ : BufTy).Contents (Elt Ideal))
  :: unary main_v38 main_v47 (broadcastInDim S2000x32x1 ![0, 1] bcast_S2000x32_S2000x32x1_0_1 : (⟨S2000x32, .f32⟩ : BufTy).Contents (Elt Ideal) → (⟨S2000x32x1, .f32⟩ : BufTy).Contents (Elt Ideal))
  :: unary main_v47 main_v48 (broadcastInDim S2000x32x8 ![0, 1, 2] bcast_S2000x32x1_S2000x32x8_0_1_2 : (⟨S2000x32x1, .f32⟩ : BufTy).Contents (Elt Ideal) → (⟨S2000x32x8, .f32⟩ : BufTy).Contents (Elt Ideal))
  :: binary main_v46 main_v48 main_v49 (mulf (F := Ideal) (φ := .f32) : (⟨S2000x32x8, .f32⟩ : BufTy).Contents (Elt Ideal) → (⟨S2000x32x8, .f32⟩ : BufTy).Contents (Elt Ideal) → (⟨S2000x32x8, .f32⟩ : BufTy).Contents (Elt Ideal))
  :: unary main_v26 main_v50 (broadcastInDim S2000x32x1 ![0, 1] bcast_S2000x32_S2000x32x1_0_1 : (⟨S2000x32, .i1⟩ : BufTy).Contents (Elt Ideal) → (⟨S2000x32x1, .i1⟩ : BufTy).Contents (Elt Ideal))
  :: unary main_v50 main_v51 (uitofp (F := Ideal) .f32 : (⟨S2000x32x1, .i1⟩ : BufTy).Contents (Elt Ideal) → (⟨S2000x32x1, .f32⟩ : BufTy).Contents (Elt Ideal))
  :: unary main_v51 main_v52 (broadcastInDim S2000x32x8 ![0, 1, 2] bcast_S2000x32x1_S2000x32x8_0_1_2 : (⟨S2000x32x1, .f32⟩ : BufTy).Contents (Elt Ideal) → (⟨S2000x32x8, .f32⟩ : BufTy).Contents (Elt Ideal))
  :: binary main_v49 main_v52 main_v53 (mulf (F := Ideal) (φ := .f32) : (⟨S2000x32x8, .f32⟩ : BufTy).Contents (Elt Ideal) → (⟨S2000x32x8, .f32⟩ : BufTy).Contents (Elt Ideal) → (⟨S2000x32x8, .f32⟩ : BufTy).Contents (Elt Ideal))
  :: nullary main_cst_23 (constant (F := Ideal) S_ .f32 0x00000000#32)
  :: binary main_v53 main_cst_23 main_v54 ((fun x v => Host.reduceAdd (F := Ideal) (φ := .f32) x v reducesTo_S2000x32x8_S2000x8_d1 h_S_) : (⟨S2000x32x8, .f32⟩ : BufTy).Contents (Elt Ideal) → (⟨S_, .f32⟩ : BufTy).Contents (Elt Ideal) → (⟨S2000x8, .f32⟩ : BufTy).Contents (Elt Ideal))
  :: nullary main_c_24 (constantI S_ 32 32#32)
  :: unary main_c_24 main_v55 (broadcastInDim S496 ![] bcast_S_S496 : (⟨S_, .i32⟩ : BufTy).Contents (Elt Ideal) → (⟨S496, .i32⟩ : BufTy).Contents (Elt Ideal))
  :: binary main_c main_v55 main_v56 (addi : (⟨S496, .i32⟩ : BufTy).Contents (Elt Ideal) → (⟨S496, .i32⟩ : BufTy).Contents (Elt Ideal) → (⟨S496, .i32⟩ : BufTy).Contents (Elt Ideal))
  :: ternary main_c_1 main_v56 main_c main_v57 (select : (⟨S496, .i1⟩ : BufTy).Contents (Elt Ideal) → (⟨S496, .i32⟩ : BufTy).Contents (Elt Ideal) → (⟨S496, .i32⟩ : BufTy).Contents (Elt Ideal) → (⟨S496, .i32⟩ : BufTy).Contents (Elt Ideal))
  :: unary main_v57 main_v58 (broadcastInDim S496x1 ![0] bcast_S496_S496x1_0 : (⟨S496, .i32⟩ : BufTy).Contents (Elt Ideal) → (⟨S496x1, .i32⟩ : BufTy).Contents (Elt Ideal))
  :: binary main_v23 main_v58 main_v59 ((fun x i => Host.gather gather_S2000x32_S496x1_S2000x496_0_1_n_n_1_1_20001 x i) : (⟨S2000x32, .f32⟩ : BufTy).Contents (Elt Ideal) → (⟨S496x1, .i32⟩ : BufTy).Contents (Elt Ideal) → (⟨S2000x496, .f32⟩ : BufTy).Contents (Elt Ideal))
  :: nullary main_c_25 (constantI S_ 32 32#32)
  :: unary main_c_25 main_v60 (broadcastInDim S496 ![] bcast_S_S496 : (⟨S_, .i32⟩ : BufTy).Contents (Elt Ideal) → (⟨S496, .i32⟩ : BufTy).Contents (Elt Ideal))
  :: binary main_c_2 main_v60 main_v61 (addi : (⟨S496, .i32⟩ : BufTy).Contents (Elt Ideal) → (⟨S496, .i32⟩ : BufTy).Contents (Elt Ideal) → (⟨S496, .i32⟩ : BufTy).Contents (Elt Ideal))
  :: ternary main_c_3 main_v61 main_c_2 main_v62 (select : (⟨S496, .i1⟩ : BufTy).Contents (Elt Ideal) → (⟨S496, .i32⟩ : BufTy).Contents (Elt Ideal) → (⟨S496, .i32⟩ : BufTy).Contents (Elt Ideal) → (⟨S496, .i32⟩ : BufTy).Contents (Elt Ideal))
  :: unary main_v62 main_v63 (broadcastInDim S496x1 ![0] bcast_S496_S496x1_0 : (⟨S496, .i32⟩ : BufTy).Contents (Elt Ideal) → (⟨S496x1, .i32⟩ : BufTy).Contents (Elt Ideal))
  :: binary main_v23 main_v63 main_v64 ((fun x i => Host.gather gather_S2000x32_S496x1_S2000x496_0_1_n_n_1_1_20001 x i) : (⟨S2000x32, .f32⟩ : BufTy).Contents (Elt Ideal) → (⟨S496x1, .i32⟩ : BufTy).Contents (Elt Ideal) → (⟨S2000x496, .f32⟩ : BufTy).Contents (Elt Ideal))
  :: nullary main_c_26 (constantI S_ 32 32#32)
  :: unary main_c_26 main_v65 (broadcastInDim S496 ![] bcast_S_S496 : (⟨S_, .i32⟩ : BufTy).Contents (Elt Ideal) → (⟨S496, .i32⟩ : BufTy).Contents (Elt Ideal))
  :: binary main_c_2 main_v65 main_v66 (addi : (⟨S496, .i32⟩ : BufTy).Contents (Elt Ideal) → (⟨S496, .i32⟩ : BufTy).Contents (Elt Ideal) → (⟨S496, .i32⟩ : BufTy).Contents (Elt Ideal))
  :: ternary main_c_4 main_v66 main_c_2 main_v67 (select : (⟨S496, .i1⟩ : BufTy).Contents (Elt Ideal) → (⟨S496, .i32⟩ : BufTy).Contents (Elt Ideal) → (⟨S496, .i32⟩ : BufTy).Contents (Elt Ideal) → (⟨S496, .i32⟩ : BufTy).Contents (Elt Ideal))
  :: unary main_v67 main_v68 (broadcastInDim S496x1 ![0] bcast_S496_S496x1_0 : (⟨S496, .i32⟩ : BufTy).Contents (Elt Ideal) → (⟨S496x1, .i32⟩ : BufTy).Contents (Elt Ideal))
  :: binary main_v20 main_v68 main_v69 ((fun x i => Host.gather gather_S2000x32x3_S496x1_S2000x496x3_02_1_n_n_1_1_200013 x i) : (⟨S2000x32x3, .f32⟩ : BufTy).Contents (Elt Ideal) → (⟨S496x1, .i32⟩ : BufTy).Contents (Elt Ideal) → (⟨S2000x496x3, .f32⟩ : BufTy).Contents (Elt Ideal))
  :: nullary main_c_27 (constantI S_ 32 32#32)
  :: unary main_c_27 main_v70 (broadcastInDim S496 ![] bcast_S_S496 : (⟨S_, .i32⟩ : BufTy).Contents (Elt Ideal) → (⟨S496, .i32⟩ : BufTy).Contents (Elt Ideal))
  :: binary main_c main_v70 main_v71 (addi : (⟨S496, .i32⟩ : BufTy).Contents (Elt Ideal) → (⟨S496, .i32⟩ : BufTy).Contents (Elt Ideal) → (⟨S496, .i32⟩ : BufTy).Contents (Elt Ideal))
  :: ternary main_c_5 main_v71 main_c main_v72 (select : (⟨S496, .i1⟩ : BufTy).Contents (Elt Ideal) → (⟨S496, .i32⟩ : BufTy).Contents (Elt Ideal) → (⟨S496, .i32⟩ : BufTy).Contents (Elt Ideal) → (⟨S496, .i32⟩ : BufTy).Contents (Elt Ideal))
  :: unary main_v72 main_v73 (broadcastInDim S496x1 ![0] bcast_S496_S496x1_0 : (⟨S496, .i32⟩ : BufTy).Contents (Elt Ideal) → (⟨S496x1, .i32⟩ : BufTy).Contents (Elt Ideal))
  :: binary main_v20 main_v73 main_v74 ((fun x i => Host.gather gather_S2000x32x3_S496x1_S2000x496x3_02_1_n_n_1_1_200013 x i) : (⟨S2000x32x3, .f32⟩ : BufTy).Contents (Elt Ideal) → (⟨S496x1, .i32⟩ : BufTy).Contents (Elt Ideal) → (⟨S2000x496x3, .f32⟩ : BufTy).Contents (Elt Ideal))
  :: binary main_v69 main_v74 main_v75 (subf (F := Ideal) (φ := .f32) : (⟨S2000x496x3, .f32⟩ : BufTy).Contents (Elt Ideal) → (⟨S2000x496x3, .f32⟩ : BufTy).Contents (Elt Ideal) → (⟨S2000x496x3, .f32⟩ : BufTy).Contents (Elt Ideal))
  :: binary main_v75 main_v75 main_v76 (mulf (F := Ideal) (φ := .f32) : (⟨S2000x496x3, .f32⟩ : BufTy).Contents (Elt Ideal) → (⟨S2000x496x3, .f32⟩ : BufTy).Contents (Elt Ideal) → (⟨S2000x496x3, .f32⟩ : BufTy).Contents (Elt Ideal))
  :: nullary main_cst_28 (constant (F := Ideal) S_ .f32 0x00000000#32)
  :: binary main_v76 main_cst_28 main_v77 ((fun x v => Host.reduceAdd (F := Ideal) (φ := .f32) x v reducesTo_S2000x496x3_S2000x496_d2 h_S_) : (⟨S2000x496x3, .f32⟩ : BufTy).Contents (Elt Ideal) → (⟨S_, .f32⟩ : BufTy).Contents (Elt Ideal) → (⟨S2000x496, .f32⟩ : BufTy).Contents (Elt Ideal))
  :: nullary main_cst_29 (constant (F := Ideal) S_ .f32 0x00000000#32)
  :: unary main_cst_29 main_v78 (broadcastInDim S2000x496 ![] bcast_S_S2000x496 : (⟨S_, .f32⟩ : BufTy).Contents (Elt Ideal) → (⟨S2000x496, .f32⟩ : BufTy).Contents (Elt Ideal))
  :: binary main_v77 main_v78 main_v79 (cmpf (F := Ideal) (φ := .f32) .ogt : (⟨S2000x496, .f32⟩ : BufTy).Contents (Elt Ideal) → (⟨S2000x496, .f32⟩ : BufTy).Contents (Elt Ideal) → (⟨S2000x496, .i1⟩ : BufTy).Contents (Elt Ideal))
  :: nullary main_cst_30 (constant (F := Ideal) S_ .f32 0x00000000#32)
  :: unary main_cst_30 main_v80 (broadcastInDim S2000x496 ![] bcast_S_S2000x496 : (⟨S_, .f32⟩ : BufTy).Contents (Elt Ideal) → (⟨S2000x496, .f32⟩ : BufTy).Contents (Elt Ideal))
  :: binary main_v77 main_v80 main_v81 (cmpf (F := Ideal) (φ := .f32) .ogt : (⟨S2000x496, .f32⟩ : BufTy).Contents (Elt Ideal) → (⟨S2000x496, .f32⟩ : BufTy).Contents (Elt Ideal) → (⟨S2000x496, .i1⟩ : BufTy).Contents (Elt Ideal))
  :: nullary main_cst_31 (constant (F := Ideal) S_ .f32 0x3F800000#32)
  :: TRef.unary (.of main_cst_31 : TRef sig ⟨S_, .f32⟩) main_call1.v0 id
  :: TRef.unary main_call1.v0 main_call1.v1 (broadcastInDim S2000x496 ![] bcast_S_S2000x496)
  :: TRef.ternary (.of main_v81 : TRef sig ⟨S2000x496, .i1⟩) (.of main_v77 : TRef sig ⟨S2000x496, .f32⟩) main_call1.v1 main_call1.v2 select
  :: unary main_v82 main_v83 (Host.sqrt (F := Ideal) (φ := .f32) : (⟨S2000x496, .f32⟩ : BufTy).Contents (Elt Ideal) → (⟨S2000x496, .f32⟩ : BufTy).Contents (Elt Ideal))
  :: nullary main_cst_32 (constant (F := Ideal) S_ .f32 0x00000000#32)
  :: TRef.unary (.of main_cst_32 : TRef sig ⟨S_, .f32⟩) main_call2.v0 id
  :: TRef.unary main_call2.v0 main_call2.v1 (broadcastInDim S2000x496 ![] bcast_S_S2000x496)
  :: TRef.ternary (.of main_v79 : TRef sig ⟨S2000x496, .i1⟩) (.of main_v83 : TRef sig ⟨S2000x496, .f32⟩) main_call2.v1 main_call2.v2 select
  :: [] )

set_option maxHeartbeats 40000000 in
/-- Statements 121 … 180: the pair masks gathered and combined; the cosine of the pair angle by the law of cosines; one plus the signed cosine and its power, selected where positive (the `where` over [atom, pair, feature]); and the exponent of the Gaussian of the three squared distances. -/
abbrev ops2 : List (HloOp τ sig (Elt Ideal)) :=
  ( nullary main_c_33 (constantI S_ 32 32#32)
  :: unary main_c_33 main_v85 (broadcastInDim S496 ![] bcast_S_S496 : (⟨S_, .i32⟩ : BufTy).Contents (Elt Ideal) → (⟨S496, .i32⟩ : BufTy).Contents (Elt Ideal))
  :: binary main_c main_v85 main_v86 (addi : (⟨S496, .i32⟩ : BufTy).Contents (Elt Ideal) → (⟨S496, .i32⟩ : BufTy).Contents (Elt Ideal) → (⟨S496, .i32⟩ : BufTy).Contents (Elt Ideal))
  :: ternary main_c_6 main_v86 main_c main_v87 (select : (⟨S496, .i1⟩ : BufTy).Contents (Elt Ideal) → (⟨S496, .i32⟩ : BufTy).Contents (Elt Ideal) → (⟨S496, .i32⟩ : BufTy).Contents (Elt Ideal) → (⟨S496, .i32⟩ : BufTy).Contents (Elt Ideal))
  :: unary main_v87 main_v88 (broadcastInDim S496x1 ![0] bcast_S496_S496x1_0 : (⟨S496, .i32⟩ : BufTy).Contents (Elt Ideal) → (⟨S496x1, .i32⟩ : BufTy).Contents (Elt Ideal))
  :: binary main_v26 main_v88 main_v89 ((fun x i => Host.gather gather_S2000x32_S496x1_S2000x496_0_1_n_n_1_1_20001 x i) : (⟨S2000x32, .i1⟩ : BufTy).Contents (Elt Ideal) → (⟨S496x1, .i32⟩ : BufTy).Contents (Elt Ideal) → (⟨S2000x496, .i1⟩ : BufTy).Contents (Elt Ideal))
  :: nullary main_c_34 (constantI S_ 32 32#32)
  :: unary main_c_34 main_v90 (broadcastInDim S496 ![] bcast_S_S496 : (⟨S_, .i32⟩ : BufTy).Contents (Elt Ideal) → (⟨S496, .i32⟩ : BufTy).Contents (Elt Ideal))
  :: binary main_c_2 main_v90 main_v91 (addi : (⟨S496, .i32⟩ : BufTy).Contents (Elt Ideal) → (⟨S496, .i32⟩ : BufTy).Contents (Elt Ideal) → (⟨S496, .i32⟩ : BufTy).Contents (Elt Ideal))
  :: ternary main_c_7 main_v91 main_c_2 main_v92 (select : (⟨S496, .i1⟩ : BufTy).Contents (Elt Ideal) → (⟨S496, .i32⟩ : BufTy).Contents (Elt Ideal) → (⟨S496, .i32⟩ : BufTy).Contents (Elt Ideal) → (⟨S496, .i32⟩ : BufTy).Contents (Elt Ideal))
  :: unary main_v92 main_v93 (broadcastInDim S496x1 ![0] bcast_S496_S496x1_0 : (⟨S496, .i32⟩ : BufTy).Contents (Elt Ideal) → (⟨S496x1, .i32⟩ : BufTy).Contents (Elt Ideal))
  :: binary main_v10 main_v93 main_v94 ((fun x i => Host.gather gather_S2000x32_S496x1_S2000x496_0_1_n_n_1_1_20001 x i) : (⟨S2000x32, .i1⟩ : BufTy).Contents (Elt Ideal) → (⟨S496x1, .i32⟩ : BufTy).Contents (Elt Ideal) → (⟨S2000x496, .i1⟩ : BufTy).Contents (Elt Ideal))
  :: binary main_v89 main_v94 main_v95 (andi : (⟨S2000x496, .i1⟩ : BufTy).Contents (Elt Ideal) → (⟨S2000x496, .i1⟩ : BufTy).Contents (Elt Ideal) → (⟨S2000x496, .i1⟩ : BufTy).Contents (Elt Ideal))
  :: nullary main_c_35 (constantI S_ 32 32#32)
  :: unary main_c_35 main_v96 (broadcastInDim S496 ![] bcast_S_S496 : (⟨S_, .i32⟩ : BufTy).Contents (Elt Ideal) → (⟨S496, .i32⟩ : BufTy).Contents (Elt Ideal))
  :: binary main_c_2 main_v96 main_v97 (addi : (⟨S496, .i32⟩ : BufTy).Contents (Elt Ideal) → (⟨S496, .i32⟩ : BufTy).Contents (Elt Ideal) → (⟨S496, .i32⟩ : BufTy).Contents (Elt Ideal))
  :: ternary main_c_8 main_v97 main_c_2 main_v98 (select : (⟨S496, .i1⟩ : BufTy).Contents (Elt Ideal) → (⟨S496, .i32⟩ : BufTy).Contents (Elt Ideal) → (⟨S496, .i32⟩ : BufTy).Contents (Elt Ideal) → (⟨S496, .i32⟩ : BufTy).Contents (Elt Ideal))
  :: unary main_v98 main_v99 (broadcastInDim S496x1 ![0] bcast_S496_S496x1_0 : (⟨S496, .i32⟩ : BufTy).Contents (Elt Ideal) → (⟨S496x1, .i32⟩ : BufTy).Contents (Elt Ideal))
  :: binary main_v22 main_v99 main_v100 ((fun x i => Host.gather gather_S2000x32_S496x1_S2000x496_0_1_n_n_1_1_20001 x i) : (⟨S2000x32, .f32⟩ : BufTy).Contents (Elt Ideal) → (⟨S496x1, .i32⟩ : BufTy).Contents (Elt Ideal) → (⟨S2000x496, .f32⟩ : BufTy).Contents (Elt Ideal))
  :: nullary main_cst_36 (constant (F := Ideal) S_ .f32 0x42800000#32)
  :: unary main_cst_36 main_v101 (broadcastInDim S2000x496 ![] bcast_S_S2000x496 : (⟨S_, .f32⟩ : BufTy).Contents (Elt Ideal) → (⟨S2000x496, .f32⟩ : BufTy).Contents (Elt Ideal))
  :: binary main_v100 main_v101 main_v102 (cmpf (F := Ideal) (φ := .f32) .ole : (⟨S2000x496, .f32⟩ : BufTy).Contents (Elt Ideal) → (⟨S2000x496, .f32⟩ : BufTy).Contents (Elt Ideal) → (⟨S2000x496, .i1⟩ : BufTy).Contents (Elt Ideal))
  :: binary main_v95 main_v102 main_v103 (andi : (⟨S2000x496, .i1⟩ : BufTy).Contents (Elt Ideal) → (⟨S2000x496, .i1⟩ : BufTy).Contents (Elt Ideal) → (⟨S2000x496, .i1⟩ : BufTy).Contents (Elt Ideal))
  :: nullary main_cst_37 (constant (F := Ideal) S_ .f32 0x41000000#32)
  :: unary main_cst_37 main_v104 (broadcastInDim S2000x496 ![] bcast_S_S2000x496 : (⟨S_, .f32⟩ : BufTy).Contents (Elt Ideal) → (⟨S2000x496, .f32⟩ : BufTy).Contents (Elt Ideal))
  :: binary main_v84 main_v104 main_v105 (cmpf (F := Ideal) (φ := .f32) .ole : (⟨S2000x496, .f32⟩ : BufTy).Contents (Elt Ideal) → (⟨S2000x496, .f32⟩ : BufTy).Contents (Elt Ideal) → (⟨S2000x496, .i1⟩ : BufTy).Contents (Elt Ideal))
  :: binary main_v103 main_v105 main_v106 (andi : (⟨S2000x496, .i1⟩ : BufTy).Contents (Elt Ideal) → (⟨S2000x496, .i1⟩ : BufTy).Contents (Elt Ideal) → (⟨S2000x496, .i1⟩ : BufTy).Contents (Elt Ideal))
  :: binary main_v59 main_v59 main_v107 (mulf (F := Ideal) (φ := .f32) : (⟨S2000x496, .f32⟩ : BufTy).Contents (Elt Ideal) → (⟨S2000x496, .f32⟩ : BufTy).Contents (Elt Ideal) → (⟨S2000x496, .f32⟩ : BufTy).Contents (Elt Ideal))
  :: binary main_v64 main_v64 main_v108 (mulf (F := Ideal) (φ := .f32) : (⟨S2000x496, .f32⟩ : BufTy).Contents (Elt Ideal) → (⟨S2000x496, .f32⟩ : BufTy).Contents (Elt Ideal) → (⟨S2000x496, .f32⟩ : BufTy).Contents (Elt Ideal))
  :: binary main_v107 main_v108 main_v109 (addf (F := Ideal) (φ := .f32) : (⟨S2000x496, .f32⟩ : BufTy).Contents (Elt Ideal) → (⟨S2000x496, .f32⟩ : BufTy).Contents (Elt Ideal) → (⟨S2000x496, .f32⟩ : BufTy).Contents (Elt Ideal))
  :: binary main_v109 main_v77 main_v110 (subf (F := Ideal) (φ := .f32) : (⟨S2000x496, .f32⟩ : BufTy).Contents (Elt Ideal) → (⟨S2000x496, .f32⟩ : BufTy).Contents (Elt Ideal) → (⟨S2000x496, .f32⟩ : BufTy).Contents (Elt Ideal))
  :: nullary main_cst_38 (constant (F := Ideal) S_ .f32 0x40000000#32)
  :: unary main_cst_38 main_v111 (broadcastInDim S2000x496 ![] bcast_S_S2000x496 : (⟨S_, .f32⟩ : BufTy).Contents (Elt Ideal) → (⟨S2000x496, .f32⟩ : BufTy).Contents (Elt Ideal))
  :: binary main_v111 main_v59 main_v112 (mulf (F := Ideal) (φ := .f32) : (⟨S2000x496, .f32⟩ : BufTy).Contents (Elt Ideal) → (⟨S2000x496, .f32⟩ : BufTy).Contents (Elt Ideal) → (⟨S2000x496, .f32⟩ : BufTy).Contents (Elt Ideal))
  :: binary main_v112 main_v64 main_v113 (mulf (F := Ideal) (φ := .f32) : (⟨S2000x496, .f32⟩ : BufTy).Contents (Elt Ideal) → (⟨S2000x496, .f32⟩ : BufTy).Contents (Elt Ideal) → (⟨S2000x496, .f32⟩ : BufTy).Contents (Elt Ideal))
  :: binary main_v110 main_v113 main_v114 (Host.divf (F := Ideal) (φ := .f32) : (⟨S2000x496, .f32⟩ : BufTy).Contents (Elt Ideal) → (⟨S2000x496, .f32⟩ : BufTy).Contents (Elt Ideal) → (⟨S2000x496, .f32⟩ : BufTy).Contents (Elt Ideal))
  :: unary main_v114 main_v115 (broadcastInDim S2000x496x1 ![0, 1] bcast_S2000x496_S2000x496x1_0_1 : (⟨S2000x496, .f32⟩ : BufTy).Contents (Elt Ideal) → (⟨S2000x496x1, .f32⟩ : BufTy).Contents (Elt Ideal))
  :: unary main_v1 main_v116 (broadcastInDim S2000x496x43 ![0, 1, 2] bcast_S1x1x43_S2000x496x43_0_1_2 : (⟨S1x1x43, .f32⟩ : BufTy).Contents (Elt Ideal) → (⟨S2000x496x43, .f32⟩ : BufTy).Contents (Elt Ideal))
  :: unary main_v115 main_v117 (broadcastInDim S2000x496x43 ![0, 1, 2] bcast_S2000x496x1_S2000x496x43_0_1_2 : (⟨S2000x496x1, .f32⟩ : BufTy).Contents (Elt Ideal) → (⟨S2000x496x43, .f32⟩ : BufTy).Contents (Elt Ideal))
  :: binary main_v116 main_v117 main_v118 (mulf (F := Ideal) (φ := .f32) : (⟨S2000x496x43, .f32⟩ : BufTy).Contents (Elt Ideal) → (⟨S2000x496x43, .f32⟩ : BufTy).Contents (Elt Ideal) → (⟨S2000x496x43, .f32⟩ : BufTy).Contents (Elt Ideal))
  :: nullary main_cst_39 (constant (F := Ideal) S_ .f32 0x3F800000#32)
  :: unary main_cst_39 main_v119 (broadcastInDim S2000x496x43 ![] bcast_S_S2000x496x43 : (⟨S_, .f32⟩ : BufTy).Contents (Elt Ideal) → (⟨S2000x496x43, .f32⟩ : BufTy).Contents (Elt Ideal))
  :: binary main_v119 main_v118 main_v120 (addf (F := Ideal) (φ := .f32) : (⟨S2000x496x43, .f32⟩ : BufTy).Contents (Elt Ideal) → (⟨S2000x496x43, .f32⟩ : BufTy).Contents (Elt Ideal) → (⟨S2000x496x43, .f32⟩ : BufTy).Contents (Elt Ideal))
  :: nullary main_cst_40 (constant (F := Ideal) S_ .f32 0x00000000#32)
  :: unary main_cst_40 main_v121 (broadcastInDim S2000x496x43 ![] bcast_S_S2000x496x43 : (⟨S_, .f32⟩ : BufTy).Contents (Elt Ideal) → (⟨S2000x496x43, .f32⟩ : BufTy).Contents (Elt Ideal))
  :: binary main_v120 main_v121 main_v122 (cmpf (F := Ideal) (φ := .f32) .ogt : (⟨S2000x496x43, .f32⟩ : BufTy).Contents (Elt Ideal) → (⟨S2000x496x43, .f32⟩ : BufTy).Contents (Elt Ideal) → (⟨S2000x496x43, .i1⟩ : BufTy).Contents (Elt Ideal))
  :: nullary main_cst_41 (constant (F := Ideal) S_ .f32 0x3F800000#32)
  :: TRef.unary (.of main_cst_41 : TRef sig ⟨S_, .f32⟩) main_call3.v0 id
  :: TRef.unary main_call3.v0 main_call3.v1 (broadcastInDim S2000x496x43 ![] bcast_S_S2000x496x43)
  :: TRef.ternary (.of main_v122 : TRef sig ⟨S2000x496x43, .i1⟩) (.of main_v120 : TRef sig ⟨S2000x496x43, .f32⟩) main_call3.v1 main_call3.v2 select
  :: unary main_v2 main_v124 (broadcastInDim S2000x496x43 ![0, 1, 2] bcast_S1x1x43_S2000x496x43_0_1_2 : (⟨S1x1x43, .f32⟩ : BufTy).Contents (Elt Ideal) → (⟨S2000x496x43, .f32⟩ : BufTy).Contents (Elt Ideal))
  :: binary main_v123 main_v124 main_v125 (Host.powf (F := Ideal) (φ := .f32) : (⟨S2000x496x43, .f32⟩ : BufTy).Contents (Elt Ideal) → (⟨S2000x496x43, .f32⟩ : BufTy).Contents (Elt Ideal) → (⟨S2000x496x43, .f32⟩ : BufTy).Contents (Elt Ideal))
  :: unary main_v122 main_v126 (uitofp (F := Ideal) .f32 : (⟨S2000x496x43, .i1⟩ : BufTy).Contents (Elt Ideal) → (⟨S2000x496x43, .f32⟩ : BufTy).Contents (Elt Ideal))
  :: binary main_v125 main_v126 main_v127 (mulf (F := Ideal) (φ := .f32) : (⟨S2000x496x43, .f32⟩ : BufTy).Contents (Elt Ideal) → (⟨S2000x496x43, .f32⟩ : BufTy).Contents (Elt Ideal) → (⟨S2000x496x43, .f32⟩ : BufTy).Contents (Elt Ideal))
  :: binary main_v59 main_v59 main_v128 (mulf (F := Ideal) (φ := .f32) : (⟨S2000x496, .f32⟩ : BufTy).Contents (Elt Ideal) → (⟨S2000x496, .f32⟩ : BufTy).Contents (Elt Ideal) → (⟨S2000x496, .f32⟩ : BufTy).Contents (Elt Ideal))
  :: binary main_v64 main_v64 main_v129 (mulf (F := Ideal) (φ := .f32) : (⟨S2000x496, .f32⟩ : BufTy).Contents (Elt Ideal) → (⟨S2000x496, .f32⟩ : BufTy).Contents (Elt Ideal) → (⟨S2000x496, .f32⟩ : BufTy).Contents (Elt Ideal))
  :: binary main_v128 main_v129 main_v130 (addf (F := Ideal) (φ := .f32) : (⟨S2000x496, .f32⟩ : BufTy).Contents (Elt Ideal) → (⟨S2000x496, .f32⟩ : BufTy).Contents (Elt Ideal) → (⟨S2000x496, .f32⟩ : BufTy).Contents (Elt Ideal))
  :: binary main_v130 main_v77 main_v131 (addf (F := Ideal) (φ := .f32) : (⟨S2000x496, .f32⟩ : BufTy).Contents (Elt Ideal) → (⟨S2000x496, .f32⟩ : BufTy).Contents (Elt Ideal) → (⟨S2000x496, .f32⟩ : BufTy).Contents (Elt Ideal))
  :: unary main_v131 main_v132 (broadcastInDim S2000x496x1 ![0, 1] bcast_S2000x496_S2000x496x1_0_1 : (⟨S2000x496, .f32⟩ : BufTy).Contents (Elt Ideal) → (⟨S2000x496x1, .f32⟩ : BufTy).Contents (Elt Ideal))
  :: unary main_cst_11 main_v133 (broadcastInDim S2000x496x43 ![0, 1, 2] bcast_S1x1x43_S2000x496x43_0_1_2 : (⟨S1x1x43, .f32⟩ : BufTy).Contents (Elt Ideal) → (⟨S2000x496x43, .f32⟩ : BufTy).Contents (Elt Ideal))
  :: unary main_v132 main_v134 (broadcastInDim S2000x496x43 ![0, 1, 2] bcast_S2000x496x1_S2000x496x43_0_1_2 : (⟨S2000x496x1, .f32⟩ : BufTy).Contents (Elt Ideal) → (⟨S2000x496x43, .f32⟩ : BufTy).Contents (Elt Ideal))
  :: binary main_v133 main_v134 main_v135 (mulf (F := Ideal) (φ := .f32) : (⟨S2000x496x43, .f32⟩ : BufTy).Contents (Elt Ideal) → (⟨S2000x496x43, .f32⟩ : BufTy).Contents (Elt Ideal) → (⟨S2000x496x43, .f32⟩ : BufTy).Contents (Elt Ideal))
  :: [] )

set_option maxHeartbeats 40000000 in
/-- Statements 181 … 240: that Gaussian; the cutoff functions of the pair's three distances, each selected inside its radius (three `where`s), and their product; the coefficient times the power times the Gaussian. -/
abbrev ops3 : List (HloOp τ sig (Elt Ideal)) :=
  ( unary main_v135 main_v136 (Host.exp (F := Ideal) (φ := .f32) : (⟨S2000x496x43, .f32⟩ : BufTy).Contents (Elt Ideal) → (⟨S2000x496x43, .f32⟩ : BufTy).Contents (Elt Ideal))
  :: nullary main_cst_42 (constant (F := Ideal) S_ .f32 0x41000000#32)
  :: unary main_cst_42 main_v137 (broadcastInDim S2000x496 ![] bcast_S_S2000x496 : (⟨S_, .f32⟩ : BufTy).Contents (Elt Ideal) → (⟨S2000x496, .f32⟩ : BufTy).Contents (Elt Ideal))
  :: binary main_v59 main_v137 main_v138 (cmpf (F := Ideal) (φ := .f32) .olt : (⟨S2000x496, .f32⟩ : BufTy).Contents (Elt Ideal) → (⟨S2000x496, .f32⟩ : BufTy).Contents (Elt Ideal) → (⟨S2000x496, .i1⟩ : BufTy).Contents (Elt Ideal))
  :: nullary main_cst_43 (constant (F := Ideal) S_ .f32 0x40490FDB#32)
  :: unary main_cst_43 main_v139 (broadcastInDim S2000x496 ![] bcast_S_S2000x496 : (⟨S_, .f32⟩ : BufTy).Contents (Elt Ideal) → (⟨S2000x496, .f32⟩ : BufTy).Contents (Elt Ideal))
  :: binary main_v139 main_v59 main_v140 (mulf (F := Ideal) (φ := .f32) : (⟨S2000x496, .f32⟩ : BufTy).Contents (Elt Ideal) → (⟨S2000x496, .f32⟩ : BufTy).Contents (Elt Ideal) → (⟨S2000x496, .f32⟩ : BufTy).Contents (Elt Ideal))
  :: nullary main_cst_44 (constant (F := Ideal) S_ .f32 0x41000000#32)
  :: unary main_cst_44 main_v141 (broadcastInDim S2000x496 ![] bcast_S_S2000x496 : (⟨S_, .f32⟩ : BufTy).Contents (Elt Ideal) → (⟨S2000x496, .f32⟩ : BufTy).Contents (Elt Ideal))
  :: binary main_v140 main_v141 main_v142 (Host.divf (F := Ideal) (φ := .f32) : (⟨S2000x496, .f32⟩ : BufTy).Contents (Elt Ideal) → (⟨S2000x496, .f32⟩ : BufTy).Contents (Elt Ideal) → (⟨S2000x496, .f32⟩ : BufTy).Contents (Elt Ideal))
  :: unary main_v142 main_v143 (Host.cos (F := Ideal) (φ := .f32) : (⟨S2000x496, .f32⟩ : BufTy).Contents (Elt Ideal) → (⟨S2000x496, .f32⟩ : BufTy).Contents (Elt Ideal))
  :: nullary main_cst_45 (constant (F := Ideal) S_ .f32 0x3F800000#32)
  :: unary main_cst_45 main_v144 (broadcastInDim S2000x496 ![] bcast_S_S2000x496 : (⟨S_, .f32⟩ : BufTy).Contents (Elt Ideal) → (⟨S2000x496, .f32⟩ : BufTy).Contents (Elt Ideal))
  :: binary main_v143 main_v144 main_v145 (addf (F := Ideal) (φ := .f32) : (⟨S2000x496, .f32⟩ : BufTy).Contents (Elt Ideal) → (⟨S2000x496, .f32⟩ : BufTy).Contents (Elt Ideal) → (⟨S2000x496, .f32⟩ : BufTy).Contents (Elt Ideal))
  :: nullary main_cst_46 (constant (F := Ideal) S_ .f32 0x3F000000#32)
  :: unary main_cst_46 main_v146 (broadcastInDim S2000x496 ![] bcast_S_S2000x496 : (⟨S_, .f32⟩ : BufTy).Contents (Elt Ideal) → (⟨S2000x496, .f32⟩ : BufTy).Contents (Elt Ideal))
  :: binary main_v146 main_v145 main_v147 (mulf (F := Ideal) (φ := .f32) : (⟨S2000x496, .f32⟩ : BufTy).Contents (Elt Ideal) → (⟨S2000x496, .f32⟩ : BufTy).Contents (Elt Ideal) → (⟨S2000x496, .f32⟩ : BufTy).Contents (Elt Ideal))
  :: nullary main_cst_47 (constant (F := Ideal) S_ .f32 0x00000000#32)
  :: TRef.unary (.of main_cst_47 : TRef sig ⟨S_, .f32⟩) main_call4.v0 id
  :: TRef.unary main_call4.v0 main_call4.v1 (broadcastInDim S2000x496 ![] bcast_S_S2000x496)
  :: TRef.ternary (.of main_v138 : TRef sig ⟨S2000x496, .i1⟩) (.of main_v147 : TRef sig ⟨S2000x496, .f32⟩) main_call4.v1 main_call4.v2 select
  :: nullary main_cst_48 (constant (F := Ideal) S_ .f32 0x41000000#32)
  :: unary main_cst_48 main_v149 (broadcastInDim S2000x496 ![] bcast_S_S2000x496 : (⟨S_, .f32⟩ : BufTy).Contents (Elt Ideal) → (⟨S2000x496, .f32⟩ : BufTy).Contents (Elt Ideal))
  :: binary main_v64 main_v149 main_v150 (cmpf (F := Ideal) (φ := .f32) .olt : (⟨S2000x496, .f32⟩ : BufTy).Contents (Elt Ideal) → (⟨S2000x496, .f32⟩ : BufTy).Contents (Elt Ideal) → (⟨S2000x496, .i1⟩ : BufTy).Contents (Elt Ideal))
  :: nullary main_cst_49 (constant (F := Ideal) S_ .f32 0x40490FDB#32)
  :: unary main_cst_49 main_v151 (broadcastInDim S2000x496 ![] bcast_S_S2000x496 : (⟨S_, .f32⟩ : BufTy).Contents (Elt Ideal) → (⟨S2000x496, .f32⟩ : BufTy).Contents (Elt Ideal))
  :: binary main_v151 main_v64 main_v152 (mulf (F := Ideal) (φ := .f32) : (⟨S2000x496, .f32⟩ : BufTy).Contents (Elt Ideal) → (⟨S2000x496, .f32⟩ : BufTy).Contents (Elt Ideal) → (⟨S2000x496, .f32⟩ : BufTy).Contents (Elt Ideal))
  :: nullary main_cst_50 (constant (F := Ideal) S_ .f32 0x41000000#32)
  :: unary main_cst_50 main_v153 (broadcastInDim S2000x496 ![] bcast_S_S2000x496 : (⟨S_, .f32⟩ : BufTy).Contents (Elt Ideal) → (⟨S2000x496, .f32⟩ : BufTy).Contents (Elt Ideal))
  :: binary main_v152 main_v153 main_v154 (Host.divf (F := Ideal) (φ := .f32) : (⟨S2000x496, .f32⟩ : BufTy).Contents (Elt Ideal) → (⟨S2000x496, .f32⟩ : BufTy).Contents (Elt Ideal) → (⟨S2000x496, .f32⟩ : BufTy).Contents (Elt Ideal))
  :: unary main_v154 main_v155 (Host.cos (F := Ideal) (φ := .f32) : (⟨S2000x496, .f32⟩ : BufTy).Contents (Elt Ideal) → (⟨S2000x496, .f32⟩ : BufTy).Contents (Elt Ideal))
  :: nullary main_cst_51 (constant (F := Ideal) S_ .f32 0x3F800000#32)
  :: unary main_cst_51 main_v156 (broadcastInDim S2000x496 ![] bcast_S_S2000x496 : (⟨S_, .f32⟩ : BufTy).Contents (Elt Ideal) → (⟨S2000x496, .f32⟩ : BufTy).Contents (Elt Ideal))
  :: binary main_v155 main_v156 main_v157 (addf (F := Ideal) (φ := .f32) : (⟨S2000x496, .f32⟩ : BufTy).Contents (Elt Ideal) → (⟨S2000x496, .f32⟩ : BufTy).Contents (Elt Ideal) → (⟨S2000x496, .f32⟩ : BufTy).Contents (Elt Ideal))
  :: nullary main_cst_52 (constant (F := Ideal) S_ .f32 0x3F000000#32)
  :: unary main_cst_52 main_v158 (broadcastInDim S2000x496 ![] bcast_S_S2000x496 : (⟨S_, .f32⟩ : BufTy).Contents (Elt Ideal) → (⟨S2000x496, .f32⟩ : BufTy).Contents (Elt Ideal))
  :: binary main_v158 main_v157 main_v159 (mulf (F := Ideal) (φ := .f32) : (⟨S2000x496, .f32⟩ : BufTy).Contents (Elt Ideal) → (⟨S2000x496, .f32⟩ : BufTy).Contents (Elt Ideal) → (⟨S2000x496, .f32⟩ : BufTy).Contents (Elt Ideal))
  :: nullary main_cst_53 (constant (F := Ideal) S_ .f32 0x00000000#32)
  :: TRef.unary (.of main_cst_53 : TRef sig ⟨S_, .f32⟩) main_call5.v0 id
  :: TRef.unary main_call5.v0 main_call5.v1 (broadcastInDim S2000x496 ![] bcast_S_S2000x496)
  :: TRef.ternary (.of main_v150 : TRef sig ⟨S2000x496, .i1⟩) (.of main_v159 : TRef sig ⟨S2000x496, .f32⟩) main_call5.v1 main_call5.v2 select
  :: binary main_v148 main_v160 main_v161 (mulf (F := Ideal) (φ := .f32) : (⟨S2000x496, .f32⟩ : BufTy).Contents (Elt Ideal) → (⟨S2000x496, .f32⟩ : BufTy).Contents (Elt Ideal) → (⟨S2000x496, .f32⟩ : BufTy).Contents (Elt Ideal))
  :: nullary main_cst_54 (constant (F := Ideal) S_ .f32 0x41000000#32)
  :: unary main_cst_54 main_v162 (broadcastInDim S2000x496 ![] bcast_S_S2000x496 : (⟨S_, .f32⟩ : BufTy).Contents (Elt Ideal) → (⟨S2000x496, .f32⟩ : BufTy).Contents (Elt Ideal))
  :: binary main_v84 main_v162 main_v163 (cmpf (F := Ideal) (φ := .f32) .olt : (⟨S2000x496, .f32⟩ : BufTy).Contents (Elt Ideal) → (⟨S2000x496, .f32⟩ : BufTy).Contents (Elt Ideal) → (⟨S2000x496, .i1⟩ : BufTy).Contents (Elt Ideal))
  :: nullary main_cst_55 (constant (F := Ideal) S_ .f32 0x40490FDB#32)
  :: unary main_cst_55 main_v164 (broadcastInDim S2000x496 ![] bcast_S_S2000x496 : (⟨S_, .f32⟩ : BufTy).Contents (Elt Ideal) → (⟨S2000x496, .f32⟩ : BufTy).Contents (Elt Ideal))
  :: binary main_v164 main_v84 main_v165 (mulf (F := Ideal) (φ := .f32) : (⟨S2000x496, .f32⟩ : BufTy).Contents (Elt Ideal) → (⟨S2000x496, .f32⟩ : BufTy).Contents (Elt Ideal) → (⟨S2000x496, .f32⟩ : BufTy).Contents (Elt Ideal))
  :: nullary main_cst_56 (constant (F := Ideal) S_ .f32 0x41000000#32)
  :: unary main_cst_56 main_v166 (broadcastInDim S2000x496 ![] bcast_S_S2000x496 : (⟨S_, .f32⟩ : BufTy).Contents (Elt Ideal) → (⟨S2000x496, .f32⟩ : BufTy).Contents (Elt Ideal))
  :: binary main_v165 main_v166 main_v167 (Host.divf (F := Ideal) (φ := .f32) : (⟨S2000x496, .f32⟩ : BufTy).Contents (Elt Ideal) → (⟨S2000x496, .f32⟩ : BufTy).Contents (Elt Ideal) → (⟨S2000x496, .f32⟩ : BufTy).Contents (Elt Ideal))
  :: unary main_v167 main_v168 (Host.cos (F := Ideal) (φ := .f32) : (⟨S2000x496, .f32⟩ : BufTy).Contents (Elt Ideal) → (⟨S2000x496, .f32⟩ : BufTy).Contents (Elt Ideal))
  :: nullary main_cst_57 (constant (F := Ideal) S_ .f32 0x3F800000#32)
  :: unary main_cst_57 main_v169 (broadcastInDim S2000x496 ![] bcast_S_S2000x496 : (⟨S_, .f32⟩ : BufTy).Contents (Elt Ideal) → (⟨S2000x496, .f32⟩ : BufTy).Contents (Elt Ideal))
  :: binary main_v168 main_v169 main_v170 (addf (F := Ideal) (φ := .f32) : (⟨S2000x496, .f32⟩ : BufTy).Contents (Elt Ideal) → (⟨S2000x496, .f32⟩ : BufTy).Contents (Elt Ideal) → (⟨S2000x496, .f32⟩ : BufTy).Contents (Elt Ideal))
  :: nullary main_cst_58 (constant (F := Ideal) S_ .f32 0x3F000000#32)
  :: unary main_cst_58 main_v171 (broadcastInDim S2000x496 ![] bcast_S_S2000x496 : (⟨S_, .f32⟩ : BufTy).Contents (Elt Ideal) → (⟨S2000x496, .f32⟩ : BufTy).Contents (Elt Ideal))
  :: binary main_v171 main_v170 main_v172 (mulf (F := Ideal) (φ := .f32) : (⟨S2000x496, .f32⟩ : BufTy).Contents (Elt Ideal) → (⟨S2000x496, .f32⟩ : BufTy).Contents (Elt Ideal) → (⟨S2000x496, .f32⟩ : BufTy).Contents (Elt Ideal))
  :: nullary main_cst_59 (constant (F := Ideal) S_ .f32 0x00000000#32)
  :: TRef.unary (.of main_cst_59 : TRef sig ⟨S_, .f32⟩) main_call6.v0 id
  :: TRef.unary main_call6.v0 main_call6.v1 (broadcastInDim S2000x496 ![] bcast_S_S2000x496)
  :: TRef.ternary (.of main_v163 : TRef sig ⟨S2000x496, .i1⟩) (.of main_v172 : TRef sig ⟨S2000x496, .f32⟩) main_call6.v1 main_call6.v2 select
  :: binary main_v161 main_v173 main_v174 (mulf (F := Ideal) (φ := .f32) : (⟨S2000x496, .f32⟩ : BufTy).Contents (Elt Ideal) → (⟨S2000x496, .f32⟩ : BufTy).Contents (Elt Ideal) → (⟨S2000x496, .f32⟩ : BufTy).Contents (Elt Ideal))
  :: unary main_v3 main_v175 (broadcastInDim S2000x496x43 ![0, 1, 2] bcast_S1x1x43_S2000x496x43_0_1_2 : (⟨S1x1x43, .f32⟩ : BufTy).Contents (Elt Ideal) → (⟨S2000x496x43, .f32⟩ : BufTy).Contents (Elt Ideal))
  :: binary main_v175 main_v127 main_v176 (mulf (F := Ideal) (φ := .f32) : (⟨S2000x496x43, .f32⟩ : BufTy).Contents (Elt Ideal) → (⟨S2000x496x43, .f32⟩ : BufTy).Contents (Elt Ideal) → (⟨S2000x496x43, .f32⟩ : BufTy).Contents (Elt Ideal))
  :: binary main_v176 main_v136 main_v177 (mulf (F := Ideal) (φ := .f32) : (⟨S2000x496x43, .f32⟩ : BufTy).Contents (Elt Ideal) → (⟨S2000x496x43, .f32⟩ : BufTy).Contents (Elt Ideal) → (⟨S2000x496x43, .f32⟩ : BufTy).Contents (Elt Ideal))
  :: [] )

set_option maxHeartbeats 40000000 in
/-- Statements 241 … 251: the product with the cutoffs and the pair mask, summed over pairs, and the 8 radial and 43 angular sums concatenated per atom. -/
abbrev ops4 : List (HloOp τ sig (Elt Ideal)) :=
  ( unary main_v174 main_v178 (broadcastInDim S2000x496x1 ![0, 1] bcast_S2000x496_S2000x496x1_0_1 : (⟨S2000x496, .f32⟩ : BufTy).Contents (Elt Ideal) → (⟨S2000x496x1, .f32⟩ : BufTy).Contents (Elt Ideal))
  :: unary main_v178 main_v179 (broadcastInDim S2000x496x43 ![0, 1, 2] bcast_S2000x496x1_S2000x496x43_0_1_2 : (⟨S2000x496x1, .f32⟩ : BufTy).Contents (Elt Ideal) → (⟨S2000x496x43, .f32⟩ : BufTy).Contents (Elt Ideal))
  :: binary main_v177 main_v179 main_v180 (mulf (F := Ideal) (φ := .f32) : (⟨S2000x496x43, .f32⟩ : BufTy).Contents (Elt Ideal) → (⟨S2000x496x43, .f32⟩ : BufTy).Contents (Elt Ideal) → (⟨S2000x496x43, .f32⟩ : BufTy).Contents (Elt Ideal))
  :: unary main_v106 main_v181 (broadcastInDim S2000x496x1 ![0, 1] bcast_S2000x496_S2000x496x1_0_1 : (⟨S2000x496, .i1⟩ : BufTy).Contents (Elt Ideal) → (⟨S2000x496x1, .i1⟩ : BufTy).Contents (Elt Ideal))
  :: unary main_v181 main_v182 (uitofp (F := Ideal) .f32 : (⟨S2000x496x1, .i1⟩ : BufTy).Contents (Elt Ideal) → (⟨S2000x496x1, .f32⟩ : BufTy).Contents (Elt Ideal))
  :: unary main_v182 main_v183 (broadcastInDim S2000x496x43 ![0, 1, 2] bcast_S2000x496x1_S2000x496x43_0_1_2 : (⟨S2000x496x1, .f32⟩ : BufTy).Contents (Elt Ideal) → (⟨S2000x496x43, .f32⟩ : BufTy).Contents (Elt Ideal))
  :: binary main_v180 main_v183 main_v184 (mulf (F := Ideal) (φ := .f32) : (⟨S2000x496x43, .f32⟩ : BufTy).Contents (Elt Ideal) → (⟨S2000x496x43, .f32⟩ : BufTy).Contents (Elt Ideal) → (⟨S2000x496x43, .f32⟩ : BufTy).Contents (Elt Ideal))
  :: nullary main_cst_60 (constant (F := Ideal) S_ .f32 0x00000000#32)
  :: binary main_v184 main_cst_60 main_v185 ((fun x v => Host.reduceAdd (F := Ideal) (φ := .f32) x v reducesTo_S2000x496x43_S2000x43_d1 h_S_) : (⟨S2000x496x43, .f32⟩ : BufTy).Contents (Elt Ideal) → (⟨S_, .f32⟩ : BufTy).Contents (Elt Ideal) → (⟨S2000x43, .f32⟩ : BufTy).Contents (Elt Ideal))
  :: binary main_v54 main_v185 main_v186 ((fun a b => concatenate S2000x51 1 [⟨S2000x8, a⟩, ⟨S2000x43, b⟩] concatenates_S2000x8_S2000x43_S2000x51_d1) : (⟨S2000x8, .f32⟩ : BufTy).Contents (Elt Ideal) → (⟨S2000x43, .f32⟩ : BufTy).Contents (Elt Ideal) → (⟨S2000x51, .f32⟩ : BufTy).Contents (Elt Ideal))
  :: [] )

/-- @main's operations in order: the five windows' lists one after the other. -/
abbrev ops : List (HloOp τ sig (Elt Ideal)) := ops0 ++ (ops1 ++ (ops2 ++ (ops3 ++ ops4)))

/-! ## Two facts about lists of operations -/

/-- A property of every element of two lists holds of every element of their concatenation. -/
theorem forall_append {α : Type} {p : α → Prop} {l₁ l₂ : List α} (h₁ : l₁.Forall p) (h₂ : l₂.Forall p) :
    (l₁ ++ l₂).Forall p := by
  rw [List.forall_iff_forall_mem] at h₁ h₂ ⊢
  intro x hx
  rcases List.mem_append.1 hx with h | h
  · exact h₁ x h
  · exact h₂ x h

/-- The buffers after two lines run one after the other: the second line's fold from the first line's. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-! ## Window by window

Each printed window is the line of its own operations: both sides unfold to the same chain of steps (a call's
body to its three, a window's last statement closing with the empty return), which is checked by computation. -/

/-- Window 0 of @main is its operations in a line. -/
theorem part0_eq (c : Dev nD) : main_part0 (F := Ideal) c = seq ops0 := by
  chain_rfl

/-- Each operation of window 0 touches TensorCore references only. -/
theorem ops0_sub : (ops0 : List (HloOp τ sig (Elt Ideal))).Forall fun op => op.bufs ⊆ tcRefs τ sig :=
  ⟨nullary_bufs_sub .., unary_bufs_sub .., nullary_bufs_sub .., nullary_bufs_sub .., nullary_bufs_sub .., nullary_bufs_sub ..,
   nullary_bufs_sub .., nullary_bufs_sub .., nullary_bufs_sub .., nullary_bufs_sub .., nullary_bufs_sub .., nullary_bufs_sub ..,
   nullary_bufs_sub .., unary_bufs_sub .., nullary_bufs_sub .., unary_bufs_sub .., nullary_bufs_sub .., nullary_bufs_sub ..,
   unary_bufs_sub .., reshape_bufs_sub .., nullary_bufs_sub .., unary_bufs_sub .., unary_bufs_sub .., unary_bufs_sub ..,
   unary_bufs_sub .., binary_bufs_sub .., nullary_bufs_sub .., unary_bufs_sub .., binary_bufs_sub .., nullary_bufs_sub ..,
   unary_bufs_sub .., binary_bufs_sub .., ternary_bufs_sub .., unary_bufs_sub .., binary_bufs_sub .., unary_bufs_sub ..,
   unary_bufs_sub .., binary_bufs_sub .., binary_bufs_sub .., nullary_bufs_sub .., binary_bufs_sub .., unary_bufs_sub ..,
   nullary_bufs_sub .., unary_bufs_sub .., binary_bufs_sub .., binary_bufs_sub .., nullary_bufs_sub .., unary_bufs_sub ..,
   binary_bufs_sub .., nullary_bufs_sub .., unary_bufs_sub .., binary_bufs_sub .., nullary_bufs_sub .., unary_bufs_sub ..,
   binary_bufs_sub .., unary_bufs_sub .., nullary_bufs_sub .., unary_bufs_sub .., binary_bufs_sub .., nullary_bufs_sub ..⟩

/-- Each operation of window 0 determines its results. -/
theorem ops0_fresh : (ops0 : List (HloOp τ sig (Elt Ideal))).Forall fun op => op.fresh = ∅ :=
  ⟨rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl⟩

/-- No operation of window 0 writes argument 0. -/
theorem arg0_0 (V : Valuation τ sig (Elt Ideal)) :
    after ops0 V (Proc.devRef .tc main_arg0) = V (Proc.devRef .tc main_arg0) := by
  after_results_simp

/-- No operation of window 0 writes argument 1. -/
theorem arg1_0 (V : Valuation τ sig (Elt Ideal)) :
    after ops0 V (Proc.devRef .tc main_arg1) = V (Proc.devRef .tc main_arg1) := by
  after_results_simp

/-- No operation of window 0 writes argument 2. -/
theorem arg2_0 (V : Valuation τ sig (Elt Ideal)) :
    after ops0 V (Proc.devRef .tc main_arg2) = V (Proc.devRef .tc main_arg2) := by
  after_results_simp

/-- Window 1 of @main is its operations in a line. -/
theorem part1_eq (c : Dev nD) : main_part1 (F := Ideal) c = seq ops1 := by
  chain_rfl

/-- Each operation of window 1 touches TensorCore references only. -/
theorem ops1_sub : (ops1 : List (HloOp τ sig (Elt Ideal))).Forall fun op => op.bufs ⊆ tcRefs τ sig :=
  ⟨unary_bufs_sub .., binary_bufs_sub .., nullary_bufs_sub .., unary_bufs_sub .., unary_bufs_sub .., ternary_bufs_sub ..,
   unary_bufs_sub .., unary_bufs_sub .., unary_bufs_sub .., binary_bufs_sub .., binary_bufs_sub .., unary_bufs_sub ..,
   binary_bufs_sub .., unary_bufs_sub .., unary_bufs_sub .., unary_bufs_sub .., binary_bufs_sub .., unary_bufs_sub ..,
   unary_bufs_sub .., unary_bufs_sub .., binary_bufs_sub .., nullary_bufs_sub .., binary_bufs_sub .., nullary_bufs_sub ..,
   unary_bufs_sub .., binary_bufs_sub .., ternary_bufs_sub .., unary_bufs_sub .., binary_bufs_sub .., nullary_bufs_sub ..,
   unary_bufs_sub .., binary_bufs_sub .., ternary_bufs_sub .., unary_bufs_sub .., binary_bufs_sub .., nullary_bufs_sub ..,
   unary_bufs_sub .., binary_bufs_sub .., ternary_bufs_sub .., unary_bufs_sub .., binary_bufs_sub .., nullary_bufs_sub ..,
   unary_bufs_sub .., binary_bufs_sub .., ternary_bufs_sub .., unary_bufs_sub .., binary_bufs_sub .., binary_bufs_sub ..,
   binary_bufs_sub .., nullary_bufs_sub .., binary_bufs_sub .., nullary_bufs_sub .., unary_bufs_sub .., binary_bufs_sub ..,
   nullary_bufs_sub .., unary_bufs_sub .., binary_bufs_sub .., nullary_bufs_sub .., unary_bufs_sub .., unary_bufs_sub ..,
   ternary_bufs_sub .., unary_bufs_sub .., nullary_bufs_sub .., unary_bufs_sub .., unary_bufs_sub .., ternary_bufs_sub ..⟩

/-- Each operation of window 1 determines its results. -/
theorem ops1_fresh : (ops1 : List (HloOp τ sig (Elt Ideal))).Forall fun op => op.fresh = ∅ :=
  ⟨rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl,
   rfl, rfl, rfl, rfl, rfl, rfl⟩

/-- No operation of window 1 writes argument 0. -/
theorem arg0_1 (V : Valuation τ sig (Elt Ideal)) :
    after ops1 V (Proc.devRef .tc main_arg0) = V (Proc.devRef .tc main_arg0) := by
  after_results_simp

/-- No operation of window 1 writes argument 1. -/
theorem arg1_1 (V : Valuation τ sig (Elt Ideal)) :
    after ops1 V (Proc.devRef .tc main_arg1) = V (Proc.devRef .tc main_arg1) := by
  after_results_simp

/-- No operation of window 1 writes argument 2. -/
theorem arg2_1 (V : Valuation τ sig (Elt Ideal)) :
    after ops1 V (Proc.devRef .tc main_arg2) = V (Proc.devRef .tc main_arg2) := by
  after_results_simp

/-- Window 2 of @main is its operations in a line. -/
theorem part2_eq (c : Dev nD) : main_part2 (F := Ideal) c = seq ops2 := by
  chain_rfl

/-- Each operation of window 2 touches TensorCore references only. -/
theorem ops2_sub : (ops2 : List (HloOp τ sig (Elt Ideal))).Forall fun op => op.bufs ⊆ tcRefs τ sig :=
  ⟨nullary_bufs_sub .., unary_bufs_sub .., binary_bufs_sub .., ternary_bufs_sub .., unary_bufs_sub .., binary_bufs_sub ..,
   nullary_bufs_sub .., unary_bufs_sub .., binary_bufs_sub .., ternary_bufs_sub .., unary_bufs_sub .., binary_bufs_sub ..,
   binary_bufs_sub .., nullary_bufs_sub .., unary_bufs_sub .., binary_bufs_sub .., ternary_bufs_sub .., unary_bufs_sub ..,
   binary_bufs_sub .., nullary_bufs_sub .., unary_bufs_sub .., binary_bufs_sub .., binary_bufs_sub .., nullary_bufs_sub ..,
   unary_bufs_sub .., binary_bufs_sub .., binary_bufs_sub .., binary_bufs_sub .., binary_bufs_sub .., binary_bufs_sub ..,
   binary_bufs_sub .., nullary_bufs_sub .., unary_bufs_sub .., binary_bufs_sub .., binary_bufs_sub .., binary_bufs_sub ..,
   unary_bufs_sub .., unary_bufs_sub .., unary_bufs_sub .., binary_bufs_sub .., nullary_bufs_sub .., unary_bufs_sub ..,
   binary_bufs_sub .., nullary_bufs_sub .., unary_bufs_sub .., binary_bufs_sub .., nullary_bufs_sub .., unary_bufs_sub ..,
   unary_bufs_sub .., ternary_bufs_sub .., unary_bufs_sub .., binary_bufs_sub .., unary_bufs_sub .., binary_bufs_sub ..,
   binary_bufs_sub .., binary_bufs_sub .., binary_bufs_sub .., binary_bufs_sub .., unary_bufs_sub .., unary_bufs_sub ..,
   unary_bufs_sub .., binary_bufs_sub ..⟩

/-- Each operation of window 2 determines its results. -/
theorem ops2_fresh : (ops2 : List (HloOp τ sig (Elt Ideal))).Forall fun op => op.fresh = ∅ :=
  ⟨rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl,
   rfl, rfl⟩

/-- No operation of window 2 writes argument 0. -/
theorem arg0_2 (V : Valuation τ sig (Elt Ideal)) :
    after ops2 V (Proc.devRef .tc main_arg0) = V (Proc.devRef .tc main_arg0) := by
  after_results_simp

/-- No operation of window 2 writes argument 1. -/
theorem arg1_2 (V : Valuation τ sig (Elt Ideal)) :
    after ops2 V (Proc.devRef .tc main_arg1) = V (Proc.devRef .tc main_arg1) := by
  after_results_simp

/-- No operation of window 2 writes argument 2. -/
theorem arg2_2 (V : Valuation τ sig (Elt Ideal)) :
    after ops2 V (Proc.devRef .tc main_arg2) = V (Proc.devRef .tc main_arg2) := by
  after_results_simp

/-- Window 3 of @main is its operations in a line. -/
theorem part3_eq (c : Dev nD) : main_part3 (F := Ideal) c = seq ops3 := by
  chain_rfl

/-- Each operation of window 3 touches TensorCore references only. -/
theorem ops3_sub : (ops3 : List (HloOp τ sig (Elt Ideal))).Forall fun op => op.bufs ⊆ tcRefs τ sig :=
  ⟨unary_bufs_sub .., nullary_bufs_sub .., unary_bufs_sub .., binary_bufs_sub .., nullary_bufs_sub .., unary_bufs_sub ..,
   binary_bufs_sub .., nullary_bufs_sub .., unary_bufs_sub .., binary_bufs_sub .., unary_bufs_sub .., nullary_bufs_sub ..,
   unary_bufs_sub .., binary_bufs_sub .., nullary_bufs_sub .., unary_bufs_sub .., binary_bufs_sub .., nullary_bufs_sub ..,
   unary_bufs_sub .., unary_bufs_sub .., ternary_bufs_sub .., nullary_bufs_sub .., unary_bufs_sub .., binary_bufs_sub ..,
   nullary_bufs_sub .., unary_bufs_sub .., binary_bufs_sub .., nullary_bufs_sub .., unary_bufs_sub .., binary_bufs_sub ..,
   unary_bufs_sub .., nullary_bufs_sub .., unary_bufs_sub .., binary_bufs_sub .., nullary_bufs_sub .., unary_bufs_sub ..,
   binary_bufs_sub .., nullary_bufs_sub .., unary_bufs_sub .., unary_bufs_sub .., ternary_bufs_sub .., binary_bufs_sub ..,
   nullary_bufs_sub .., unary_bufs_sub .., binary_bufs_sub .., nullary_bufs_sub .., unary_bufs_sub .., binary_bufs_sub ..,
   nullary_bufs_sub .., unary_bufs_sub .., binary_bufs_sub .., unary_bufs_sub .., nullary_bufs_sub .., unary_bufs_sub ..,
   binary_bufs_sub .., nullary_bufs_sub .., unary_bufs_sub .., binary_bufs_sub .., nullary_bufs_sub .., unary_bufs_sub ..,
   unary_bufs_sub .., ternary_bufs_sub .., binary_bufs_sub .., unary_bufs_sub .., binary_bufs_sub .., binary_bufs_sub ..⟩

/-- Each operation of window 3 determines its results. -/
theorem ops3_fresh : (ops3 : List (HloOp τ sig (Elt Ideal))).Forall fun op => op.fresh = ∅ :=
  ⟨rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl,
   rfl, rfl, rfl, rfl, rfl, rfl⟩

/-- No operation of window 3 writes argument 0. -/
theorem arg0_3 (V : Valuation τ sig (Elt Ideal)) :
    after ops3 V (Proc.devRef .tc main_arg0) = V (Proc.devRef .tc main_arg0) := by
  after_results_simp

/-- No operation of window 3 writes argument 1. -/
theorem arg1_3 (V : Valuation τ sig (Elt Ideal)) :
    after ops3 V (Proc.devRef .tc main_arg1) = V (Proc.devRef .tc main_arg1) := by
  after_results_simp

/-- No operation of window 3 writes argument 2. -/
theorem arg2_3 (V : Valuation τ sig (Elt Ideal)) :
    after ops3 V (Proc.devRef .tc main_arg2) = V (Proc.devRef .tc main_arg2) := by
  after_results_simp

/-- Window 4 of @main is its operations in a line. -/
theorem part4_eq (c : Dev nD) : main_part4 (F := Ideal) c = seq ops4 := by
  chain_rfl

/-- Each operation of window 4 touches TensorCore references only. -/
theorem ops4_sub : (ops4 : List (HloOp τ sig (Elt Ideal))).Forall fun op => op.bufs ⊆ tcRefs τ sig :=
  ⟨unary_bufs_sub .., unary_bufs_sub .., binary_bufs_sub .., unary_bufs_sub .., unary_bufs_sub .., unary_bufs_sub ..,
   binary_bufs_sub .., nullary_bufs_sub .., binary_bufs_sub .., binary_bufs_sub ..⟩

/-- Each operation of window 4 determines its results. -/
theorem ops4_fresh : (ops4 : List (HloOp τ sig (Elt Ideal))).Forall fun op => op.fresh = ∅ :=
  ⟨rfl, rfl, rfl, rfl, rfl, rfl, rfl, rfl, rfl, rfl⟩

/-- No operation of window 4 writes argument 0. -/
theorem arg0_4 (V : Valuation τ sig (Elt Ideal)) :
    after ops4 V (Proc.devRef .tc main_arg0) = V (Proc.devRef .tc main_arg0) := by
  after_results_simp

/-- No operation of window 4 writes argument 1. -/
theorem arg1_4 (V : Valuation τ sig (Elt Ideal)) :
    after ops4 V (Proc.devRef .tc main_arg1) = V (Proc.devRef .tc main_arg1) := by
  after_results_simp

/-- No operation of window 4 writes argument 2. -/
theorem arg2_4 (V : Valuation τ sig (Elt Ideal)) :
    after ops4 V (Proc.devRef .tc main_arg2) = V (Proc.devRef .tc main_arg2) := by
  after_results_simp

/-! ## The whole of @main -/

/-- @main is the straight line of its operations: its five windows in order are the five lists in order. -/
theorem main_eq (c : Dev nD) : main (F := Ideal) c = seq ops := by
  show (main_part0 (F := Ideal) c >>= fun _ => main_part1 (F := Ideal) c >>= fun _ => main_part2 (F := Ideal) c >>= fun _ =>
      main_part3 (F := Ideal) c >>= fun _ => main_part4 (F := Ideal) c)
    = seq (ops0 ++ (ops1 ++ (ops2 ++ (ops3 ++ ops4))))
  rw [seq_append, seq_append, seq_append, seq_append, part0_eq, part1_eq, part2_eq, part3_eq, part4_eq]

/-- Every operation touches TensorCore references only. -/
theorem ops_sub : (ops : List (HloOp τ sig (Elt Ideal))).Forall fun op => op.bufs ⊆ tcRefs τ sig :=
  forall_append ops0_sub (forall_append ops1_sub (forall_append ops2_sub (forall_append ops3_sub ops4_sub)))

/-- Every operation determines its results. -/
theorem ops_fresh : (ops : List (HloOp τ sig (Elt Ideal))).Forall fun op => op.fresh = ∅ :=
  forall_append ops0_fresh (forall_append ops1_fresh (forall_append ops2_fresh (forall_append ops3_fresh ops4_fresh)))

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- From any memory with zero counters, every weakly fair execution of @main terminates, and every buffer of
    every device ends at the fold of the operations' results over that device's launch contents. -/
theorem run_after (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ
    (fun _ => List.forall_iff_forall_mem.1 ops_fresh)

/-! ## The arguments are read, never written -/

/-- Argument 0 holds after the line what it held before: no window writes it. -/
theorem after_arg0 (V : Valuation τ sig (Elt Ideal)) :
    after ops V (Proc.devRef .tc main_arg0) = V (Proc.devRef .tc main_arg0) := by
  show after (ops0 ++ (ops1 ++ (ops2 ++ (ops3 ++ ops4)))) V _ = _
  rw [after_append, after_append, after_append, after_append, arg0_4, arg0_3, arg0_2, arg0_1, arg0_0]

/-- Argument 1 holds after the line what it held before: no window writes it. -/
theorem after_arg1 (V : Valuation τ sig (Elt Ideal)) :
    after ops V (Proc.devRef .tc main_arg1) = V (Proc.devRef .tc main_arg1) := by
  show after (ops0 ++ (ops1 ++ (ops2 ++ (ops3 ++ ops4)))) V _ = _
  rw [after_append, after_append, after_append, after_append, arg1_4, arg1_3, arg1_2, arg1_1, arg1_0]

/-- Argument 2 holds after the line what it held before: no window writes it. -/
theorem after_arg2 (V : Valuation τ sig (Elt Ideal)) :
    after ops V (Proc.devRef .tc main_arg2) = V (Proc.devRef .tc main_arg2) := by
  show after (ops0 ++ (ops1 ++ (ops2 ++ (ops3 ++ ops4)))) V _ = _
  rw [after_append, after_append, after_append, after_append, arg2_4, arg2_3, arg2_2, arg2_1, arg2_0]

end Cert.ReferenceIdeal.Run

end
-- ==== Proof.RefTerm.lean ====
/-
  What the reference's result holds, as one explicit term of the arguments, and that term read at an index.

  The reference builds, per atom, 8 radial sums over the 32 neighbour slots and 43 angular sums over the 496
  neighbour pairs, as reductions of rank-3 arrays [atom, slot, feature] and [atom, pair, feature] whose entries
  are products of broadcast per-slot (per-pair) arrays and broadcast parameter tables, and lays the two blocks
  side by side.  `d2`, `d4` and `out` spell those arrays operation by operation; the lemmas below read each
  broadcast at explicit coordinates, so that an entry of the rank-3 array is the scalar summand `g2R` (`g4R`)
  of the per-slot (per-pair) values, and the result is `outR`.
-/
import proofs.«167439_j40243843564182_1_alg».proof.Proof.Stages
import proofs.«167439_j40243843564182_1_alg».proof.Proof.SpecArr
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Term

open Cert.ReferenceIdeal Cert.ReferenceIdeal.Facts₀ Idealize.ShloMosaic Idealize.ShloMosaic.ValueIdx

section Bcast
variable {α : Type}

/-- A rank-zero operand broadcast anywhere reads its one element. -/
theorem bc_scalar {t : Shape} (dims : Fin 0 → Fin t.rank) (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- [n0, n1] → [n0, n1, 1] along the two leading axes. -/
theorem bc_unit {n0 n1 : Nat} (h : (⟨2, ![n0, n1]⟩ : Shape).BroadcastsInDim ⟨3, ![n0, n1, 1]⟩ ![0, 1])
    (x : (⟨2, ![n0, n1]⟩ : Shape).Idx → α) (a : Fin n0) (k : Fin n1) (c : Fin 1) :
    broadcastInDim ⟨3, ![n0, n1, 1]⟩ ![0, 1] h x (ix3 a k c) = x (ix2 a k) := by
  refine broadcastInDim_apply _ h x _ (ix2 a k) (fun d => ?_)
  fin_cases d
  · show a.val = if n0 = 1 then 0 else a.val
    split_ifs with h1 <;> omega
  · show k.val = if n1 = 1 then 0 else k.val
    split_ifs with h1 <;> omega

/-- [n0, n1, 1] → [n0, n1, n2] axis by axis. -/
theorem bc_last {n0 n1 n2 : Nat} (h : (⟨3, ![n0, n1, 1]⟩ : Shape).BroadcastsInDim ⟨3, ![n0, n1, n2]⟩ ![0, 1, 2])
    (x : (⟨3, ![n0, n1, 1]⟩ : Shape).Idx → α) (a : Fin n0) (k : Fin n1) (f : Fin n2) :
    broadcastInDim ⟨3, ![n0, n1, n2]⟩ ![0, 1, 2] h x (ix3 a k f) = x (ix3 a k 0) := by
  refine broadcastInDim_apply _ h x _ (ix3 a k 0) (fun d => ?_)
  fin_cases d
  · show a.val = if n0 = 1 then 0 else a.val
    split_ifs with h1 <;> omega
  · show k.val = if n1 = 1 then 0 else k.val
    split_ifs with h1 <;> omega
  · show 0 = if 1 = 1 then 0 else f.val
    rfl

/-- [1, 1, n] → [n0, n1, n] axis by axis. -/
theorem bc_row {n0 n1 n : Nat} (h : (⟨3, ![1, 1, n]⟩ : Shape).BroadcastsInDim ⟨3, ![n0, n1, n]⟩ ![0, 1, 2])
    (x : (⟨3, ![1, 1, n]⟩ : Shape).Idx → α) (a : Fin n0) (k : Fin n1) (f : Fin n) :
    broadcastInDim ⟨3, ![n0, n1, n]⟩ ![0, 1, 2] h x (ix3 a k f) = x (ix3 0 0 f) := by
  refine broadcastInDim_apply _ h x _ (ix3 0 0 f) (fun d => ?_)
  fin_cases d
  · rfl
  · rfl
  · show f.val = if n = 1 then 0 else f.val
    split_ifs with h1 <;> omega

/-- [n] → [1, 1, n] onto the last axis. -/
theorem bc_vec {n : Nat} (h : (⟨1, ![n]⟩ : Shape).BroadcastsInDim ⟨3, ![1, 1, n]⟩ ![2])
    (x : (⟨1, ![n]⟩ : Shape).Idx → α) (f : Fin n) :
    broadcastInDim ⟨3, ![1, 1, n]⟩ ![2] h x (ix3 0 0 f) = x (ix1 f) := by
  refine broadcastInDim_apply _ h x _ (ix1 f) (fun d => ?_)
  fin_cases d
  show f.val = if n = 1 then 0 else f.val
  split_ifs with h1 <;> omega

end Bcast

theorem rm_vec {n : Nat} (f : Fin n) : (⟨1, ![n]⟩ : Shape).rowMajor (ix1 f) = Fin.cast (by simp [Shape.numel]) f := by
  apply Fin.ext
  rw [Shape.rowMajor_val_one]; rfl

/-! ## The cutoff over an array, and the radial part -/

/-- The reference's cutoff `0.5·(cos(π x / 8) + 1)` below 8, else 0, over an array of any shape. -/
def fcA {s : Shape} (hb : S_.BroadcastsInDim s (![] : Fin 0 → Fin s.rank)) (x : FVec Ideal s .f32) : FVec Ideal s .f32 :=
  select (cmpf .olt x (broadcastInDim s ![] hb (constant S_ .f32 0x41000000#32)))
    (mulf (broadcastInDim s ![] hb (constant S_ .f32 0x3F000000#32))
      (addf (Host.cos (Host.divf (mulf (broadcastInDim s ![] hb (constant S_ .f32 0x40490FDB#32)) x) (broadcastInDim s ![] hb (constant S_ .f32 0x41000000#32))))
        (broadcastInDim s ![] hb (constant S_ .f32 0x3F800000#32))))
    (broadcastInDim s ![] hb (constant S_ .f32 0x00000000#32))

theorem fcA_apply {s : Shape} (hb : S_.BroadcastsInDim s (![] : Fin 0 → Fin s.rank)) (x : FVec Ideal s .f32) (j : s.Idx) :
    fcA hb x j = Spec.fcR (x j) := by
  simp only [fcA, select, cmpf, mulf, addf, Host.cos, Host.divf, bc_scalar]
  rfl

/-- A per-slot array repeated along a new last axis of the 8 radial features. -/
def up8 {α : Type} (x : S2000x32.Idx → α) : S2000x32x8.Idx → α :=
  broadcastInDim S2000x32x8 ![0, 1, 2] bcast_S2000x32x1_S2000x32x8_0_1_2 (broadcastInDim S2000x32x1 ![0, 1] bcast_S2000x32_S2000x32x1_0_1 x)

theorem up8_apply {α : Type} (x : S2000x32.Idx → α) (a : Fin 2000) (k : Fin 32) (f : Fin 8) : up8 x (ix3 a k f) = x (ix2 a k) := by
  unfold up8
  rw [bc_last, bc_unit]

/-- The radial summands, [atom, slot, feature]. -/
def s2 (R : FVec Ideal S2000x32 .f32) (M : IVec S2000x32 1) : FVec Ideal S2000x32x8 .f32 :=
  mulf
    (mulf
      (Host.exp (mulf (broadcastInDim S2000x32x8 ![0, 1, 2] bcast_S1x1x8_S2000x32x8_0_1_2 (fun i => FloatOps.ofBits .f32 (lit0 (S1x1x8.rowMajor i))))
        (mulf
          (subf (up8 R) (broadcastInDim S2000x32x8 ![0, 1, 2] bcast_S1x1x8_S2000x32x8_0_1_2 (broadcastInDim S1x1x8 ![2] bcast_S8_S1x1x8_2 (constant S8 .f32 0x00000000#32))))
          (subf (up8 R) (broadcastInDim S2000x32x8 ![0, 1, 2] bcast_S1x1x8_S2000x32x8_0_1_2 (broadcastInDim S1x1x8 ![2] bcast_S8_S1x1x8_2 (constant S8 .f32 0x00000000#32)))))))
      (up8 (fcA bcast_S_S2000x32 R)))
    (broadcastInDim S2000x32x8 ![0, 1, 2] bcast_S2000x32x1_S2000x32x8_0_1_2 (uitofp .f32 (broadcastInDim S2000x32x1 ![0, 1] bcast_S2000x32_S2000x32x1_0_1 M)))

/-- The reference's 8 radial descriptors, [atom, feature]. -/
def d2 (R : FVec Ideal S2000x32 .f32) (M : IVec S2000x32 1) : FVec Ideal S2000x8 .f32 :=
  Host.reduceAdd (s2 R M) (constant S_ .f32 0x00000000#32) reducesTo_S2000x32x8_S2000x8_d1 h_S_

theorem lit0_eq : lit0 = Spec.ne2W := by
  funext i; fin_cases i <;> rfl

theorem rm8 (f : Fin 8) : S1x1x8.rowMajor (ix3 0 0 f) = f := by
  apply Fin.ext
  rw [Shape.rowMajor_val_three]; simp

/-- A table of 8 words along the feature axis, read at a feature. -/
theorem tab8_apply (lit : Fin 8 → BitVec 32) (a : Fin 2000) (k : Fin 32) (f : Fin 8) :
    broadcastInDim S2000x32x8 ![0, 1, 2] bcast_S1x1x8_S2000x32x8_0_1_2 (fun i => FloatOps.ofBits (F := Ideal) .f32 (lit (S1x1x8.rowMajor i))) (ix3 a k f) = Spec.w (lit f) := by
  rw [bc_row]
  show FloatOps.ofBits (F := Ideal) .f32 (lit (S1x1x8.rowMajor (ix3 0 0 f))) = _
  rw [rm8]

theorem zero8_apply (a : Fin 2000) (k : Fin 32) (f : Fin 8) :
    broadcastInDim S2000x32x8 ![0, 1, 2] bcast_S1x1x8_S2000x32x8_0_1_2 (broadcastInDim S1x1x8 ![2] bcast_S8_S1x1x8_2 (constant (F := Ideal) S8 .f32 0x00000000#32)) (ix3 a k f)
      = Spec.w 0x00000000#32 := by
  rw [bc_row, bc_vec]; rfl

theorem s2_apply (R : FVec Ideal S2000x32 .f32) (M : IVec S2000x32 1) (a : Fin 2000) (k : Fin 32) (f : Fin 8) :
    s2 R M (ix3 a k f) = Spec.g2R (Spec.w (Spec.ne2W f)) (R (ix2 a k)) (M (ix2 a k)) := by
  simp only [s2, mulf, subf, Host.exp, up8_apply, fcA_apply]
  rw [tab8_apply, zero8_apply, bc_last]
  simp only [uitofp]
  rw [bc_unit, lit0_eq]
  rfl

/-- The 8 radial descriptors of an atom are the sums over the 32 slots. -/
theorem d2_apply (R : FVec Ideal S2000x32 .f32) (M : IVec S2000x32 1) (a : Fin 2000) (f : Fin 8) :
    d2 R M (ix2 a f) = ∑ k : Fin 32, Spec.g2R (Spec.w (Spec.ne2W f)) (R (ix2 a k)) (M (ix2 a k)) := by
  unfold d2 Host.reduceAdd
  rw [Ideal.hostReduceAdd_def, Ideal.hostReduceAdd_single reducesTo_S2000x32x8_S2000x8_d1 (by decide : S2000x32x8.Reduces [1] S2000x8)]
  rw [show (constant (F := Ideal) S_ .f32 0x00000000#32) (Shape.Idx.first h_S_) = 0 from Ideal.ofBits_zero_f32, zero_add]
  refine Finset.sum_congr rfl (fun k _ => ?_)
  rw [← s2_apply R M a k f]
  congr 1
  funext d; fin_cases d <;> rfl

/-! ## The angular part -/

/-- A per-pair array repeated along a new last axis of the 43 angular features. -/
def up43 {α : Type} (x : S2000x496.Idx → α) : S2000x496x43.Idx → α :=
  broadcastInDim S2000x496x43 ![0, 1, 2] bcast_S2000x496x1_S2000x496x43_0_1_2 (broadcastInDim S2000x496x1 ![0, 1] bcast_S2000x496_S2000x496x1_0_1 x)

theorem up43_apply {α : Type} (x : S2000x496.Idx → α) (a : Fin 2000) (p : Fin 496) (f : Fin 43) : up43 x (ix3 a p f) = x (ix2 a p) := by
  unfold up43
  rw [bc_last, bc_unit]

/-- A table of 43 words, given as a vector, spread along the feature axis. -/
def tab43 (lit : Fin 43 → BitVec 32) : FVec Ideal S2000x496x43 .f32 :=
  broadcastInDim S2000x496x43 ![0, 1, 2] bcast_S1x1x43_S2000x496x43_0_1_2
    (broadcastInDim S1x1x43 ![2] bcast_S43_S1x1x43_2 (fun i => FloatOps.ofBits .f32 (lit (S43.rowMajor i))))

theorem rm43 (f : Fin 43) : S43.rowMajor (ix1 f) = f := by
  apply Fin.ext
  rw [Shape.rowMajor_val_one]

theorem rm43' (f : Fin 43) : S1x1x43.rowMajor (ix3 0 0 f) = f := by
  apply Fin.ext
  rw [Shape.rowMajor_val_three]; simp

theorem tab43_apply (lit : Fin 43 → BitVec 32) (a : Fin 2000) (p : Fin 496) (f : Fin 43) : tab43 lit (ix3 a p f) = Spec.w (lit f) := by
  unfold tab43
  rw [bc_row, bc_vec]
  show FloatOps.ofBits (F := Ideal) .f32 (lit (S43.rowMajor (ix1 f))) = _
  rw [rm43]

/-- The same for a table given as a [1, 1, 43] array. -/
theorem tab43'_apply (lit : Fin 43 → BitVec 32) (a : Fin 2000) (p : Fin 496) (f : Fin 43) :
    broadcastInDim S2000x496x43 ![0, 1, 2] bcast_S1x1x43_S2000x496x43_0_1_2 (fun i => FloatOps.ofBits (F := Ideal) .f32 (lit (S1x1x43.rowMajor i))) (ix3 a p f) = Spec.w (lit f) := by
  rw [bc_row]
  show FloatOps.ofBits (F := Ideal) .f32 (lit (S1x1x43.rowMajor (ix3 0 0 f))) = _
  rw [rm43']

theorem rjkRarr_apply (x : FVec Ideal S2000x496 .f32) (j : S2000x496.Idx) : Stages.rjkRarr x j = Spec.rjkR (x j) := by
  simp only [Stages.rjkRarr, select, cmpf, Host.sqrt, bc_scalar]
  rfl

/-- The cosine of the angle at the centre atom, [atom, pair]. -/
def cosA (RIJ RIK RJK2 : FVec Ideal S2000x496 .f32) : FVec Ideal S2000x496 .f32 :=
  Host.divf (subf (addf (mulf RIJ RIJ) (mulf RIK RIK)) RJK2)
    (mulf (mulf (broadcastInDim S2000x496 ![] bcast_S_S2000x496 (constant S_ .f32 0x40000000#32)) RIJ) RIK)

theorem cosA_apply (RIJ RIK RJK2 : FVec Ideal S2000x496 .f32) (j : S2000x496.Idx) :
    cosA RIJ RIK RJK2 j = Spec.cosR (RIJ j) (RIK j) (RJK2 j) := by
  simp only [cosA, Host.divf, subf, addf, mulf, bc_scalar]
  rfl

/-- The sum of the three squared distances, [atom, pair]. -/
def ssumA (RIJ RIK RJK2 : FVec Ideal S2000x496 .f32) : FVec Ideal S2000x496 .f32 :=
  addf (addf (mulf RIJ RIJ) (mulf RIK RIK)) RJK2

theorem ssumA_apply (RIJ RIK RJK2 : FVec Ideal S2000x496 .f32) (j : S2000x496.Idx) :
    ssumA RIJ RIK RJK2 j = Spec.ssumK (RIJ j) (RIK j) (RJK2 j) := rfl

/-- The product of the three cutoffs, [atom, pair]. -/
def fcprodA (RIJ RIK RJK2 : FVec Ideal S2000x496 .f32) : FVec Ideal S2000x496 .f32 :=
  mulf (mulf (fcA bcast_S_S2000x496 RIJ) (fcA bcast_S_S2000x496 RIK)) (fcA bcast_S_S2000x496 (Stages.rjkRarr RJK2))

theorem fcprodA_apply (RIJ RIK RJK2 : FVec Ideal S2000x496 .f32) (j : S2000x496.Idx) :
    fcprodA RIJ RIK RJK2 j = Spec.fcprodR (RIJ j) (RIK j) (RJK2 j) := by
  simp only [fcprodA, mulf, fcA_apply, rjkRarr_apply]
  rfl

/-- `1 + lambda·cos`, [atom, pair, feature]. -/
def bA (RIJ RIK RJK2 : FVec Ideal S2000x496 .f32) : FVec Ideal S2000x496x43 .f32 :=
  addf (broadcastInDim S2000x496x43 ![] bcast_S_S2000x496x43 (constant S_ .f32 0x3F800000#32)) (mulf (tab43 lit3) (up43 (cosA RIJ RIK RJK2)))

/-- Its positivity bit. -/
def posA (RIJ RIK RJK2 : FVec Ideal S2000x496 .f32) : IVec S2000x496x43 1 :=
  cmpf .ogt (bA RIJ RIK RJK2) (broadcastInDim S2000x496x43 ![] bcast_S_S2000x496x43 (constant S_ .f32 0x00000000#32))

/-- The guarded float power times the bit. -/
def ctA (RIJ RIK RJK2 : FVec Ideal S2000x496 .f32) : FVec Ideal S2000x496x43 .f32 :=
  mulf (Host.powf (select (posA RIJ RIK RJK2) (bA RIJ RIK RJK2) (broadcastInDim S2000x496x43 ![] bcast_S_S2000x496x43 (constant S_ .f32 0x3F800000#32))) (tab43 lit4))
    (uitofp .f32 (posA RIJ RIK RJK2))

/-- The Gaussian factor. -/
def expA (RIJ RIK RJK2 : FVec Ideal S2000x496 .f32) : FVec Ideal S2000x496x43 .f32 :=
  Host.exp (mulf (broadcastInDim S2000x496x43 ![0, 1, 2] bcast_S1x1x43_S2000x496x43_0_1_2 (fun i => FloatOps.ofBits .f32 (lit5 (S1x1x43.rowMajor i)))) (up43 (ssumA RIJ RIK RJK2)))

/-- The angular summands, [atom, pair, feature]. -/
def s4 (RIJ RIK RJK2 : FVec Ideal S2000x496 .f32) (TRI : IVec S2000x496 1) : FVec Ideal S2000x496x43 .f32 :=
  mulf (mulf (mulf (mulf (tab43 lit6) (ctA RIJ RIK RJK2)) (expA RIJ RIK RJK2)) (up43 (fcprodA RIJ RIK RJK2)))
    (broadcastInDim S2000x496x43 ![0, 1, 2] bcast_S2000x496x1_S2000x496x43_0_1_2 (uitofp .f32 (broadcastInDim S2000x496x1 ![0, 1] bcast_S2000x496_S2000x496x1_0_1 TRI)))

/-- The reference's 43 angular descriptors, [atom, feature]. -/
def d4 (RIJ RIK RJK2 : FVec Ideal S2000x496 .f32) (TRI : IVec S2000x496 1) : FVec Ideal S2000x43 .f32 :=
  Host.reduceAdd (s4 RIJ RIK RJK2 TRI) (constant S_ .f32 0x00000000#32) reducesTo_S2000x496x43_S2000x43_d1 h_S_

theorem lit3_eq : lit3 = Spec.lamW := by funext i; fin_cases i <;> rfl
theorem lit4_eq : lit4 = Spec.zetaW := by funext i; fin_cases i <;> rfl
theorem lit5_eq : lit5 = Spec.ne4W := by funext i; fin_cases i <;> rfl
theorem lit6_eq : lit6 = Spec.coefW := by funext i; fin_cases i <;> rfl

theorem bA_apply (RIJ RIK RJK2 : FVec Ideal S2000x496 .f32) (a : Fin 2000) (p : Fin 496) (f : Fin 43) :
    bA RIJ RIK RJK2 (ix3 a p f)
      = FloatOps.addf (Spec.w 0x3F800000#32) (FloatOps.mulf (Spec.w (Spec.lamW f)) (Spec.cosR (RIJ (ix2 a p)) (RIK (ix2 a p)) (RJK2 (ix2 a p)))) := by
  simp only [bA, addf, mulf, bc_scalar, tab43_apply, up43_apply, cosA_apply, lit3_eq]
  rfl

theorem s4_apply (RIJ RIK RJK2 : FVec Ideal S2000x496 .f32) (TRI : IVec S2000x496 1) (a : Fin 2000) (p : Fin 496) (f : Fin 43) :
    s4 RIJ RIK RJK2 TRI (ix3 a p f)
      = Spec.g4R (Spec.w (Spec.lamW f)) (Spec.w (Spec.zetaW f)) (Spec.w (Spec.ne4W f)) (Spec.w (Spec.coefW f))
          (RIJ (ix2 a p)) (RIK (ix2 a p)) (RJK2 (ix2 a p)) (TRI (ix2 a p)) := by
  simp only [s4, ctA, expA, posA, mulf, select, cmpf, Host.powf, Host.exp, uitofp, bc_scalar, tab43_apply, up43_apply, bA_apply,
    ssumA_apply, fcprodA_apply, lit4_eq, lit6_eq]
  rw [tab43'_apply, bc_last]
  simp only [uitofp]
  rw [bc_unit, lit5_eq]
  rfl

/-- The 43 angular descriptors of an atom are the sums over the 496 pairs. -/
theorem d4_apply (RIJ RIK RJK2 : FVec Ideal S2000x496 .f32) (TRI : IVec S2000x496 1) (a : Fin 2000) (f : Fin 43) :
    d4 RIJ RIK RJK2 TRI (ix2 a f)
      = ∑ p : Fin 496, Spec.g4R (Spec.w (Spec.lamW f)) (Spec.w (Spec.zetaW f)) (Spec.w (Spec.ne4W f)) (Spec.w (Spec.coefW f))
          (RIJ (ix2 a p)) (RIK (ix2 a p)) (RJK2 (ix2 a p)) (TRI (ix2 a p)) := by
  unfold d4 Host.reduceAdd
  rw [Ideal.hostReduceAdd_def, Ideal.hostReduceAdd_single reducesTo_S2000x496x43_S2000x43_d1 (by decide : S2000x496x43.Reduces [1] S2000x43)]
  rw [show (constant (F := Ideal) S_ .f32 0x00000000#32) (Shape.Idx.first h_S_) = 0 from Ideal.ofBits_zero_f32, zero_add]
  refine Finset.sum_congr rfl (fun p _ => ?_)
  rw [← s4_apply RIJ RIK RJK2 TRI a p f]
  congr 1
  funext d; fin_cases d <;> rfl

/-! ## The result: the two parts side by side -/

/-- Over any per-slot and per-pair arrays, the radial and angular parts side by side are the reference's descriptors. -/
theorem concat_eq_spec (R : FVec Ideal S2000x32 .f32) (M : IVec S2000x32 1) (RIJ RIK RJK2 : FVec Ideal S2000x496 .f32) (TRI : IVec S2000x496 1) :
    concatenate S2000x51 1 [⟨S2000x8, d2 R M⟩, ⟨S2000x43, d4 RIJ RIK RJK2 TRI⟩] concatenates_S2000x8_S2000x43_S2000x51_d1
      = Spec.outR R M RIJ RIK RJK2 TRI := by
  funext j
  by_cases h : (j 1).val < 8
  · rw [concatenate_pair_apply_left (1 : Fin S2000x51.rank) (d2 R M) (d4 RIJ RIK RJK2 TRI) concatenates_S2000x8_S2000x43_S2000x51_d1 j rfl
      (ix2 (j 0) ⟨(j 1).val, h⟩) (fun b => by fin_cases b <;> rfl)]
    refine (d2_apply R M (j 0) ⟨(j 1).val, h⟩).trans ?_
    unfold Spec.outR
    rw [dif_pos h]
  · have h43 : (j 1).val - 8 < 43 := by have := (j 1).isLt; simp at this; omega
    rw [concatenate_pair_apply_right (1 : Fin S2000x51.rank) (d2 R M) (d4 RIJ RIK RJK2 TRI) concatenates_S2000x8_S2000x43_S2000x51_d1 j rfl rfl
      (ix2 (j 0) ⟨(j 1).val - 8, h43⟩)
      (fun b hb => by
        fin_cases b
        · rfl
        · exact absurd rfl hb)
      (by show (j 1).val - 8 + 8 = (j 1).val; omega)]
    refine (d4_apply RIJ RIK RJK2 TRI (j 0) ⟨(j 1).val - 8, h43⟩).trans ?_
    unfold Spec.outR
    rw [dif_neg h]

/-- The reference's result as a term of the arguments: the radial part over the neighbour distances and the
    neighbour mask, the angular part over the distances read along the two pair tables, the squared pair
    distance and the pair mask. -/
def out (a0 : FVec Ideal S2000x3 .f32) (a1 : IVec S2000 32) (a2 : IVec S64000 32) : FVec Ideal S2000x51 .f32 :=
  concatenate S2000x51 1
    [⟨S2000x8, d2 (Stages.r a0 a2) (Stages.maskj a0 a1 a2)⟩,
     ⟨S2000x43, d4 (Stages.alongF lit1 (Stages.r a0 a2)) (Stages.alongF lit2 (Stages.r a0 a2)) (Stages.rjk2 lit1 lit2 a0 a2) (Stages.triR lit1 lit2 a0 a1 a2)⟩]
    concatenates_S2000x8_S2000x43_S2000x51_d1

theorem out_eq_spec (a0 : FVec Ideal S2000x3 .f32) (a1 : IVec S2000 32) (a2 : IVec S64000 32) :
    out a0 a1 a2 = Spec.outR (Stages.r a0 a2) (Stages.maskj a0 a1 a2) (Stages.alongF lit1 (Stages.r a0 a2)) (Stages.alongF lit2 (Stages.r a0 a2))
      (Stages.rjk2 lit1 lit2 a0 a2) (Stages.triR lit1 lit2 a0 a1 a2) :=
  concat_eq_spec _ _ _ _ _ _

end Cert.ReferenceIdeal.Term

end
-- ==== Proof.RefLink.lean ====
/-
  The reference's run ends with its result buffer at the explicit term `Term.out` of the three arguments.

  The run's fold over the 251 statements' operations leaves, at the result buffer, the composition of the
  operations that feed it.  That composition and `Term.out` are the same operations in the same order, so the
  two agree by unfolding the definitions on the right.
-/
import proofs.«167439_j40243843564182_1_alg».proof.Proof.RefTerm
import proofs.«167439_j40243843564182_1_alg».proof.Proof.RefRun

noncomputable section

namespace Cert.ReferenceIdeal.Link

open Cert.ReferenceIdeal Cert.ReferenceIdeal.Facts₀ Idealize.ShloMosaic Idealize.ShloMosaic.TcCoe Idealize.SL.Sem Idealize.ShloMosaic.StableHlo

set_option maxHeartbeats 40000000 in
/-- After @main's operations, from any contents `V`, the result buffer holds `Term.out` of the arguments' contents. -/
theorem after_out (V : Valuation τ sig (Elt Ideal)) :
    after Run.ops V (Proc.devRef .tc main_v186)
      = Term.out (V (Proc.devRef .tc main_arg0)) (V (Proc.devRef .tc main_arg1)) (V (Proc.devRef .tc main_arg2)) := by
  show after (Run.ops0 ++ (Run.ops1 ++ (Run.ops2 ++ (Run.ops3 ++ Run.ops4)))) V _ = _
  rw [Run.after_append, Run.after_append, Run.after_append, Run.after_append]
  after_results_simp
  rfl

end Cert.ReferenceIdeal.Link

end
-- ==== Proof.Algebra.lean ====
/-
  The two spellings of one summand agree on the extended reals.

  A radial summand differs only in r - 0 against r and in the names of the cosine and the
  exponential, which are one function each here.  An angular summand differs in three places:
  the positivity bit widened to a word and read signed against the bit read unsigned; the third
  distance √x against the guarded (√x where x > 0, else 0), which agree for 0 ≤ x; and the integer
  power by repeated squaring against the float power by 1, 2, 4 or 16, which agree on a positive
  base, ⊤ included.
-/
import proofs.«167439_j40243843564182_1_alg».proof.Proof.Spec
import Mathlib.Analysis.SpecialFunctions.Pow.Real
import Mathlib.Data.EReal.Basic
import Mathlib.Data.EReal.Operations
import Mathlib.Tactic.FinCases
import Mathlib.Tactic.Ring
import Mathlib.Tactic.NormNum

noncomputable section

namespace Cert.Algebra

open Idealize.ShloMosaic Cert.Spec

/-! ## The constants the two spellings read -/

/-- The word of +0.0 denotes 0. -/
theorem w_zero : w 0x00000000#32 = 0 := by
  simp [Ideal.ofBits, Ideal.ieee]

/-- The word of 1.0 denotes 1. -/
theorem w_one : w 0x3F800000#32 = ((1 : ℝ) : EReal) := by
  simp [Ideal.ofBits, Ideal.ieee, -EReal.coe_mul]; norm_num

/-- The word of 2.0 denotes 2. -/
theorem w_two : w 0x40000000#32 = ((2 : ℝ) : EReal) := by
  simp [Ideal.ofBits, Ideal.ieee, -EReal.coe_mul]; norm_num

/-- The word of 4.0 denotes 4. -/
theorem w_four : w 0x40800000#32 = ((4 : ℝ) : EReal) := by
  simp [Ideal.ofBits, Ideal.ieee, -EReal.coe_mul]; norm_num

/-- The word of 16.0 denotes 16. -/
theorem w_sixteen : w 0x41800000#32 = ((16 : ℝ) : EReal) := by
  simp [Ideal.ofBits, Ideal.ieee, -EReal.coe_mul]; norm_num

/-! ## One function under two names -/

/-- The cutoff: the kernel's cosine and quotient are the host's. -/
theorem fc_eq (r : Ideal .f32) : fcK r = fcR r := rfl

/-- The cosine of the angle: the kernel's quotient is the host's. -/
theorem cos_eq (rij rik rjk2 : Ideal .f32) : cosK rij rik rjk2 = cosR rij rik rjk2 := rfl

/-- The radial summand: r - 0 = r on every extended real. -/
theorem g2_eq (ne r : Ideal .f32) (b : BitVec 1) :
    g2K ne r (FloatOps.uitofp (F := Ideal) .f32 b) = g2R ne r b := by
  unfold g2K g2R
  rw [w_zero, Ideal.subf_def, sub_zero, fc_eq]
  rfl

/-! ## The positivity bit -/

/-- A select on a decided bit is the conditional. -/
theorem sel_ite {α : Type} (c : Prop) [Decidable c] (a b : α) :
    Scalar.select (if c then 1#1 else 0#1) a b = if c then a else b := by
  by_cases hc : c
  · rw [if_pos hc, if_pos hc]; exact if_pos rfl
  · rw [if_neg hc, if_neg hc]; exact if_neg (by decide)

/-- The comparison x > 0 as a bit. -/
theorem gt_zero_bit (x : Ideal .f32) :
    FloatOps.cmpf (F := Ideal) .ogt x (w 0x00000000#32) = if 0 < x then 1#1 else 0#1 := by
  show BitVec.ofBool (decide (w 0x00000000#32 < x)) = _
  rw [w_zero]
  by_cases h : 0 < x <;> simp [h]

/-- A bit widened to a word and read signed is the bit read unsigned: both are 0 or 1. -/
theorem sitofp_setWidth (p : BitVec 1) :
    FloatOps.sitofp (F := Ideal) .f32 (p.setWidth 32) = FloatOps.uitofp (F := Ideal) .f32 p := by
  show (((p.setWidth 32).toInt : ℝ) : EReal) = ((p.toNat : ℝ) : EReal)
  have hp : (p.setWidth 32).toInt = (p.toNat : ℤ) := by revert p; decide
  rw [hp, Int.cast_natCast]

/-! ## The guarded square root -/

/-- For 0 ≤ x the plain square root is the guarded one: above 0 both are √x, at 0 both are 0. -/
theorem sqrt_eq_rjkR (x : Ideal .f32) (h : 0 ≤ x) : FloatOps.sqrt x = rjkR x := by
  unfold rjkR
  rw [gt_zero_bit, sel_ite, sel_ite]
  by_cases hx : 0 < x
  · rw [if_pos hx, if_pos hx]; rfl
  · have hx0 : x = 0 := le_antisymm (not_lt.mp hx) h
    rw [if_neg hx, w_zero, hx0]
    show Ideal.sqrt ((0 : ℝ) : EReal) = 0
    rw [Ideal.sqrt_coe, if_neg (lt_irrefl _), Real.sqrt_zero, EReal.coe_zero]

/-- The product of the three cutoffs. -/
theorem fcprod_eq (rij rik rjk2 : Ideal .f32) (h : 0 ≤ rjk2) :
    fcprodK rij rik rjk2 = fcprodR rij rik rjk2 := by
  unfold fcprodK fcprodR
  rw [sqrt_eq_rjkR rjk2 h]
  rfl

/-! ## The integer power by squaring is the float power on a positive base -/

/-- The guarded base of the power, b where b > 0 and else 1, is positive. -/
theorem guard_pos (b : Ideal .f32) :
    0 < Scalar.select (FloatOps.cmpf (F := Ideal) .ogt b (w 0x00000000#32)) b (w 0x3F800000#32) := by
  rw [gt_zero_bit, sel_ite]
  by_cases hb : 0 < b
  · rw [if_pos hb]; exact hb
  · rw [if_neg hb, w_one]; exact EReal.coe_pos.mpr one_pos

/-- Exponent 1: no squaring.  At ⊤ the power is ⊤; on a real x ^ 1 = x. -/
theorem pw_one (x : Ideal .f32) (hx : 0 < x) : pwK 0 x = FloatOps.hostPowf x (w 0x3F800000#32) := by
  rw [w_one]
  show x = Ideal.pow x ((1 : ℝ) : EReal)
  induction x using EReal.rec with
  | bot => exact absurd hx (by simp)
  | top => rw [Ideal.pow_top, if_pos (EReal.coe_pos.mpr one_pos)]
  | coe r => rw [Ideal.pow_coe_coe, Real.rpow_eq_pow, Real.rpow_one]

/-- Exponent 2: one squaring.  ⊤ * ⊤ = ⊤; on a real x ^ 2 = x * x. -/
theorem pw_two (x : Ideal .f32) (hx : 0 < x) : pwK 1 x = FloatOps.hostPowf x (w 0x40000000#32) := by
  rw [w_two]
  show x * x = Ideal.pow x ((2 : ℝ) : EReal)
  induction x using EReal.rec with
  | bot => exact absurd hx (by simp)
  | top => rw [Ideal.pow_top, if_pos (EReal.coe_pos.mpr two_pos), EReal.top_mul_top]
  | coe r =>
    rw [Ideal.pow_coe_coe, Real.rpow_eq_pow, ← EReal.coe_mul, Real.rpow_two]
    congr 1; ring

/-- Exponent 4: two squarings. -/
theorem pw_four (x : Ideal .f32) (hx : 0 < x) : pwK 2 x = FloatOps.hostPowf x (w 0x40800000#32) := by
  rw [w_four]
  show (x * x) * (x * x) = Ideal.pow x ((4 : ℝ) : EReal)
  induction x using EReal.rec with
  | bot => exact absurd hx (by simp)
  | top => rw [Ideal.pow_top, if_pos (EReal.coe_pos.mpr (by norm_num)), EReal.top_mul_top, EReal.top_mul_top]
  | coe r =>
    have h4 : (4 : ℝ) = ((4 : ℕ) : ℝ) := by norm_num
    rw [Ideal.pow_coe_coe, Real.rpow_eq_pow, h4, Real.rpow_natCast, ← EReal.coe_mul, ← EReal.coe_mul]
    congr 1; ring

/-- Exponent 16: four squarings. -/
theorem pw_sixteen (x : Ideal .f32) (hx : 0 < x) : pwK 4 x = FloatOps.hostPowf x (w 0x41800000#32) := by
  rw [w_sixteen]
  show ((x * x) * (x * x) * ((x * x) * (x * x))) * ((x * x) * (x * x) * ((x * x) * (x * x)))
    = Ideal.pow x ((16 : ℝ) : EReal)
  induction x using EReal.rec with
  | bot => exact absurd hx (by simp)
  | top =>
    rw [Ideal.pow_top, if_pos (EReal.coe_pos.mpr (by norm_num))]
    simp only [EReal.top_mul_top]
  | coe r =>
    have h16 : (16 : ℝ) = ((16 : ℕ) : ℝ) := by norm_num
    rw [Ideal.pow_coe_coe, Real.rpow_eq_pow, h16, Real.rpow_natCast]
    simp only [← EReal.coe_mul]
    congr 1; ring

/-- Each angular term's number of squarings matches its exponent word: 1, 2, 4 repeating in pairs, 16 last. -/
theorem pw_eq (f : Fin 43) (x : Ideal .f32) (hx : 0 < x) :
    pwK (sqN f) x = FloatOps.hostPowf x (w (zetaW f)) := by
  fin_cases f <;>
    first
    | exact pw_one x hx
    | exact pw_two x hx
    | exact pw_four x hx
    | exact pw_sixteen x hx

/-! ## The angular summand -/

theorem g4_eq (f : Fin 43) (rij rik rjk2 : Ideal .f32) (t : BitVec 1) (h : 0 ≤ rjk2) :
    g4K (w (lamW f)) (w (ne4W f)) (w (coefW f)) (sqN f) rij rik rjk2 (FloatOps.uitofp (F := Ideal) .f32 t)
      = g4R (w (lamW f)) (w (zetaW f)) (w (ne4W f)) (w (coefW f)) rij rik rjk2 t := by
  simp only [g4K, g4R]
  rw [cos_eq, pw_eq f _ (guard_pos _), sitofp_setWidth, fcprod_eq _ _ _ h]
  rfl

end Cert.Algebra

end
-- ==== Proof.StageFacts.lean ====
/-
  Facts about the shared stages that join the two programs' spellings.

  The squared pair distance is a sum of three squares from zero, so it is nonnegative at every entry
  (an extended real's square is nonnegative, ⊤ and ⊥ included).  On a nonnegative entry the plain square
  root and the guarded one agree, so the two programs' pair masks, which differ only in which of the two
  they compare with the cutoff, are one array.  Each program prints its own copy of the two pair-index
  tables; the copies are equal entry by entry.
-/
import proofs.«167439_j40243843564182_1_alg».proof.Proof.Stages
import proofs.«167439_j40243843564182_1_alg».proof.KernelIdeal
import proofs.«167439_j40243843564182_1_alg».proof.Proof.Gen.KernelIdeal
import proofs.«167439_j40243843564182_1_alg».proof.Proof.Algebra
import Idealize.ShloMosaic.PureOps.Ideal.Laws
import Idealize.ShloMosaic.Lib.Decide
import Mathlib.Algebra.Order.BigOperators.Group.Finset

noncomputable section

namespace Cert.StageFacts

open Idealize.ShloMosaic

/-! ## The squared pair distance is nonnegative -/

/-- Every extended real has a nonnegative square: a real's square is nonnegative, and ⊤ * ⊤ = ⊥ * ⊥ = ⊤. -/
theorem mul_self_nonneg_ereal (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (mul_self_nonneg r)

/-- A host sum of squares from the zero word is nonnegative at every index: it is 0 plus a sum of
    nonnegative terms, whichever entries reduce to that index. -/
theorem reduceAdd_sq_nonneg {s t u : Shape} {axes : List (Fin s.rank)} (d : FVec Ideal s .f32)
    (h : s.ReducesTo axes t) (hu : 0 < u.numel) (j : t.Idx) :
    0 ≤ Host.reduceAdd (mulf d d) (constant u .f32 0x00000000#32) h hu j := by
  show 0 ≤ Ideal.hostReduceAdd h (mulf d d) (Ideal.ofBits .f32 0x00000000#32) j
  unfold Ideal.hostReduceAdd
  rw [Ideal.ofBits_zero_f32, zero_add]
  exact Finset.sum_nonneg fun k _ => mul_self_nonneg_ereal (d k)

theorem rjk2_nonneg (jj kk : Fin 496 → BitVec 32) (a0 : FVec Ideal Cert.ReferenceIdeal.S2000x3 .f32)
    (a2 : IVec Cert.ReferenceIdeal.S64000 32) (i : Cert.ReferenceIdeal.S2000x496.Idx) :
    0 ≤ Cert.Stages.rjk2 jj kk a0 a2 i := by
  unfold Cert.Stages.rjk2
  exact reduceAdd_sq_nonneg _ _ _ i

/-! ## The two pair masks are one array -/

/-- On an array of nonnegative entries the host's square root is the guarded square root, entry by entry. -/
theorem sqrt_eq_rjkRarr (x : FVec Ideal Cert.ReferenceIdeal.S2000x496 .f32) (hx : ∀ i, 0 ≤ x i) :
    Host.sqrt x = Cert.Stages.rjkRarr x := by
  funext i
  exact Cert.Algebra.sqrt_eq_rjkR (x i) (hx i)

theorem triK_eq_triR (jj kk : Fin 496 → BitVec 32) (a0 : FVec Ideal Cert.ReferenceIdeal.S2000x3 .f32)
    (a1 : IVec Cert.ReferenceIdeal.S2000 32) (a2 : IVec Cert.ReferenceIdeal.S64000 32) :
    Cert.Stages.triK jj kk a0 a1 a2 = Cert.Stages.triR jj kk a0 a1 a2 := by
  unfold Cert.Stages.triK Cert.Stages.triR
  rw [sqrt_eq_rjkRarr _ (rjk2_nonneg jj kk a0 a2)]

/-! ## The two copies of the pair-index tables -/

/-- The first neighbour slot of each of the 496 pairs: both programs' tables, entry by entry. -/
theorem lit_jj : Cert.KernelIdeal.lit0 = Cert.ReferenceIdeal.lit1 := by
  have h : ∀ i : Fin 496, Cert.KernelIdeal.lit0 i = Cert.ReferenceIdeal.lit1 i := by decide +kernel
  exact funext h

/-- The second neighbour slot of each pair. -/
theorem lit_kk : Cert.KernelIdeal.lit1 = Cert.ReferenceIdeal.lit2 := by
  have h : ∀ i : Fin 496, Cert.KernelIdeal.lit1 i = Cert.ReferenceIdeal.lit2 i := by decide +kernel
  exact funext h

end Cert.StageFacts

end
-- ==== Proof.Bridge.lean ====
/-
  The two programs' results are one array.  Over the shared per-neighbour and per-pair arrays both results are,
  entry by entry, the same sums: the pair index tables the two programs print are the same tables; the pair mask
  differs only in how the pair distance is taken (a plain square root against a guarded one: equal, the squared
  distance being a sum of squares); and each summand's two spellings agree on the extended reals.
-/
import proofs.«167439_j40243843564182_1_alg».proof.Proof.SpecArr
import proofs.«167439_j40243843564182_1_alg».proof.Proof.Stages
import proofs.«167439_j40243843564182_1_alg».proof.Proof.Algebra
import proofs.«167439_j40243843564182_1_alg».proof.Proof.StageFacts

noncomputable section

namespace Cert.Bridge

open Idealize.ShloMosaic Cert.ReferenceIdeal

/-- The kernel program's result over its own copy of the pair tables is the reference's over its copy. -/
theorem outK_eq_outR (a0 : FVec Ideal S2000x3 .f32) (a1 : IVec S2000 32) (a2 : IVec S64000 32) :
    Cert.Spec.outK (Cert.Stages.r a0 a2) (Cert.Stages.maskj a0 a1 a2)
        (Cert.Stages.alongF Cert.KernelIdeal.lit0 (Cert.Stages.r a0 a2)) (Cert.Stages.alongF Cert.KernelIdeal.lit1 (Cert.Stages.r a0 a2))
        (Cert.Stages.rjk2 Cert.KernelIdeal.lit0 Cert.KernelIdeal.lit1 a0 a2) (Cert.Stages.triK Cert.KernelIdeal.lit0 Cert.KernelIdeal.lit1 a0 a1 a2)
      = Cert.Spec.outR (Cert.Stages.r a0 a2) (Cert.Stages.maskj a0 a1 a2)
        (Cert.Stages.alongF Cert.ReferenceIdeal.lit1 (Cert.Stages.r a0 a2)) (Cert.Stages.alongF Cert.ReferenceIdeal.lit2 (Cert.Stages.r a0 a2))
        (Cert.Stages.rjk2 Cert.ReferenceIdeal.lit1 Cert.ReferenceIdeal.lit2 a0 a2) (Cert.Stages.triR Cert.ReferenceIdeal.lit1 Cert.ReferenceIdeal.lit2 a0 a1 a2) := by
  rw [Cert.StageFacts.lit_jj, Cert.StageFacts.lit_kk, Cert.StageFacts.triK_eq_triR]
  funext j
  unfold Cert.Spec.outK Cert.Spec.outR
  split
  · exact Finset.sum_congr rfl fun k _ => Cert.Algebra.g2_eq _ _ _
  · exact Finset.sum_congr rfl fun p _ => Cert.Algebra.g4_eq _ _ _ _ _ (Cert.StageFacts.rjk2_nonneg _ _ _ _ _)

end Cert.Bridge

end
-- ==== Proof.lean ====
/-
  The certificate: both idealized programs compute the 51 atom-centred symmetry-function descriptors — 8 radial
  sums over the 32 neighbour slots and 43 angular sums over the 496 neighbour pairs — of the same positions,
  neighbour counts and neighbour lists.  The kernel program builds the per-neighbour and per-pair arrays on the host,
  pads the atoms to 2048, transposes, and sums inside one pipelined kernel over four blocks of 512 atom columns;
  the reference sums the same terms over [atom, slot, 8] and [atom, pair, 43] tensors.  Entry by entry the two
  results are the same sums over the same shared arrays (the summands' two spellings agree on the extended
  reals: an integer power by squaring against a float power of a positive base, a plain square root against a
  guarded one of a sum of squares, a bit read signed after widening against the bit read unsigned).
  The kernel's frames are the generated frame certificates (their body triple restated over the body as a short program); the reference's frame is its run with the result dropped;
  the idealization rewrote nothing, so `preserves` is trivial.
-/
import proofs.«167439_j40243843564182_1_alg».proof.Defs
import proofs.«167439_j40243843564182_1_alg».proof.Proof.Gen.Kernel
import proofs.«167439_j40243843564182_1_alg».proof.Proof.FramePK
import proofs.«167439_j40243843564182_1_alg».proof.Proof.Gen.KernelIdeal
import proofs.«167439_j40243843564182_1_alg».proof.Proof.FrameP
import proofs.«167439_j40243843564182_1_alg».proof.Proof.Gen.ReferenceIdeal
import proofs.«167439_j40243843564182_1_alg».proof.Proof.Gen.Pre_finite_inputs
import proofs.«167439_j40243843564182_1_alg».proof.Proof.KerRun
import proofs.«167439_j40243843564182_1_alg».proof.Proof.RefRun
import proofs.«167439_j40243843564182_1_alg».proof.Proof.RefLink
import proofs.«167439_j40243843564182_1_alg».proof.Proof.Bridge

noncomputable section

namespace Cert.Proof

open Idealize.ShloMosaic Idealize.ShloMosaic.TcCoe Idealize.SL.Sem Idealize.ShloMosaic.StableHlo

/-- The reference's run with its result named: the composed term of its operations is `outR` of the shared arrays. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v186)
        = Cert.ReferenceIdeal.Term.out (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run Cert.ReferenceIdeal.defs _ _).mono (fun _ h c =>
    ⟨(h c Cert.ReferenceIdeal.main_v186).trans (Cert.ReferenceIdeal.Link.after_out _),
     (h c Cert.ReferenceIdeal.main_arg0).trans (Cert.ReferenceIdeal.Run.after_arg0 _),
     (h c Cert.ReferenceIdeal.main_arg1).trans (Cert.ReferenceIdeal.Run.after_arg1 _),
     (h c Cert.ReferenceIdeal.main_arg2).trans (Cert.ReferenceIdeal.Run.after_arg2 _)⟩)
    (Cert.ReferenceIdeal.Run.run_after m ρ)

theorem frame_k : Cert.frame_Kernel (hKernel := Cert.Kernel.Gen.facts) (hPre_finite_inputs := Cert.Pre_finite_inputs.Gen.facts) :=
  fun m ρ _ => Cert.Kernel.GenP.frame m ρ

theorem frame_ki : Cert.frame_KernelIdeal (hKernelIdeal := Cert.KernelIdeal.Gen.facts) (hPre_finite_inputs := Cert.Pre_finite_inputs.Gen.facts) :=
  fun m ρ _ => Cert.KernelIdeal.GenP.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (ref_run m ρ)

/-- Both runs end at the reference's `outR` of the shared arrays of the (agreeing) arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.ReferenceIdeal.Term.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩) (Cert.KernelIdeal.KerRun.run m ρ)
    exact (Cert.Bridge.outK_eq_outR _ _ _).trans (Cert.ReferenceIdeal.Term.out_eq_spec _ _ _).symm
  · refine (θ_run Cert.ReferenceIdeal.defs _ _).mono (fun _ h c => ⟨(h c).1.trans ?_, (h c).2⟩) (ref_run m' ρ')
    show Cert.ReferenceIdeal.Term.out _ _ _ = Cert.ReferenceIdeal.Term.out _ _ _
    rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
